-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S2048x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S1000x256 : Shape := ⟨2, ![1000, 256]⟩
abbrev S1000 : Shape := ⟨1, ![1000]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_
  bcast_S_S1000 : S_.BroadcastsInDim S1000 (![] : Fin 0 → Fin S1000.rank)
  reducesTo_S1000_S_d0 : S1000.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg3 : IVec S262144 32) (main_arg4 : IVec S262144 32) (main_v13 : IVec S_ 1) (main_v15 : IVec S262144 1) (main_c_5 : IVec S_ 32) : IVec S_ 1 :=
  let main_v16 : IVec S262144 32 := broadcastInDim S262144 ![] bcast_S_S262144 main_c_5
  let main_v17 : IVec S262144 1 := cmpi .slt main_arg3 main_v16
  let main_v18 : IVec S262144 1 := andi main_v15 main_v17
  let main_c_6 : IVec S_ 1 := constantI S_ 1 1#1
  let main_v19 : IVec S_ 1 := (fun x v => Host.reduce IntOp.andi x v reducesTo_S262144_S_d0 h_S_) main_v18 main_c_6
  let main_v20 : IVec S_ 1 := andi main_v13 main_v19
  let main_c_7 : IVec S_ 32 := constantI S_ 32 0#32
  let main_v21 : IVec S262144 32 := broadcastInDim S262144 ![] bcast_S_S262144 main_c_7
  let main_v22 : IVec S262144 1 := cmpi .sge main_arg4 main_v21
  let main_c_8 : IVec S_ 32 := constantI S_ 32 2#32
  let main_v23 : IVec S262144 32 := broadcastInDim S262144 ![] bcast_S_S262144 main_c_8
  let main_v24 : IVec S262144 1 := cmpi .slt main_arg4 main_v23
  let main_v25 : IVec S262144 1 := andi main_v22 main_v24
  let main_c_9 : IVec S_ 1 := constantI S_ 1 1#1
  let main_v26 : IVec S_ 1 := (fun x v => Host.reduce IntOp.andi x v reducesTo_S262144_S_d0 h_S_) main_v25 main_c_9
  let main_v27 : IVec S_ 1 := andi main_v20 main_v26
  main_v27

def fn {F : FTy → Type} [FloatOps F] (main_arg0 : FVec F S262144x256 .f32) (main_arg1 : FVec F S1000x256 .f32) (main_arg2 : FVec F S1000 .f32) (main_arg3 : IVec S262144 32) (main_arg4 : IVec S262144 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1000x256 .f32 := Host.absf main_arg1
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_c_4 : IVec S_ 32 := constantI S_ 32 0#32
  let main_v14 : IVec S262144 32 := broadcastInDim S262144 ![] bcast_S_S262144 main_c_4
  let main_v15 : IVec S262144 1 := cmpi .sge main_arg3 main_v14
  let main_c_5 : IVec S_ 32 := constantI S_ 32 1000#32
  fn_part1 (F := F) main_arg3 main_arg4 main_v13 main_v15 main_c_5
-- ==== Kernel.lean ====
abbrev S262144x256 : Shape := ⟨2, ![262144, 256]⟩
abbrev S1000x256 : Shape := ⟨2, ![1000, 256]⟩
abbrev S1000 : Shape := ⟨1, ![1000]⟩
abbrev S262144 : Shape := ⟨1, ![262144]⟩
abbrev S_ : Shape := ⟨0, ![]⟩
abbrev S262144x1 : Shape := ⟨2, ![262144, 1]⟩
abbrev S2x1024x256 : Shape := ⟨3, ![2, 1024, 256]⟩
abbrev S2x1x1024 : Shape := ⟨3, ![2, 1, 1024]⟩
abbrev S2048x256 : Shape := ⟨2, ![2048, 256]⟩
abbrev S2048x1 : Shape := ⟨2, ![2048, 1]⟩
abbrev S1x1024x256 : Shape := ⟨3, ![1, 1024, 256]⟩
abbrev S1x1x1024 : Shape := ⟨3, ![1, 1, 1024]⟩
abbrev S1024x256 : Shape := ⟨2, ![1024, 256]⟩
abbrev S1x1024 : Shape := ⟨2, ![1, 1024]⟩
abbrev S2048x1024 : Shape := ⟨2, ![2048, 1024]⟩
abbrev S1024 : Shape := ⟨1, ![1024]⟩
abbrev S1000x1 : Shape := ⟨2, ![1000, 1]⟩
abbrev S2x1x1 : Shape := ⟨3, ![2, 1, 1]⟩
abbrev S1x1x1 : Shape := ⟨3, ![1, 1, 1]⟩
abbrev S1x1 : Shape := ⟨2, ![1, 1]⟩
abbrev S2048 : Shape := ⟨1, ![2048]⟩
abbrev S1 : Shape := ⟨1, ![1]⟩

abbrev nBuf : Space → Nat
  | .hbm => 79
  | .vmem => 19
  | .smem => 0
  | _ => 0

abbrev bufTy : (tb : Table) → Fin (tcTables nBuf tb) → BufTy
  | .hbm, ⟨0, _⟩ => ⟨S262144x256, .f32⟩
  | .hbm, ⟨1, _⟩ => ⟨S1000x256, .f32⟩
  | .hbm, ⟨2, _⟩ => ⟨S1000, .f32⟩
  | .hbm, ⟨3, _⟩ => ⟨S262144, .i32⟩
  | .hbm, ⟨4, _⟩ => ⟨S262144, .i32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S2x1024x256, .f32⟩
  | .hbm, ⟨18, _⟩ => ⟨S2x1x1024, .f32⟩
  | .hbm, ⟨19, _⟩ => ⟨S_, .f32⟩
  | .hbm, ⟨20, _⟩ => ⟨S1024x256, .f32⟩
  | .hbm, ⟨21, _⟩ => ⟨S1000x256, .f32⟩
  | .hbm, ⟨22, _⟩ => ⟨S_, .f32⟩
  | .hbm, ⟨23, _⟩ => ⟨S1x1024, .f32⟩
  | .hbm, ⟨24, _⟩ => ⟨S1024, .f32⟩
  | .hbm, ⟨25, _⟩ => ⟨S1000, .f32⟩
  | .hbm, ⟨26, _⟩ => ⟨S_, .f32⟩
  | .hbm, ⟨27, _⟩ => ⟨S1000, .f32⟩
  | .hbm, ⟨28, _⟩ => ⟨S1000, .f32⟩
  | .hbm, ⟨29, _⟩ => ⟨S1000x1, .f32⟩
  | .hbm, ⟨30, _⟩ => ⟨S1000x256, .f32⟩
  | .hbm, ⟨31, _⟩ => ⟨S1000x256, .f32⟩
  | .hbm, ⟨32, _⟩ => ⟨S_, .f32⟩
  | .hbm, ⟨33, _⟩ => ⟨S1000, .f32⟩
  | .hbm, ⟨34, _⟩ => ⟨S1000, .i1⟩
  | .hbm, ⟨35, _⟩ => ⟨S1000x1, .i1⟩
  | .hbm, ⟨36, _⟩ => ⟨S_, .f32⟩
  | .hbm, ⟨37, _⟩ => ⟨S1000x256, .f32⟩
  | .hbm, ⟨38, _⟩ => ⟨S1000x256, .f32⟩
  | .hbm, ⟨39, _⟩ => ⟨S_, .f32⟩
  | .hbm, ⟨40, _⟩ => ⟨S1000x256, .f32⟩
  | .hbm, ⟨41, _⟩ => ⟨S1000x256, .f32⟩
  | .hbm, ⟨42, _⟩ => ⟨S1000x256, .f32⟩
  | .hbm, ⟨43, _⟩ => ⟨S1000x256, .i1⟩
  | .hbm, ⟨44, _⟩ => ⟨S1000x256, .f32⟩
  | .hbm, ⟨45, _⟩ => ⟨S_, .i32⟩
  | .hbm, ⟨46, _⟩ => ⟨S_, .f32⟩
  | .hbm, ⟨47, _⟩ => ⟨S1024x256, .f32⟩
  | .hbm, ⟨48, _⟩ => ⟨S262144x1, .i32⟩
  | .hbm, ⟨49, _⟩ => ⟨S1024x256, .bf16⟩
  | .hbm, ⟨50, _⟩ => ⟨S2x1x1024, .f32⟩
  | .hbm, ⟨51, _⟩ => ⟨S2x1x1, .f32⟩
  | .hbm, ⟨52, _⟩ => ⟨S2x1x1, .f32⟩
  | .hbm, ⟨53, _⟩ => ⟨S_, .f32⟩
  | .hbm, ⟨54, _⟩ => ⟨S1x1024, .f32⟩
  | .hbm, ⟨55, _⟩ => ⟨S1024, .f32⟩
  | .hbm, ⟨56, _⟩ => ⟨S1000, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1000, .f32⟩
  | .hbm, ⟨62, _⟩ => ⟨S_, .f32⟩
  | .hbm, ⟨63, _⟩ => ⟨S1000, .f32⟩
  | .hbm, ⟨64, _⟩ => ⟨S1000, .f32⟩
  | .hbm, ⟨65, _⟩ => ⟨S_, .f32⟩
  | .hbm, ⟨66, _⟩ => ⟨S1000, .f32⟩
  | .hbm, ⟨67, _⟩ => ⟨S1000, .f32⟩
  | .hbm, ⟨68, _⟩ => ⟨S1000, .f32⟩
  | .hbm, ⟨69, _⟩ => ⟨S1000, .f32⟩
  | .hbm, ⟨70, _⟩ => ⟨S_, .f32⟩
  | .hbm, ⟨71, _⟩ => ⟨S_, .i1⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x1, .i32⟩
  | .local _ .vmem, ⟨3, _⟩ => ⟨S2048x1, .i32⟩
  | .local _ .vmem, ⟨4, _⟩ => ⟨S1x1024x256, .f32⟩
  | .local _ .vmem, ⟨5, _⟩ => ⟨S1x1024x256, .f32⟩
  | .local _ .vmem, ⟨6, _⟩ => ⟨S1x1x1024, .f32⟩
  | .local _ .vmem, ⟨7, _⟩ => ⟨S1x1x1024, .f32⟩
  | .local _ .vmem, ⟨8, _⟩ => ⟨S2048x256, .f32⟩
  | .local _ .vmem, ⟨9, _⟩ => ⟨S2048x256, .f32⟩
  | .local _ .vmem, ⟨10, _⟩ => ⟨S2048x1, .i32⟩
  | .local _ .vmem, ⟨11, _⟩ => ⟨S2048x1, .i32⟩
  | .local _ .vmem, ⟨12, _⟩ => ⟨S1024x256, .bf16⟩
  | .local _ .vmem, ⟨13, _⟩ => ⟨S1x1x1024, .f32⟩
  | .local _ .vmem, ⟨14, _⟩ => ⟨S1x1x1024, .f32⟩
  | .local _ .vmem, ⟨15, _⟩ => ⟨S1x1x1, .f32⟩
  | .local _ .vmem, ⟨16, _⟩ => ⟨S1x1x1, .f32⟩
  | .local _ .vmem, ⟨17, _⟩ => ⟨S1x1x1, .f32⟩
  | .local _ .vmem, ⟨18, _⟩ => ⟨S1x1x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call1_v0 : Ref sig .tc := ⟨.hbm, 43, rfl⟩
abbrev main_v26 : Ref sig .tc := ⟨.hbm, 44, rfl⟩
abbrev main_c_7 : Ref sig .tc := ⟨.hbm, 45, rfl⟩
abbrev main_call2_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30_0 : Ref sig .tc := ⟨.hbm, 50, rfl⟩
abbrev main_v30_1 : Ref sig .tc := ⟨.hbm, 51, rfl⟩
abbrev main_v30_2 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_cst_10 : Ref sig .tc := ⟨.hbm, 59, rfl⟩
abbrev main_v35 : Ref sig .tc := ⟨.hbm, 60, rfl⟩
abbrev main_v36 : Ref sig .tc := ⟨.hbm, 61, rfl⟩
abbrev main_cst_11 : Ref sig .tc := ⟨.hbm, 62, rfl⟩
abbrev main_v37 : Ref sig .tc := ⟨.hbm, 63, rfl⟩
abbrev main_v38 : Ref sig .tc := ⟨.hbm, 64, rfl⟩
abbrev main_cst_12 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_13 : Ref sig .tc := ⟨.hbm, 70, rfl⟩
abbrev main_v43 : Ref sig .tc := ⟨.hbm, 71, rfl⟩
abbrev main_cst_14 : Ref sig .tc := ⟨.hbm, 72, rfl⟩
abbrev main_v44 : Ref sig .tc := ⟨.hbm, 73, rfl⟩
abbrev main_cst_15 : Ref sig .tc := ⟨.hbm, 74, rfl⟩
abbrev main_v45 : Ref sig .tc := ⟨.hbm, 75, rfl⟩
abbrev main_v46 : Ref sig .tc := ⟨.hbm, 76, rfl⟩
abbrev main_cst_16 : Ref sig .tc := ⟨.hbm, 77, rfl⟩
abbrev main_v47 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 64], ![false, false]⟩

def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S262144 : S_.BroadcastsInDim S262144 (![] : Fin 0 → Fin S262144.rank)
  shapeCasts_S262144_S262144x1 : S262144.ShapeCasts S262144x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x1024_d1_w32 : S1x1024.Iotas .tc 32 [1]
  broadcasts_S2048x1_S2048x1024 : S2048x1.Broadcasts S2048x1024
  broadcasts_S1x1024_S2048x1024 : S1x1024.Broadcasts S2048x1024
  natLt_1_32 : 1 < 32
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  reducesTo_S2x1024x256_S1024x256_d0 : S2x1024x256.ReducesTo [0] S1024x256
  h_S_ : 0 < S_.numel
  slices_S1024x256_S1000x256_0_0 : S1024x256.Slices ![0, 0] S1000x256
  reducesTo_S2x1x1024_S1x1024_d0 : S2x1x1024.ReducesTo [0] S1x1024
  shapeCasts_S1x1024_S1024 : S1x1024.ShapeCasts S1024
  slices_S1024_S1000_0 : S1024.Slices ![0] S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  bcast_S_S1000x256 : S_.BroadcastsInDim S1000x256 (![] : Fin 0 → Fin S1000x256.rank)
  pads_S1000x256_S1024x256_0240_000 : S1000x256.Pads (![0, 0] : Fin 2 → Nat) ![24, 0] ![0, 0] S1024x256
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S2048x1_S2048x256 : S2048x1.Broadcasts S2048x256
  reduces_S2048x256_S2048 : S2048x256.Reduces [1] S2048
  shapeCasts_S2048_S2048x1 : S2048.ShapeCasts S2048x1
  reduces_S2048x1_S1 : S2048x1.Reduces [0] S1
  shapeCasts_S1_S1x1 : S1.ShapeCasts S1x1
  reducesTo_S2x1x1_S_d0_1_2 : S2x1x1.ReducesTo [0, 1, 2] S_
  dot_S2048x1_S2048x1024_S1x1024_0_0_1_1_n_n_wf : DotDims.WF S2048x1 S2048x1024 S1x1024 [0] [0] [1] [1] [] []
  dot_S2048x1024_S2048x256_S1024x256_0_0_1_1_n_n_wf : DotDims.WF S2048x1024 S2048x256 S1024x256 [0] [0] [1] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .i32 = 32 ∨ (Rect.block (s := S262144x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x256.size a
  hwx0_2 : ∀ i : grid0.Coords, EltTy.bits .f32 = 32 ∨ (Rect.block (s := S2x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S262144x256.size a
  hwx1_0 : ∀ i : grid1.Coords, EltTy.bits .f32 = 32 ∨ (Rect.block (s := S262144x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S262144x1.size a
  hwx1_1 : ∀ i : grid1.Coords, EltTy.bits .i32 = 32 ∨ (Rect.block (s := S262144x1) S2048x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S1024x256.size a
  hwx1_2 : ∀ i : grid1.Coords, EltTy.bits .bf16 = 32 ∨ (Rect.block (s := S1024x256) S1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S2x1x1024.size a
  hwx1_3 : ∀ i : grid1.Coords, EltTy.bits .f32 = 32 ∨ (Rect.block (s := S2x1x1024) S1x1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S2x1x1.size a
  hwx1_4 : ∀ i : grid1.Coords, EltTy.bits .f32 = 32 ∨ (Rect.block (s := S2x1x1) S1x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1.size a ≤ S2x1x1.size a
  hwx1_5 : ∀ i : grid1.Coords, EltTy.bits .f32 = 32 ∨ (Rect.block (s := S2x1x1) S1x1x1.size (cc1_transform_5 i) (hinb1_5 i)).WholeWords (EltTy.packing .f32)

variable [Facts₀]

def dot_S2048x1_S2048x1024_S1x1024_0_0_1_1_n_n : DotDims S2048x1 S2048x1024 S1x1024 where
  lhsContracting := [0]
  rhsContracting := [0]
  lhsNonContracting := [1]
  rhsNonContracting := [1]
  lhsBatch := []
  rhsBatch := []
  wf := dot_S2048x1_S2048x1024_S1x1024_0_0_1_1_n_n_wf
def dot_S2048x1024_S2048x256_S1024x256_0_0_1_1_n_n : DotDims S2048x1024 S2048x256 S1024x256 where
  lhsContracting := [0]
  rhsContracting := [0]
  lhsNonContracting := [1]
  rhsNonContracting := [1]
  lhsBatch := []
  rhsBatch := []
  wf := dot_S2048x1024_S2048x256_S1024x256_0_0_1_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S1x1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1024x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30_0) S1x1x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30_1) S1x1x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30_2) S1x1x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S262144x256 : Shape := ⟨2, ![262144, 256]⟩
abbrev S1000x256 : Shape := ⟨2, ![1000, 256]⟩
abbrev S1000 : Shape := ⟨1, ![1000]⟩
abbrev S262144 : Shape := ⟨1, ![262144]⟩
abbrev S_ : Shape := ⟨0, ![]⟩
abbrev S262144x1 : Shape := ⟨2, ![262144, 1]⟩
abbrev S1001x256 : Shape := ⟨2, ![1001, 256]⟩
abbrev S1001 : Shape := ⟨1, ![1001]⟩
abbrev S1000x1 : Shape := ⟨2, ![1000, 1]⟩

abbrev nBuf : Space → Nat
  | .hbm => 107
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S1000x256, .f32⟩
  | .hbm, ⟨2, _⟩ => ⟨S1000, .f32⟩
  | .hbm, ⟨3, _⟩ => ⟨S262144, .i32⟩
  | .hbm, ⟨4, _⟩ => ⟨S262144, .i32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S262144, .f32⟩
  | .hbm, ⟨9, _⟩ => ⟨S_, .i32⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S262144x1, .f32⟩
  | .hbm, ⟨14, _⟩ => ⟨S262144x256, .f32⟩
  | .hbm, ⟨15, _⟩ => ⟨S262144x256, .f32⟩
  | .hbm, ⟨16, _⟩ => ⟨S_, .f32⟩
  | .hbm, ⟨17, _⟩ => ⟨S1001x256, .f32⟩
  | .hbm, ⟨18, _⟩ => ⟨S262144x1, .i32⟩
  | .hbm, ⟨19, _⟩ => ⟨S1001x256, .f32⟩
  | .hbm, ⟨20, _⟩ => ⟨S1000x256, .f32⟩
  | .hbm, ⟨21, _⟩ => ⟨S_, .f32⟩
  | .hbm, ⟨22, _⟩ => ⟨S1001, .f32⟩
  | .hbm, ⟨23, _⟩ => ⟨S262144x1, .i32⟩
  | .hbm, ⟨24, _⟩ => ⟨S1001, .f32⟩
  | .hbm, ⟨25, _⟩ => ⟨S1000, .f32⟩
  | .hbm, ⟨26, _⟩ => ⟨S_, .f32⟩
  | .hbm, ⟨27, _⟩ => ⟨S1000, .f32⟩
  | .hbm, ⟨28, _⟩ => ⟨S1000, .f32⟩
  | .hbm, ⟨29, _⟩ => ⟨S1000x1, .f32⟩
  | .hbm, ⟨30, _⟩ => ⟨S1000x256, .f32⟩
  | .hbm, ⟨31, _⟩ => ⟨S1000x256, .f32⟩
  | .hbm, ⟨32, _⟩ => ⟨S_, .f32⟩
  | .hbm, ⟨33, _⟩ => ⟨S1000, .f32⟩
  | .hbm, ⟨34, _⟩ => ⟨S1000, .i1⟩
  | .hbm, ⟨35, _⟩ => ⟨S1000x1, .i1⟩
  | .hbm, ⟨36, _⟩ => ⟨S_, .f32⟩
  | .hbm, ⟨37, _⟩ => ⟨S1000x256, .f32⟩
  | .hbm, ⟨38, _⟩ => ⟨S1000x256, .f32⟩
  | .hbm, ⟨39, _⟩ => ⟨S_, .f32⟩
  | .hbm, ⟨40, _⟩ => ⟨S1000x256, .f32⟩
  | .hbm, ⟨41, _⟩ => ⟨S1000x256, .f32⟩
  | .hbm, ⟨42, _⟩ => ⟨S1000x256, .f32⟩
  | .hbm, ⟨43, _⟩ => ⟨S1000x256, .i1⟩
  | .hbm, ⟨44, _⟩ => ⟨S1000x256, .f32⟩
  | .hbm, ⟨45, _⟩ => ⟨S_, .i32⟩
  | .hbm, ⟨46, _⟩ => ⟨S262144, .i32⟩
  | .hbm, ⟨47, _⟩ => ⟨S262144, .i1⟩
  | .hbm, ⟨48, _⟩ => ⟨S_, .i32⟩
  | .hbm, ⟨49, _⟩ => ⟨S262144, .i32⟩
  | .hbm, ⟨50, _⟩ => ⟨S262144, .i32⟩
  | .hbm, ⟨51, _⟩ => ⟨S262144, .i32⟩
  | .hbm, ⟨52, _⟩ => ⟨S262144x1, .i32⟩
  | .hbm, ⟨53, _⟩ => ⟨S262144x256, .f32⟩
  | .hbm, ⟨54, _⟩ => ⟨S262144x256, .f32⟩
  | .hbm, ⟨55, _⟩ => ⟨S_, .f32⟩
  | .hbm, ⟨56, _⟩ => ⟨S262144x256, .f32⟩
  | .hbm, ⟨57, _⟩ => ⟨S262144x256, .f32⟩
  | .hbm, ⟨58, _⟩ => ⟨S262144x256, .f32⟩
  | .hbm, ⟨59, _⟩ => ⟨S_, .f32⟩
  | .hbm, ⟨60, _⟩ => ⟨S262144, .f32⟩
  | .hbm, ⟨61, _⟩ => ⟨S262144, .f32⟩
  | .hbm, ⟨62, _⟩ => ⟨S262144, .f32⟩
  | .hbm, ⟨63, _⟩ => ⟨S_, .f32⟩
  | .hbm, ⟨64, _⟩ => ⟨S1001, .f32⟩
  | .hbm, ⟨65, _⟩ => ⟨S262144x1, .i32⟩
  | .hbm, ⟨66, _⟩ => ⟨S1001, .f32⟩
  | .hbm, ⟨67, _⟩ => ⟨S1000, .f32⟩
  | .hbm, ⟨68, _⟩ => ⟨S1000, .f32⟩
  | .hbm, ⟨69, _⟩ => ⟨S_, .f32⟩
  | .hbm, ⟨70, _⟩ => ⟨S1000, .f32⟩
  | .hbm, ⟨71, _⟩ => ⟨S1000, .f32⟩
  | .hbm, ⟨72, _⟩ => ⟨S_, .f32⟩
  | .hbm, ⟨73, _⟩ => ⟨S1000, .f32⟩
  | .hbm, ⟨74, _⟩ => ⟨S1000, .f32⟩
  | .hbm, ⟨75, _⟩ => ⟨S1000, .f32⟩
  | .hbm, ⟨76, _⟩ => ⟨S1000, .f32⟩
  | .hbm, ⟨77, _⟩ => ⟨S_, .f32⟩
  | .hbm, ⟨78, _⟩ => ⟨S262144, .f32⟩
  | .hbm, ⟨79, _⟩ => ⟨S262144, .f32⟩
  | .hbm, ⟨80, _⟩ => ⟨S_, .i32⟩
  | .hbm, ⟨81, _⟩ => ⟨S262144, .i32⟩
  | .hbm, ⟨82, _⟩ => ⟨S262144, .i1⟩
  | .hbm, ⟨83, _⟩ => ⟨S_, .i32⟩
  | .hbm, ⟨84, _⟩ => ⟨S262144, .i32⟩
  | .hbm, ⟨85, _⟩ => ⟨S262144, .i32⟩
  | .hbm, ⟨86, _⟩ => ⟨S262144, .i32⟩
  | .hbm, ⟨87, _⟩ => ⟨S262144x1, .i32⟩
  | .hbm, ⟨88, _⟩ => ⟨S262144x256, .f32⟩
  | .hbm, ⟨89, _⟩ => ⟨S262144x256, .f32⟩
  | .hbm, ⟨90, _⟩ => ⟨S262144x256, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .i1⟩
  | .hbm, ⟨95, _⟩ => ⟨S262144x1, .f32⟩
  | .hbm, ⟨96, _⟩ => ⟨S262144x256, .f32⟩
  | .hbm, ⟨97, _⟩ => ⟨S262144x256, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_v0 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_c_14 : Ref sig .tc := ⟨.hbm, 80, rfl⟩
abbrev main_v56 : Ref sig .tc := ⟨.hbm, 81, rfl⟩
abbrev main_v57 : Ref sig .tc := ⟨.hbm, 82, rfl⟩
abbrev main_c_15 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_cst_17 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_18 : Ref sig .tc := ⟨.hbm, 98, rfl⟩
abbrev main_v70 : Ref sig .tc := ⟨.hbm, 99, rfl⟩
abbrev main_cst_19 : Ref sig .tc := ⟨.hbm, 100, rfl⟩
abbrev main_v71 : Ref sig .tc := ⟨.hbm, 101, rfl⟩
abbrev main_cst_20 : Ref sig .tc := ⟨.hbm, 102, rfl⟩
abbrev main_v72 : Ref sig .tc := ⟨.hbm, 103, rfl⟩
abbrev main_v73 : Ref sig .tc := ⟨.hbm, 104, rfl⟩
abbrev main_cst_21 : Ref sig .tc := ⟨.hbm, 105, rfl⟩
abbrev main_v74 : Ref sig .tc := ⟨.hbm, 106, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S1001x256 : S_.BroadcastsInDim S1001x256 (![] : Fin 0 → Fin S1001x256.rank)
  slices_S1001x256_S1000x256_0_0 : S1001x256.Slices ![0, 0] S1000x256
  bcast_S_S1001 : S_.BroadcastsInDim S1001 (![] : Fin 0 → Fin S1001.rank)
  slices_S1001_S1000_0 : S1001.Slices ![0] S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  bcast_S_S1000x256 : S_.BroadcastsInDim S1000x256 (![] : Fin 0 → Fin S1000x256.rank)
  bcast_S_S262144x256 : S_.BroadcastsInDim S262144x256 (![] : Fin 0 → Fin S262144x256.rank)
  reducesTo_S262144x256_S262144_d1 : S262144x256.ReducesTo [1] S262144
  h_S_ : 0 < S_.numel
  reducesTo_S262144_S_d0 : S262144.ReducesTo [0] S_
  reducesTo_S262144x256_S_d0_1 : S262144x256.ReducesTo [0, 1] S_
  scatter_S1001x256_S262144x1_S262144x256_1_0_0_1_wf : ScatterDims.WF S1001x256 S262144x1 S262144x256 [1] [0] [0] 1
  scatter_S1001_S262144x1_S262144_n_0_0_1_wf : ScatterDims.WF S1001 S262144x1 S262144 [] [0] [0] 1
  gather_S1000x256_S262144x1_S262144x256_1_0_n_n_0_1_1256_wf : GatherDims.WF S1000x256 S262144x1 S262144x256 [1] [0] [] [0] [] 1 ![1, 256]

variable [Facts₀]

def scatter_S1001x256_S262144x1_S262144x256_1_0_0_1 : ScatterDims S1001x256 S262144x1 S262144x256 where
  updateWindowDims := [1]
  insertedWindowDims := [0]
  scatterDimsToOperandDims := [0]
  indexVectorDim := 1
  wf := scatter_S1001x256_S262144x1_S262144x256_1_0_0_1_wf
def scatter_S1001_S262144x1_S262144_n_0_0_1 : ScatterDims S1001 S262144x1 S262144 where
  updateWindowDims := []
  insertedWindowDims := [0]
  scatterDimsToOperandDims := [0]
  indexVectorDim := 1
  wf := scatter_S1001_S262144x1_S262144_n_0_0_1_wf
def gather_S1000x256_S262144x1_S262144x256_1_0_n_n_0_1_1256 : GatherDims S1000x256 S262144x1 S262144x256 where
  offsetDims := [1]
  collapsedSliceDims := [0]
  operandBatchingDims := []
  startIndicesBatchingDims := []
  startIndexMap := [0]
  indexVectorDim := 1
  sliceSizes := ![1, 256]
  wf := gather_S1000x256_S262144x1_S262144x256_1_0_n_n_0_1_1256_wf

class Facts : Prop extends Facts₀ where

variable [Facts]
-- ==== Proof.Ranges.lean ====
/-
  What the precondition says, element by element: every entry of the three float inputs is a real number, every class
  is in 0 … 999, every mark is 0 or 1.
-/
import proofs.«415260_j42322607735528_3_alg».proof.Pre_finite_inputs
import proofs.«415260_j42322607735528_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.Pre_finite_inputs.Decode

open Cert.Pre_finite_inputs

/-- The scalar shape has exactly one index: a function out of the empty set of axes. -/
instance subsingleton_scalar_idx : Subsingleton S_.Idx := ⟨fun a b => funext fun d => d.elim0⟩

/-- The f32 pattern with all exponent bits set and no fraction bit denotes +∞. -/
theorem ofBits_inf : Ideal.ofBits .f32 0x7F800000#32 = (⊤ : EReal) := by simp [Ideal.ofBits, Ideal.ieee]

/-- An extended real whose absolute value max x (−x) lies strictly below +∞ is a real number: of the three kinds of
    extended real, −∞ and +∞ both have absolute value +∞, which is not below itself. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- A 32-bit word for which both signed comparisons "at least lo" and "below hi" answer 1 has its signed value in
    the half-open interval from lo's to hi's. -/
theorem range_of_cmp (t lo hi : BitVec 32)
    (h : IntOp.andi (IntOp.cmpi .sge t lo) (IntOp.cmpi .slt t hi) = 1#1) : lo.toInt ≤ t.toInt ∧ t.toInt < hi.toInt := by
  rw [IntOp.andi_eq_one, IntOp.cmpi_sge, IntOp.cmpi_slt] at h
  exact h

/-- The precondition, decoded. -/
theorem of_pre [Cert.Pre_finite_inputs.Facts]
    (X : FVec Ideal S262144x256 .f32) (Cn : FVec Ideal S1000x256 .f32) (Rd : FVec Ideal S1000 .f32)
    (T P : IVec S262144 32)
    (h : Cert.Pre_finite_inputs.fn (F := Ideal) X Cn Rd T P = fun _ => 1#1) :
    (∀ i, ∃ x : ℝ, X i = (x : EReal)) ∧ (∀ i, ∃ x : ℝ, Cn i = (x : EReal)) ∧ (∀ i, ∃ x : ℝ, Rd i = (x : EReal))
      ∧ (∀ i, 0 ≤ (T i).toInt ∧ (T i).toInt < 1000) ∧ (∀ i, 0 ≤ (P i).toInt ∧ (P i).toInt < 2) := by
  have h0 := congrFun h ValueIdx.ix0
  dsimp only [fn, fn_part1] at h0
  -- the scalar result is a five-fold conjunction of one-bit words
  obtain ⟨h1234, hP⟩ := IntOp.andi_eq_one.1 h0
  obtain ⟨h123, hT⟩ := IntOp.andi_eq_one.1 h1234
  obtain ⟨h12, hRd⟩ := IntOp.andi_eq_one.1 h123
  obtain ⟨hX, hCn⟩ := IntOp.andi_eq_one.1 h12
  refine ⟨fun i => ?_, fun i => ?_, fun i => ?_, fun i => ?_, fun i => ?_⟩
  · exact real_of_abs_lt_inf (X i) (Host.reduce_andi_all _ _ _ _ _ hX i)
  · exact real_of_abs_lt_inf (Cn i) (Host.reduce_andi_all _ _ _ _ _ hCn i)
  · exact real_of_abs_lt_inf (Rd i) (Host.reduce_andi_all _ _ _ _ _ hRd i)
  · exact range_of_cmp (T i) 0#32 1000#32 (Host.reduce_andi_all _ _ _ _ _ hT i)
  · exact range_of_cmp (P i) 0#32 2#32 (Host.reduce_andi_all _ _ _ _ _ hP i)

end Cert.Pre_finite_inputs.Decode

end
-- ==== Proof.Common.lean ====
/-
  The two small notions every part of this proof shares.

  A label `s` selects class `k` with weight one, every other class with weight zero: the weight a one-hot row
  carries into a matrix product, and the indicator under which a segment sum keeps a row.

  The samples are laid out in 2 halves of 64 tiles of 2048 rows: sample `j` of tile `s` of half `q` is row
  `(64 q + s) · 2048 + j` of the 262144, and every row is of that form exactly once.
-/
import Idealize.ShloMosaic.PureOps.Ideal
import Idealize.ShloMosaic.Lib.ValueIdx

noncomputable section

open scoped BigOperators

namespace Cert.CenterStats

open Idealize.ShloMosaic Idealize.ShloMosaic.ValueIdx

/-- The weight with which a row labelled `s` counts towards class `k`: one if the label is `k`, else zero. -/
def hot (s : BitVec 32) (k : Nat) : EReal := if s = BitVec.ofNat 32 k then 1 else 0

theorem hot_eq (s : BitVec 32) (k : Nat) (h : s = BitVec.ofNat 32 k) : hot s k = 1 := if_pos h
theorem hot_ne (s : BitVec 32) (k : Nat) (h : ¬s = BitVec.ofNat 32 k) : hot s k = 0 := if_neg h

/-- The second pass carries a row's class and its mark in one word, `2 · class + mark`: the class is the word shifted
    right by one, -/
def unpackTarget (p : BitVec 32) : BitVec 32 := IntOp.shrsi .vector p 1#32
/-- and the row counts as clean, with weight one, exactly when the word's low bit is clear (weight zero otherwise). -/
def cleanWeight (p : BitVec 32) : EReal :=
  FloatOps.sitofp (F := Ideal) .f32 ((IntOp.cmpi .eq (IntOp.andi p 1#32) 0#32).setWidth 32)

/-- The literal one, as both programs print it. -/
abbrev one32 : EReal := Ideal.ofBits .f32 0x3F800000#32
/-- The small shift added to a difference before it is squared, as both programs print it. -/
abbrev eps32 : EReal := Ideal.ofBits .f32 0x358637BD#32

/-- Row `(64 q + s) · 2048 + j`: sample `j` of tile `s` of half `q`. -/
def rowAt (q : Fin 2) (s : Fin 64) (j : Fin 2048) : Fin 262144 :=
  ⟨(64 * q.val + s.val) * 2048 + j.val, by have := q.isLt; have := s.isLt; have := j.isLt; omega⟩

theorem rowAt_val (q : Fin 2) (s : Fin 64) (j : Fin 2048) : (rowAt q s j).val = (64 * q.val + s.val) * 2048 + j.val := rfl

/-- Every row is sample `r % 2048` of tile `(r / 2048) % 64` of half `r / 131072`. -/
def rowEquiv : Fin 2 × Fin 64 × Fin 2048 ≃ Fin 262144 where
  toFun p := rowAt p.1 p.2.1 p.2.2
  invFun r := (⟨r.val / 131072, by have := r.isLt; omega⟩, ⟨(r.val / 2048) % 64, by omega⟩, ⟨r.val % 2048, by omega⟩)
  left_inv p := by
    obtain ⟨q, s, j⟩ := p
    have hq := q.isLt; have hs := s.isLt; have hj := j.isLt
    refine Prod.ext (Fin.ext ?_) (Prod.ext (Fin.ext ?_) (Fin.ext ?_)) <;> simp only [rowAt] <;> omega
  right_inv r := by
    refine Fin.ext ?_
    have := r.isLt
    simp only [rowAt]
    omega

/-- A sum over all rows, taken half by half, tile by tile, sample by sample. -/
theorem sum_rows {M : Type*} [AddCommMonoid M] (f : Fin 262144 → M) :
    ∑ q : Fin 2, ∑ s : Fin 64, ∑ j : Fin 2048, f (rowAt q s j) = ∑ r : Fin 262144, f r := by
  rw [← Equiv.sum_comp rowEquiv f, Fintype.sum_prod_type]
  refine Finset.sum_congr rfl fun q _ => ?_
  rw [Fintype.sum_prod_type]
  rfl

end Cert.CenterStats

end
-- ==== Proof.StatsRegion.lean ====
/-
  The first pass, read as values. Each of the two halves of the grid runs through 64 tiles of 2048 rows; at a half's
  first tile the two output blocks are cleared, and at every tile the body adds, into the count block, the column sums
  of the tile's one-hot label matrix, and, into the sum block, the product of that matrix transposed with the tile's
  rows. So when the half's last tile writes the blocks back, entry (k, d) of the half's sum block is the sum over the
  half's rows labelled k of that row's column d, and entry k of its count block is the number of such rows.
-/
import proofs.«415260_j42322607735528_3_alg».proof.Proof.Gen.KernelIdeal.Frame
import proofs.«415260_j42322607735528_3_alg».proof.Proof.Common
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Stats

open Cert.KernelIdeal Cert.KernelIdeal.Gen Cert.CenterStats

/-! ## What one tile's body leaves in the two output blocks

Each store of the body covers its output block whole, so a block afterwards holds the payload of its last store, and
a load of a whole block reads the block's contents. At a half's first tile the block has just been cleared, so the
update is applied to the zero block; at every other tile it is applied to what the tile before left. -/

section Pieces
variable {F : FTy → Type} [FloatOps F]

/-- The zero offsets of a rank-3 block, -/
theorem hz3 : (![0, 0, 0] : Fin 3 → Nat) = fun _ => 0 := funext fun a => by fin_cases a <;> rfl
/-- and of a rank-2 block. -/
theorem hz2 : (![0, 0] : Fin 2 → Nat) = fun _ => 0 := funext fun a => by fin_cases a <;> rfl

/-- Not at a half's first tile: the count block `xo3` becomes its update by the tile's labels `x1`. -/
theorem out_B_3 (c : Dev nD) (i : grid0.Coords) (a2 : Memref sig .tc .vmem S2048x256 .f32) (h2 : a2.IsWhole)
    (a3 : Memref sig .tc .vmem S2048x1 .i32) (h3 : a3.IsWhole) (a4 : Memref sig .tc .vmem S1x1024x256 .f32) (h4 : a4.IsWhole)
    (a5 : Memref sig .tc .vmem S1x1x1024 .f32) (h5 : a5.IsWhole) (hc : ¬cond0_0 i)
    (x0 : Vec F S2048x256 .f32) (x1 : Vec F S2048x1 .i32) (xo2 : Vec F S1x1024x256 .f32) (xo3 : Vec F S1x1x1024 .f32) :
    out0_B_3 c i a2 h2 a3 h3 a4 h4 a5 h5 hc x0 x1 xo2 xo3 = k0_pay4 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero (S := S1x1x1024) hz3]
  simp only [View.readAt_eq_ld, h3.read_unread, h5.read_unread, View.ld_unit_zero (S := S2048x1) hz2,
    View.ld_unit_zero (S := S1x1x1024) hz3]

/-- Not at a half's first tile: the sum block `xo2` becomes its update by the tile's labels `x1` and rows `x0`. -/
theorem out_B_2 (c : Dev nD) (i : grid0.Coords) (a2 : Memref sig .tc .vmem S2048x256 .f32) (h2 : a2.IsWhole)
    (a3 : Memref sig .tc .vmem S2048x1 .i32) (h3 : a3.IsWhole) (a4 : Memref sig .tc .vmem S1x1024x256 .f32) (h4 : a4.IsWhole)
    (a5 : Memref sig .tc .vmem S1x1x1024 .f32) (h5 : a5.IsWhole) (hc : ¬cond0_0 i)
    (x0 : Vec F S2048x256 .f32) (x1 : Vec F S2048x1 .i32) (xo2 : Vec F S1x1024x256 .f32) (xo3 : Vec F S1x1x1024 .f32) :
    out0_B_2 c i a2 h2 a3 h3 a4 h4 a5 h5 hc x0 x1 xo2 xo3 = k0_pay5 x1 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero (S := S1x1024x256) hz3]
  simp only [View.readAt_eq_ld, h2.read_unread, h3.read_unread, h4.read_unread, View.ld_unit_zero (S := S2048x1) hz2,
    View.ld_unit_zero (S := S2048x256) hz2, View.ld_unit_zero (S := S1x1024x256) hz3]

/-- At a half's first tile the count block is cleared and then updated: the update of the zero block. -/
theorem out_A_3 (c : Dev nD) (i : grid0.Coords) (a2 : Memref sig .tc .vmem S2048x256 .f32) (h2 : a2.IsWhole)
    (a3 : Memref sig .tc .vmem S2048x1 .i32) (h3 : a3.IsWhole) (a4 : Memref sig .tc .vmem S1x1024x256 .f32) (h4 : a4.IsWhole)
    (a5 : Memref sig .tc .vmem S1x1x1024 .f32) (h5 : a5.IsWhole) (hc : cond0_0 i)
    (x0 : Vec F S2048x256 .f32) (x1 : Vec F S2048x1 .i32) :
    out0_A_3 c i a2 h2 a3 h3 a4 h4 a5 h5 hc x0 x1 = k0_pay4 x1 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x1024) hz3]
  simp only [View.readAt_eq_ld, h3.read_unread, View.ld_unit_zero (S := S2048x1) hz2,
    View.readCov_unit_zero (S := S1x1x1024) _ hz3]

/-- At a half's first tile the sum block is cleared and then updated: the update of the zero block. -/
theorem out_A_2 (c : Dev nD) (i : grid0.Coords) (a2 : Memref sig .tc .vmem S2048x256 .f32) (h2 : a2.IsWhole)
    (a3 : Memref sig .tc .vmem S2048x1 .i32) (h3 : a3.IsWhole) (a4 : Memref sig .tc .vmem S1x1024x256 .f32) (h4 : a4.IsWhole)
    (a5 : Memref sig .tc .vmem S1x1x1024 .f32) (h5 : a5.IsWhole) (hc : cond0_0 i)
    (x0 : Vec F S2048x256 .f32) (x1 : Vec F S2048x1 .i32) :
    out0_A_2 c i a2 h2 a3 h3 a4 h4 a5 h5 hc x0 x1 = k0_pay5 x1 x0 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1024x256) hz3]
  simp only [View.readAt_eq_ld, h2.read_unread, h3.read_unread, View.ld_unit_zero (S := S2048x1) hz2,
    View.ld_unit_zero (S := S2048x256) hz2, View.readCov_unit_zero (S := S1x1024x256) _ hz3]

end Pieces

/-! ## The update, entry by entry, over the extended reals

Row `j` of the tile's one-hot matrix has a one in the column of the row's label and zeros elsewhere. The sum update
adds, to entry `(k, d)`, the product of that matrix transposed with the tile's rows: the sum over the tile's rows
of the weight at `k` times the row's entry `d`. Narrowing to the shorter format changes nothing over the extended reals. -/

section Payloads

/-- The one-bit answer to "is the label `k`", widened to a word and converted: one if it is, zero if not. -/
theorem hot_word (s : BitVec 32) (k : Nat) :
    FloatOps.sitofp (F := Ideal) .f32 ((IntOp.cmpi .eq s (BitVec.ofNat 32 k)).setWidth 32) = hot s k := by
  unfold hot
  by_cases h : s = BitVec.ofNat 32 k
  · rw [if_pos h, h]
    have e : IntOp.cmpi .eq (BitVec.ofNat 32 k) (BitVec.ofNat 32 k) = 1#1 := by simp [IntOp.cmpi]
    rw [e]
    show (((((1#1 : BitVec 1).setWidth 32).toInt : ℝ)) : EReal) = 1
    norm_num
  · rw [if_neg h]
    have hb : (s == BitVec.ofNat 32 k) = false := beq_eq_false_iff_ne.mpr h
    have e : IntOp.cmpi .eq s (BitVec.ofNat 32 k) = 0#1 := by simp [IntOp.cmpi, hb]
    rw [e]
    show (((((0#1 : BitVec 1).setWidth 32).toInt : ℝ)) : EReal) = 0
    norm_num

/-- Entry `(j, k)` of the one-hot matrix: the label of row `j`, spread along the columns, is compared with the
    column's number `k`, spread along the rows. -/
theorem onehot_apply (x1 : Vec Ideal S2048x1 .i32) (j : Fin 2048) (k : Fin 1024) :
    k0_pay3 (F := Ideal) x1 (ix2 j k) = hot (x1 (ix2 j (0 : Fin 1))) k.val := by
  have e6 : broadcastTo S2048x1024 (shapeCast S2048x1 x1 shapeCasts_S2048x1_S2048x1) broadcasts_S2048x1_S2048x1024 (ix2 j k)
      = x1 (ix2 j (0 : Fin 1)) :=
    (broadcastTo_apply _ broadcasts_S2048x1_S2048x1024 (ix2 j k) (ix2 j (0 : Fin 1)) (fun a => by
      match a with
      | ⟨0, _⟩ => rfl
      | ⟨1, _⟩ => rfl)).trans (congrFun (shapeCast_self x1 _) _)
  have e7 : broadcastTo S2048x1024 (iota .tc S1x1024 32 [1] iota_S1x1024_d1_w32) broadcasts_S1x1024_S2048x1024 (ix2 j k)
      = BitVec.ofNat 32 k.val :=
    (broadcastTo_apply _ broadcasts_S1x1024_S2048x1024 (ix2 j k) (ix2 (0 : Fin 1) k) (fun a => by
      match a with
      | ⟨0, _⟩ => rfl
      | ⟨1, _⟩ => rfl)).trans (iota_single_apply .tc S1x1024 32 1 iota_S1x1024_d1_w32 (ix2 (0 : Fin 1) k))
  show FloatOps.sitofp (F := Ideal) .f32 ((IntOp.cmpi .eq
      (broadcastTo S2048x1024 (shapeCast S2048x1 x1 shapeCasts_S2048x1_S2048x1) broadcasts_S2048x1_S2048x1024 (ix2 j k))
      (broadcastTo S2048x1024 (iota .tc S1x1024 32 [1] iota_S1x1024_d1_w32) broadcasts_S1x1024_S2048x1024 (ix2 j k))).setWidth 32) = _
  rw [e6, e7]
  exact hot_word _ _

/-- In the product of the one-hot matrix transposed with the rows, the contracted axis is the row axis of both factors:
    at result entry `(k, d)` and contraction position `r` the left factor is read at `(r, k)` -/
theorem sum_lhs_0 (j : S1024x256.Idx) (kk : dot_S2048x1024_S2048x256_S1024x256_0_0_1_1_n_n.contr.Idx) :
    (dot_S2048x1024_S2048x256_S1024x256_0_0_1_1_n_n.lhsIdx j kk 0).val = (kk ⟨0, by decide⟩).val :=
  dot_S2048x1024_S2048x256_S1024x256_0_0_1_1_n_n.lhsIdx_val_of_single (cl := 0) rfl j kk
theorem sum_lhs_1 (j : S1024x256.Idx) (kk : dot_S2048x1024_S2048x256_S1024x256_0_0_1_1_n_n.contr.Idx) :
    (dot_S2048x1024_S2048x256_S1024x256_0_0_1_1_n_n.lhsIdx j kk 1).val = (j 0).val := rfl
/-- and the right factor at `(r, d)`. -/
theorem sum_rhs_0 (j : S1024x256.Idx) (kk : dot_S2048x1024_S2048x256_S1024x256_0_0_1_1_n_n.contr.Idx) :
    (dot_S2048x1024_S2048x256_S1024x256_0_0_1_1_n_n.rhsIdx j kk 0).val = (kk ⟨0, by decide⟩).val :=
  dot_S2048x1024_S2048x256_S1024x256_0_0_1_1_n_n.rhsIdx_val_of_single (cr := 0) rfl j kk
theorem sum_rhs_1 (j : S1024x256.Idx) (kk : dot_S2048x1024_S2048x256_S1024x256_0_0_1_1_n_n.contr.Idx) :
    (dot_S2048x1024_S2048x256_S1024x256_0_0_1_1_n_n.rhsIdx j kk 1).val = (j 1).val := rfl

/-- Dropping the leading unit coordinate of `(0, k, d)` leaves `(k, d)`, -/
theorem tail_ix3_sum (k : Fin 1024) (d : Fin 256) :
    ((fun a => (ix3 (0 : Fin 1) k d) a.succ : S1024x256.Idx)) = ix2 k d := by
  funext a; match a with | ⟨0, _⟩ => rfl | ⟨1, _⟩ => rfl
/-- and putting it back in front of `(k, d)` gives `(0, k, d)`. -/
theorem cons_ix2_sum (k : Fin 1024) (d : Fin 256) :
    (Fin.cons (⟨0, Nat.one_pos⟩ : Fin 1) (ix2 k d) : S1x1024x256.Idx) = ix3 (0 : Fin 1) k d := by
  funext a; match a with | ⟨0, _⟩ => rfl | ⟨1, _⟩ => rfl | ⟨2, _⟩ => rfl

/-- The one-hot matrix transposed times the tile's rows: entry `(k, d)` sums entry `d` over the rows labelled `k`. -/
theorem onehot_dot_rows (x1 : Vec Ideal S2048x1 .i32) (x0 : Vec Ideal S2048x256 .f32) (k : Fin 1024) (d : Fin 256) :
    FloatOps.matmul dot_S2048x1024_S2048x256_S1024x256_0_0_1_1_n_n none
        (k0_pay3 (F := Ideal) x1) (truncf .bf16 x0 bitsLt_bf16_f32)
        (constant S1024x256 .f32 0x00000000#32) (ix2 k d)
      = ∑ j : Fin 2048, hot (x1 (ix2 j (0 : Fin 1))) k.val * x0 (ix2 j d) := by
  rw [Ideal.matmul_constant_zero_apply,
    ← Equiv.sum_comp (contrEquiv1 dot_S2048x1024_S2048x256_S1024x256_0_0_1_1_n_n 2048 rfl rfl).symm]
  refine Finset.sum_congr rfl fun j _ => ?_
  have hl : dot_S2048x1024_S2048x256_S1024x256_0_0_1_1_n_n.lhsIdx (ix2 k d)
      ((contrEquiv1 dot_S2048x1024_S2048x256_S1024x256_0_0_1_1_n_n 2048 rfl rfl).symm j) = ix2 j k := by
    funext ax; apply Fin.ext
    match ax with
    | ⟨0, _⟩ => exact (sum_lhs_0 _ _).trans (contrEquiv1_symm_val dot_S2048x1024_S2048x256_S1024x256_0_0_1_1_n_n 2048 rfl rfl j)
    | ⟨1, _⟩ => exact sum_lhs_1 _ _
  have hr : dot_S2048x1024_S2048x256_S1024x256_0_0_1_1_n_n.rhsIdx (ix2 k d)
      ((contrEquiv1 dot_S2048x1024_S2048x256_S1024x256_0_0_1_1_n_n 2048 rfl rfl).symm j) = ix2 j d := by
    funext ax; apply Fin.ext
    match ax with
    | ⟨0, _⟩ => exact (sum_rhs_0 _ _).trans (contrEquiv1_symm_val dot_S2048x1024_S2048x256_S1024x256_0_0_1_1_n_n 2048 rfl rfl j)
    | ⟨1, _⟩ => exact sum_rhs_1 _ _
  rw [hl, hr, onehot_apply]
  rfl

/-- The sum update at `(k, d)`: what was there plus entry `d` summed over the tile's rows labelled `k`. -/
theorem sum_step_apply (x1 : Vec Ideal S2048x1 .i32) (x0 : Vec Ideal S2048x256 .f32) (xo2 : Vec Ideal S1x1024x256 .f32)
    (k : Fin 1024) (d : Fin 256) :
    k0_pay5 (F := Ideal) x1 x0 xo2 (ix3 (0 : Fin 1) k d)
      = xo2 (ix3 (0 : Fin 1) k d) + ∑ j : Fin 2048, hot (x1 (ix2 j (0 : Fin 1))) k.val * x0 (ix2 j d) := by
  unfold k0_pay5
  refine (shapeCast_addUnit_apply ![1024, 256] _ shapeCasts_S1024x256_S1x1024x256 (ix3 (0 : Fin 1) k d)).trans ?_
  refine (congrArg _ (tail_ix3_sum k d)).trans ?_
  refine (addf_apply _ _ _).trans ?_
  refine congrArg₂ (· + ·) ?_ (onehot_dot_rows x1 x0 k d)
  exact (shapeCast_dropUnit_apply ![1024, 256] xo2 shapeCasts_S1x1024x256_S1024x256 (ix2 k d)).trans
    (congrArg xo2 (cons_ix2_sum k d))

/-- The cleared sum block is zero everywhere. -/
theorem zero_sum_apply (i : S1x1024x256.Idx) : k0_pay1 (F := Ideal) i = 0 := by
  unfold k0_pay1
  refine (shapeCast_addUnit_apply ![1024, 256] _ shapeCasts_S1024x256_S1x1024x256 i).trans ?_
  exact Ideal.ofBits_zero_f32

end Payloads

/-! ## Where the blocks sit

Point `t = 64 q + s` of the grid is tile `s` of half `q`. -/

section Blocks

/-- At point `t` the row window sits at block row `t`, block column 0, -/
theorem idx_rows : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- the label window likewise, -/
theorem idx_labels : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- and the sum window at the block of the half `t / 64`. -/
theorem idx_sums : ∀ t : Fin cfg0.N, win0_2.index t (0 : Fin 3) = t.val / 64 ∧ win0_2.index t (1 : Fin 3) = 0
    ∧ win0_2.index t (2 : Fin 3) = 0 :=
  (by decide +kernel : ∀ t : Fin grid0.N, win0_2.index t (0 : Fin 3) = t.val / 64 ∧ win0_2.index t (1 : Fin 3) = 0
    ∧ win0_2.index t (2 : Fin 3) = 0)

end Blocks

variable (V : (c : Dev nD) → (b : Ref sig .tc) → Buf (Elt Ideal) ((c : Thread nD τ).loc b))

/-- The rows as the first pass finds them. -/
abbrev feats (c : Dev nD) : Vec Ideal S262144x256 .f32 := V c main_arg0
/-- The label column as the first pass finds it. -/
abbrev labels (c : Dev nD) : Vec Ideal S262144x1 .i32 := V c main_v6

/-- The tile of rows the body sees at point `t`, -/
abbrev fblk (c : Dev nD) (t : Fin cfg0.N) : Vec Ideal S2048x256 .f32 := iblk0 V c 0 t
/-- and the tile of labels. -/
abbrev lblk (c : Dev nD) (t : Fin cfg0.N) : Vec Ideal S2048x1 .i32 := iblk0 V c 1 t

/-- At point `64 q + s` entry `(j, d)` of the row tile is entry `d` of row `(64 q + s) · 2048 + j`, -/
theorem fblk_apply (c : Dev nD) (t : Fin cfg0.N) (q : Fin 2) (s : Fin 64) (ht : t.val = 64 * q.val + s.val)
    (j : Fin 2048) (d : Fin 256) : fblk V c t (ix2 j d) = feats V c (ix2 (rowAt q s j) d) := by
  have hi := idx_rows t
  show iblk0 V c 0 t (ix2 j d) = _
  unfold iblk0
  rw [View.read_apply]
  show V c main_arg0 _ = V c main_arg0 _
  congr 1
  funext a
  apply Fin.ext
  match a with
  | ⟨0, _⟩ => show win0_0.index t 0 * 2048 + 1 * j.val = (64 * q.val + s.val) * 2048 + j.val; rw [hi.1, ht]; omega
  | ⟨1, _⟩ => show win0_0.index t 1 * 256 + 1 * d.val = d.val; rw [hi.2]; omega

/-- and entry `j` of the label tile is that row's label. -/
theorem lblk_apply (c : Dev nD) (t : Fin cfg0.N) (q : Fin 2) (s : Fin 64) (ht : t.val = 64 * q.val + s.val)
    (j : Fin 2048) : lblk V c t (ix2 j (0 : Fin 1)) = labels V c (ix2 (rowAt q s j) (0 : Fin 1)) := by
  have hi := idx_labels t
  show iblk0 V c 1 t (ix2 j (0 : Fin 1)) = _
  unfold iblk0
  rw [View.read_apply]
  show V c main_v6 _ = V c main_v6 _
  congr 1
  funext a
  apply Fin.ext
  match a with
  | ⟨0, _⟩ => show win0_1.index t 0 * 2048 + 1 * j.val = (64 * q.val + s.val) * 2048 + j.val; rw [hi.1, ht]; omega
  | ⟨1, _⟩ => show win0_1.index t 1 * 1 + 1 * 0 = 0; rw [hi.2]

/-! ## The sum block over a half's tiles -/

/-- At a half's first tile the sum block is the update of the cleared block, -/
theorem sum_reset (c : Dev nD) (t : Fin cfg0.N) (h0 : t.val % 64 = 0) :
    (outsAt0 V c t.val t.isLt).1 = k0_pay5 (lblk V c t) (fblk V c t) (k0_pay1 (F := Ideal)) := by
  rw [outsAt0_A V c t h0]
  dsimp only
  exact out_A_2 (F := Ideal) c (grid0.coords t) (ms0_0 t) (hs0_0 t) (ms0_1 t) (hs0_1 t) (ms0_2 t) (hs0_2 t) (ms0_3 t) (hs0_3 t)
    ((hcond0_0 t).mpr h0) (iblk0 V c 0 t) (iblk0 V c 1 t)

/-- and at every other tile the update of what the tile before left. -/
theorem sum_step (c : Dev nD) (t : Fin cfg0.N) (h0 : ¬t.val % 64 = 0) :
    (outsAt0 V c t.val t.isLt).1
      = k0_pay5 (lblk V c t) (fblk V c t) (outsAt0 V c (t.val - 1) (Nat.lt_of_le_of_lt (Nat.sub_le _ _) t.isLt)).1 := by
  rw [outsAt0_B V c t h0]
  dsimp only
  exact out_B_2 (F := Ideal) c (grid0.coords t) (ms0_0 t) (hs0_0 t) (ms0_1 t) (hs0_1 t) (ms0_2 t) (hs0_2 t) (ms0_3 t) (hs0_3 t)
    (fun h => h0 ((hcond0_0 t).mp h)) (iblk0 V c 0 t) (iblk0 V c 1 t)
    (outsAt0 V c (t.val - 1) (Nat.lt_of_le_of_lt (Nat.sub_le _ _) t.isLt)).1
    (outsAt0 V c (t.val - 1) (Nat.lt_of_le_of_lt (Nat.sub_le _ _) t.isLt)).2

/-- So the sum block after point `t` is the fold of the updates over the tiles of `t`'s half up to `t`. -/
theorem sum_fold (c : Dev nD) (t : Fin cfg0.N) (h' : 64 * (t.val / 64) + t.val % 64 < cfg0.N) :
    (outsAt0 V c t.val t.isLt).1
      = Pipeline.accAt (fun n h => k0_pay5 (lblk V c ⟨n, h⟩) (fblk V c ⟨n, h⟩) (k0_pay1 (F := Ideal)))
          (fun n h acc => k0_pay5 (lblk V c ⟨n, h⟩) (fblk V c ⟨n, h⟩) acc) (64 * (t.val / 64)) (t.val % 64) h' :=
  Pipeline.eq_accAt_of_mod (fun n h => (outsAt0 V c n h).1) 64 _ _
    (fun n h h0 => sum_reset V c ⟨n, h⟩ h0)
    (fun n h hne => sum_step V c ⟨n + 1, h⟩ hne)
    (by decide) t.val t.isLt h'

/-- What tile `t` adds to entry `(k, d)`: column `d` summed over the tile's rows labelled `k`. -/
def tileSum (c : Dev nD) (t : Fin cfg0.N) (k : Fin 1024) (d : Fin 256) : EReal :=
  ∑ j : Fin 2048, hot (lblk V c t (ix2 j (0 : Fin 1))) k.val * fblk V c t (ix2 j d)

/-- The same as a function of every natural (nothing past the grid). -/
def sumAdd (c : Dev nD) (n : Nat) (i : S1x1024x256.Idx) : EReal :=
  if h : n < cfg0.N then tileSum V c ⟨n, h⟩ (i 1) (i 2) else 0

/-- The fold unrolled: after `j` further tiles from `b` the block holds the sum of the tiles' addends. -/
theorem sum_run (c : Dev nD) (b j : Nat) (hj : j ≤ 63) (h : b + j < cfg0.N) (i : S1x1024x256.Idx) :
    Pipeline.accAt (fun n h => k0_pay5 (lblk V c ⟨n, h⟩) (fblk V c ⟨n, h⟩) (k0_pay1 (F := Ideal)))
        (fun n h acc => k0_pay5 (lblk V c ⟨n, h⟩) (fblk V c ⟨n, h⟩) acc) b j h i
      = 0 + ∑ s ∈ Finset.range (j + 1), sumAdd V c (b + s) i :=
  Pipeline.accAt_add_apply _ _ (fun _ => (0 : EReal)) (sumAdd V c) b 63
    (fun h i => by
      obtain ⟨p, k, d, rfl⟩ : ∃ (p : Fin 1) (k : Fin 1024) (d : Fin 256), i = ix3 p k d := ⟨i 0, i 1, i 2, eq_ix3 i⟩
      obtain rfl : p = 0 := Subsingleton.elim _ _
      refine (sum_step_apply (lblk V c ⟨b, h⟩) (fblk V c ⟨b, h⟩) (k0_pay1 (F := Ideal)) k d).trans ?_
      rw [zero_sum_apply]
      unfold sumAdd
      rw [dif_pos h]
      rfl)
    (fun n h acc i _ _ => by
      obtain ⟨p, k, d, rfl⟩ : ∃ (p : Fin 1) (k : Fin 1024) (d : Fin 256), i = ix3 p k d := ⟨i 0, i 1, i 2, eq_ix3 i⟩
      obtain rfl : p = 0 := Subsingleton.elim _ _
      refine (sum_step_apply (lblk V c ⟨n, h⟩) (fblk V c ⟨n, h⟩) acc k d).trans ?_
      unfold sumAdd
      rw [dif_pos h]
      rfl)
    j hj h i

/-- After a half's last tile, entry `(k, d)` of the sum block is the sum, over the half's 64 tiles and each tile's rows,
    of the one-hot weight of the row's label at `k` times the row's entry `d`. -/
theorem sum_at_flush (c : Dev nD) (t : Fin cfg0.N) (q : Fin 2) (ht : t.val = 64 * q.val + 63) (k : Fin 1024) (d : Fin 256) :
    (outsAt0 V c t.val t.isLt).1 (ix3 (0 : Fin 1) k d)
      = ∑ s : Fin 64, ∑ j : Fin 2048,
          hot (labels V c (ix2 (rowAt q s j) (0 : Fin 1))) k.val * feats V c (ix2 (rowAt q s j) d) := by
  have hN : cfg0.N = 128 := N_0
  have hq := q.isLt
  have hdiv : t.val / 64 = q.val := by omega
  have hmod : t.val % 64 = 63 := by omega
  have h' : 64 * (t.val / 64) + t.val % 64 < cfg0.N := by rw [hdiv, hmod, hN]; omega
  rw [sum_fold V c t h', sum_run V c (64 * (t.val / 64)) (t.val % 64) (by omega) h' (ix3 (0 : Fin 1) k d), hdiv, hmod,
    zero_add, Finset.sum_range]
  show ∑ s : Fin 64, sumAdd V c (64 * q.val + s.val) (ix3 (0 : Fin 1) k d) = _
  refine Finset.sum_congr rfl fun s _ => ?_
  have hs := s.isLt
  have hlt : 64 * q.val + s.val < cfg0.N := by rw [hN]; omega
  unfold sumAdd
  rw [dif_pos hlt]
  show ∑ j : Fin 2048, hot (lblk V c ⟨64 * q.val + s.val, hlt⟩ (ix2 j (0 : Fin 1))) k.val
      * fblk V c ⟨64 * q.val + s.val, hlt⟩ (ix2 j d) = _
  refine Finset.sum_congr rfl fun j _ => ?_
  rw [lblk_apply V c ⟨64 * q.val + s.val, hlt⟩ q s rfl j, fblk_apply V c ⟨64 * q.val + s.val, hlt⟩ q s rfl j d]

/-- The whole array of sums the pass is to leave: half by half, class by class, column by column. -/
def sumG (c : Dev nD) : Vec Ideal S2x1024x256 .f32 := fun i =>
  ∑ s : Fin 64, ∑ j : Fin 2048,
    hot (labels V c (ix2 (rowAt (i 0) s j) (0 : Fin 1))) (i 1).val * feats V c (ix2 (rowAt (i 0) s j) (i 2))

/-- A half's last tile writes back the half's block of that array. -/
theorem sum_flushed (c : Dev nD) (t : Fin cfg0.N) (hf : (cfg0.win 2).flush t = true) :
    (dat0 V c).flushed 2 t = ((cfg0.win 2).blk t).view.read (Elt Ideal) (sumG V c) := by
  have h63 : t.val % 64 = 63 := (flush0_2 t).mp hf
  have hN : t.val < 128 := lt_of_lt_of_eq t.isLt N_0
  obtain ⟨e0, e1, e2⟩ := idx_sums t
  show (cfg0.win 2).cut (grid0.coords t) ((dat0 V c).after 2 t) = _
  rw [after0_2]
  funext y
  obtain ⟨p, k, d, rfl⟩ : ∃ (p : Fin 1) (k : Fin 1024) (d : Fin 256), (y : S1x1024x256.Idx) = ix3 p k d :=
    ⟨y 0, y 1, y 2, eq_ix3 (n0 := 1) (n1 := 1024) (n2 := 256) y⟩
  obtain rfl : p = 0 := Subsingleton.elim _ _
  have hemb : (((cfg0.win 2).blk t).view.emb (ix3 (0 : Fin 1) k d) : S2x1024x256.Idx)
      = ix3 (⟨t.val / 64, by omega⟩ : Fin 2) k d := by
    funext a; apply Fin.ext
    match a with
    | ⟨0, _⟩ => show win0_2.index t 0 * 1 + 1 * 0 = t.val / 64; rw [e0]; omega
    | ⟨1, _⟩ => show win0_2.index t 1 * 1024 + 1 * k.val = k.val; rw [e1]; omega
    | ⟨2, _⟩ => show win0_2.index t 2 * 256 + 1 * d.val = d.val; rw [e2]; omega
  rw [View.read_apply]
  show (outsAt0 V c t.val t.isLt).1 (ix3 (0 : Fin 1) k d) = sumG V c (((cfg0.win 2).blk t).view.emb (ix3 (0 : Fin 1) k d))
  rw [hemb]
  exact sum_at_flush V c t ⟨t.val / 64, by omega⟩ (by show t.val = 64 * (t.val / 64) + 63; omega) k d

/-- Half `q`'s block of per-class sums after the pass: over the half's rows, the one-hot weight times the row's entry. -/
theorem sums_final (c : Dev nD) (q : Fin 2) (k : Fin 1024) (d : Fin 256) :
    ((dat0 (F := Ideal) V c).arrAt 2 cfg0.N : Vec Ideal S2x1024x256 .f32) (ix3 q k d)
      = ∑ s : Fin 64, ∑ j : Fin 2048,
          hot (labels V c (ix2 (rowAt q s j) (0 : Fin 1))) k.val * feats V c (ix2 (rowAt q s j) d) := by
  have hq := q.isLt
  have hN : cfg0.N = 128 := N_0
  have ht : 64 * q.val + 63 < cfg0.N := by rw [hN]; omega
  have hf : (cfg0.win 2).flush ⟨64 * q.val + 63, ht⟩ = true := (flush0_2 _).mpr (by show (64 * q.val + 63) % 64 = 63; omega)
  obtain ⟨e0, e1, e2⟩ := idx_sums ⟨64 * q.val + 63, ht⟩
  have hmem : (ix3 q k d : S2x1024x256.Idx) ∈ ((cfg0.win 2).blk ⟨64 * q.val + 63, ht⟩).view.set := by
    show (ix3 q k d : S2x1024x256.Idx) ∈ ((View.whole main_v7_0).slice (win0_2.rect ⟨64 * q.val + 63, ht⟩)).set
    rw [View.set_slice_whole, Rect.mem_set_unit]
    intro a
    have hk := k.isLt
    have hd := d.isLt
    match a with
    | ⟨0, _⟩ =>
      show win0_2.index ⟨64 * q.val + 63, ht⟩ 0 * 1 ≤ q.val ∧ q.val < win0_2.index ⟨64 * q.val + 63, ht⟩ 0 * 1 + 1
      rw [e0]; show (64 * q.val + 63) / 64 * 1 ≤ q.val ∧ q.val < (64 * q.val + 63) / 64 * 1 + 1; omega
    | ⟨1, _⟩ =>
      show win0_2.index ⟨64 * q.val + 63, ht⟩ 1 * 1024 ≤ k.val ∧ k.val < win0_2.index ⟨64 * q.val + 63, ht⟩ 1 * 1024 + 1024
      rw [e1]; omega
    | ⟨2, _⟩ =>
      show win0_2.index ⟨64 * q.val + 63, ht⟩ 2 * 256 ≤ d.val ∧ d.val < win0_2.index ⟨64 * q.val + 63, ht⟩ 2 * 256 + 256
      rw [e2]; omega
  exact (dat0 V c).arrAt_apply_of_mem 2 (sumG V c) (sum_flushed V c) cfg0.N ⟨64 * q.val + 63, ht⟩ (ix3 q k d) ht hf hmem

end Cert.KernelIdeal.Stats

end
-- ==== Proof.StatsCounts.lean ====
/-
  The first pass's count block, read as a value: per half, entry k is the number of the half's rows labelled k. The
  block is cleared at the half's first tile, at every tile the column sums of the tile's one-hot label matrix are added
  into it, and it is written back at the half's last tile.
-/
import proofs.«415260_j42322607735528_3_alg».proof.Proof.Gen.KernelIdeal.Frame
import proofs.«415260_j42322607735528_3_alg».proof.Proof.Common
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Idealize.ShloMosaic.Lib.IdealHost

noncomputable section

open scoped BigOperators
open Idealize.ShloMosaic Idealize.ShloMosaic.TcCoe Idealize.SL.Sem Idealize.ShloMosaic.ValueIdx
open Idealize.ShloMosaic.Pipeline (Dat)

namespace Cert.KernelIdeal.StatsCounts

open Cert.KernelIdeal Cert.KernelIdeal.Gen Cert.CenterStats

variable (V : (c : Dev nD) → (b : Ref sig .tc) → Buf (Elt Ideal) ((c : Thread nD τ).loc b))

/-! ## What each case of the body leaves in the count block -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a tile that is not a half's first, the body leaves the count update of what the tile before left. -/
theorem out_B_3 (c : Dev nD) (i : grid0.Coords) (a2 : Memref sig .tc .vmem S2048x256 .f32) (h2 : a2.IsWhole)
    (a3 : Memref sig .tc .vmem S2048x1 .i32) (h3 : a3.IsWhole) (a4 : Memref sig .tc .vmem S1x1024x256 .f32) (h4 : a4.IsWhole)
    (a5 : Memref sig .tc .vmem S1x1x1024 .f32) (h5 : a5.IsWhole) (hc : ¬cond0_0 i)
    (x0 : Vec F S2048x256 .f32) (x1 : Vec F S2048x1 .i32) (xo2 : Vec F S1x1024x256 .f32) (xo3 : Vec F S1x1x1024 .f32) :
    out0_B_3 c i a2 h2 a3 h3 a4 h4 a5 h5 hc x0 x1 xo2 xo3 = k0_pay4 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero (S := S1x1x1024) hz3]
  simp only [View.readAt_eq_ld, h3.read_unread, h5.read_unread, View.ld_unit_zero (S := S2048x1) hz2,
    View.ld_unit_zero (S := S1x1x1024) hz3]

/-- At a half's first tile, the body clears the block and then leaves the count update of the cleared block. -/
theorem out_A_3 (c : Dev nD) (i : grid0.Coords) (a2 : Memref sig .tc .vmem S2048x256 .f32) (h2 : a2.IsWhole)
    (a3 : Memref sig .tc .vmem S2048x1 .i32) (h3 : a3.IsWhole) (a4 : Memref sig .tc .vmem S1x1024x256 .f32) (h4 : a4.IsWhole)
    (a5 : Memref sig .tc .vmem S1x1x1024 .f32) (h5 : a5.IsWhole) (hc : cond0_0 i)
    (x0 : Vec F S2048x256 .f32) (x1 : Vec F S2048x1 .i32) :
    out0_A_3 c i a2 h2 a3 h3 a4 h4 a5 h5 hc x0 x1 = k0_pay4 x1 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x1024) hz3]
  simp only [View.readAt_eq_ld, h3.read_unread, View.ld_unit_zero (S := S2048x1) hz2,
    View.readCov_unit_zero (S := S1x1x1024) _ hz3]

end Pieces

/-! ## The count update at an entry -/

section Payloads

/-- A comparison bit widened to a word and converted is the one-hot weight. -/
theorem hot_word (s : BitVec 32) (k : Nat) :
    FloatOps.sitofp (F := Ideal) .f32 ((IntOp.cmpi .eq s (BitVec.ofNat 32 k)).setWidth 32) = hot s k := by
  unfold hot
  by_cases h : s = BitVec.ofNat 32 k
  · rw [if_pos h, h]
    have e : IntOp.cmpi .eq (BitVec.ofNat 32 k) (BitVec.ofNat 32 k) = 1#1 := by simp [IntOp.cmpi]
    rw [e]
    show (((((1#1 : BitVec 1).setWidth 32).toInt : ℝ)) : EReal) = 1
    norm_num
  · rw [if_neg h]
    have hb : (s == BitVec.ofNat 32 k) = false := beq_eq_false_iff_ne.mpr h
    have e : IntOp.cmpi .eq s (BitVec.ofNat 32 k) = 0#1 := by simp [IntOp.cmpi, hb]
    rw [e]
    show (((((0#1 : BitVec 1).setWidth 32).toInt : ℝ)) : EReal) = 0
    norm_num

/-- Entry (j, k) of the tile's one-hot matrix is the weight of row j's label towards class k. -/
theorem onehot_apply (x1 : Vec Ideal S2048x1 .i32) (j : Fin 2048) (k : Fin 1024) :
    k0_pay3 (F := Ideal) x1 (ix2 j k) = hot (x1 (ix2 j (0 : Fin 1))) k.val := by
  have e6 : broadcastTo S2048x1024 (shapeCast S2048x1 x1 shapeCasts_S2048x1_S2048x1) broadcasts_S2048x1_S2048x1024 (ix2 j k)
      = x1 (ix2 j (0 : Fin 1)) :=
    (broadcastTo_apply _ broadcasts_S2048x1_S2048x1024 (ix2 j k) (ix2 j (0 : Fin 1)) (fun a => by
      match a with
      | ⟨0, _⟩ => rfl
      | ⟨1, _⟩ => rfl)).trans (congrFun (shapeCast_self x1 _) _)
  have e7 : broadcastTo S2048x1024 (iota .tc S1x1024 32 [1] iota_S1x1024_d1_w32) broadcasts_S1x1024_S2048x1024 (ix2 j k)
      = BitVec.ofNat 32 k.val :=
    (broadcastTo_apply _ broadcasts_S1x1024_S2048x1024 (ix2 j k) (ix2 (0 : Fin 1) k) (fun a => by
      match a with
      | ⟨0, _⟩ => rfl
      | ⟨1, _⟩ => rfl)).trans (iota_single_apply .tc S1x1024 32 1 iota_S1x1024_d1_w32 (ix2 (0 : Fin 1) k))
  show FloatOps.sitofp (F := Ideal) .f32 ((IntOp.cmpi .eq
      (broadcastTo S2048x1024 (shapeCast S2048x1 x1 shapeCasts_S2048x1_S2048x1) broadcasts_S2048x1_S2048x1024 (ix2 j k))
      (broadcastTo S2048x1024 (iota .tc S1x1024 32 [1] iota_S1x1024_d1_w32) broadcasts_S1x1024_S2048x1024 (ix2 j k))).setWidth 32) = _
  rw [e6, e7]
  exact hot_word _ _

theorem cnt_rhs_0 (j : S1x1024.Idx) (kk : dot_S2048x1_S2048x1024_S1x1024_0_0_1_1_n_n.contr.Idx) :
    (dot_S2048x1_S2048x1024_S1x1024_0_0_1_1_n_n.rhsIdx j kk 0).val = (kk ⟨0, by decide⟩).val :=
  dot_S2048x1_S2048x1024_S1x1024_0_0_1_1_n_n.rhsIdx_val_of_single (cr := 0) rfl j kk
theorem cnt_rhs_1 (j : S1x1024.Idx) (kk : dot_S2048x1_S2048x1024_S1x1024_0_0_1_1_n_n.contr.Idx) :
    (dot_S2048x1_S2048x1024_S1x1024_0_0_1_1_n_n.rhsIdx j kk 1).val = (j 1).val := rfl

theorem tail_ix3_cnt (k : Fin 1024) :
    ((fun a => (ix3 (0 : Fin 1) (0 : Fin 1) k) a.succ : S1x1024.Idx)) = ix2 (0 : Fin 1) k := by
  funext a; match a with | ⟨0, _⟩ => rfl | ⟨1, _⟩ => rfl
theorem cons_ix2_cnt (k : Fin 1024) :
    (Fin.cons (⟨0, Nat.one_pos⟩ : Fin 1) (ix2 (0 : Fin 1) k) : S1x1x1024.Idx) = ix3 (0 : Fin 1) (0 : Fin 1) k := by
  funext a; match a with | ⟨0, _⟩ => rfl | ⟨1, _⟩ => rfl | ⟨2, _⟩ => rfl

/-- The column of ones times the one-hot matrix: entry k is the sum over the tile's rows of their weight towards k. -/
theorem ones_dot_onehot (x1 : Vec Ideal S2048x1 .i32) (k : Fin 1024) :
    FloatOps.matmul dot_S2048x1_S2048x1024_S1x1024_0_0_1_1_n_n none
        (broadcast S2048x1 (Scalar.ofBits (F := Ideal) .bf16 0x3F80#16)) (k0_pay3 (F := Ideal) x1)
        (constant S1x1024 .f32 0x00000000#32) (ix2 (0 : Fin 1) k)
      = ∑ j : Fin 2048, hot (x1 (ix2 j (0 : Fin 1))) k.val := by
  rw [Ideal.matmul_constant_zero_apply,
    ← Equiv.sum_comp (contrEquiv1 dot_S2048x1_S2048x1024_S1x1024_0_0_1_1_n_n 2048 rfl rfl).symm]
  refine Finset.sum_congr rfl fun j _ => ?_
  have hr : dot_S2048x1_S2048x1024_S1x1024_0_0_1_1_n_n.rhsIdx (ix2 (0 : Fin 1) k)
      ((contrEquiv1 dot_S2048x1_S2048x1024_S1x1024_0_0_1_1_n_n 2048 rfl rfl).symm j) = ix2 j k := by
    funext ax; apply Fin.ext
    match ax with
    | ⟨0, _⟩ => exact (cnt_rhs_0 _ _).trans (contrEquiv1_symm_val dot_S2048x1_S2048x1024_S1x1024_0_0_1_1_n_n 2048 rfl rfl j)
    | ⟨1, _⟩ => exact cnt_rhs_1 _ _
  rw [hr, onehot_apply]
  show Ideal.ofBits .bf16 0x3F80#16 * _ = _
  rw [Ideal.ofBits_one_bf16, one_mul]

/-- The count update at class k: what the block held there plus the tile's rows' weights towards k. -/
theorem count_step_apply (x1 : Vec Ideal S2048x1 .i32) (xo3 : Vec Ideal S1x1x1024 .f32) (k : Fin 1024) :
    k0_pay4 (F := Ideal) x1 xo3 (ix3 (0 : Fin 1) (0 : Fin 1) k)
      = xo3 (ix3 (0 : Fin 1) (0 : Fin 1) k) + ∑ j : Fin 2048, hot (x1 (ix2 j (0 : Fin 1))) k.val := by
  unfold k0_pay4
  refine (shapeCast_addUnit_apply ![1, 1024] _ shapeCasts_S1x1024_S1x1x1024 (ix3 (0 : Fin 1) (0 : Fin 1) k)).trans ?_
  refine (congrArg _ (tail_ix3_cnt k)).trans ?_
  refine (addf_apply _ _ _).trans ?_
  refine congrArg₂ (· + ·) ?_ (ones_dot_onehot x1 k)
  exact (shapeCast_dropUnit_apply ![1, 1024] xo3 shapeCasts_S1x1x1024_S1x1024 (ix2 (0 : Fin 1) k)).trans
    (congrArg xo3 (cons_ix2_cnt k))

/-- The cleared block is zero everywhere. -/
theorem zero_cnt_apply (i : S1x1x1024.Idx) : k0_pay2 (F := Ideal) i = 0 := by
  unfold k0_pay2
  refine (shapeCast_addUnit_apply ![1, 1024] _ shapeCasts_S1x1024_S1x1x1024 i).trans ?_
  exact Ideal.ofBits_zero_f32

end Payloads

/-! ## The block index maps, and the label tile at an entry -/

section Blocks

/-- The block index maps over the grid: at point t the label window sits at block row t, column 0; the count
    window at block t / 64 (the half), 0, 0. -/
theorem idx_labels : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_counts : ∀ t : Fin cfg0.N, win0_3.index t (0 : Fin 3) = t.val / 64 ∧ win0_3.index t (1 : Fin 3) = 0
    ∧ win0_3.index t (2 : Fin 3) = 0 :=
  (by decide +kernel : ∀ t : Fin grid0.N, win0_3.index t (0 : Fin 3) = t.val / 64 ∧ win0_3.index t (1 : Fin 3) = 0
    ∧ win0_3.index t (2 : Fin 3) = 0)

end Blocks

/-- The label column as the pass finds it, -/
abbrev labels (c : Dev nD) : Vec Ideal S262144x1 .i32 := V c main_v6
/-- and the tile of labels the body sees at point t. -/
abbrev lblk (c : Dev nD) (t : Fin cfg0.N) : Vec Ideal S2048x1 .i32 := iblk0 V c 1 t

/-- At point 64 q + s entry j of the label tile is the label of row (64 q + s) · 2048 + j. -/
theorem lblk_apply (c : Dev nD) (t : Fin cfg0.N) (q : Fin 2) (s : Fin 64) (ht : t.val = 64 * q.val + s.val)
    (j : Fin 2048) : lblk V c t (ix2 j (0 : Fin 1)) = labels V c (ix2 (rowAt q s j) (0 : Fin 1)) := by
  have hi := idx_labels t
  show iblk0 V c 1 t (ix2 j (0 : Fin 1)) = _
  unfold iblk0
  rw [View.read_apply]
  show V c main_v6 _ = V c main_v6 _
  congr 1
  funext a
  apply Fin.ext
  match a with
  | ⟨0, _⟩ => show win0_1.index t 0 * 2048 + 1 * j.val = (64 * q.val + s.val) * 2048 + j.val; rw [hi.1, ht]; omega
  | ⟨1, _⟩ => show win0_1.index t 1 * 1 + 1 * 0 = 0; rw [hi.2]

/-! ## The count block over the tiles of a half -/

/-- At a half's first tile the count block is the update of the cleared block, -/
theorem count_reset (c : Dev nD) (t : Fin cfg0.N) (h0 : t.val % 64 = 0) :
    (outsAt0 V c t.val t.isLt).2 = k0_pay4 (lblk V c t) (k0_pay2 (F := Ideal)) := by
  rw [outsAt0_A V c t h0]
  dsimp only
  exact out_A_3 (F := Ideal) c (grid0.coords t) (ms0_0 t) (hs0_0 t) (ms0_1 t) (hs0_1 t) (ms0_2 t) (hs0_2 t) (ms0_3 t) (hs0_3 t)
    ((hcond0_0 t).mpr h0) (iblk0 V c 0 t) (iblk0 V c 1 t)

/-- and at every other tile the update of what the tile before left. -/
theorem count_step (c : Dev nD) (t : Fin cfg0.N) (h0 : ¬t.val % 64 = 0) :
    (outsAt0 V c t.val t.isLt).2
      = k0_pay4 (lblk V c t) (outsAt0 V c (t.val - 1) (Nat.lt_of_le_of_lt (Nat.sub_le _ _) t.isLt)).2 := by
  rw [outsAt0_B V c t h0]
  dsimp only
  exact out_B_3 (F := Ideal) c (grid0.coords t) (ms0_0 t) (hs0_0 t) (ms0_1 t) (hs0_1 t) (ms0_2 t) (hs0_2 t) (ms0_3 t) (hs0_3 t)
    (fun h => h0 ((hcond0_0 t).mp h)) (iblk0 V c 0 t) (iblk0 V c 1 t)
    (outsAt0 V c (t.val - 1) (Nat.lt_of_le_of_lt (Nat.sub_le _ _) t.isLt)).1
    (outsAt0 V c (t.val - 1) (Nat.lt_of_le_of_lt (Nat.sub_le _ _) t.isLt)).2

/-- So the count block after point t is the fold of the updates over the tiles of t's half up to t. -/
theorem count_fold (c : Dev nD) (t : Fin cfg0.N) (h' : 64 * (t.val / 64) + t.val % 64 < cfg0.N) :
    (outsAt0 V c t.val t.isLt).2
      = Pipeline.accAt (fun n h => k0_pay4 (lblk V c ⟨n, h⟩) (k0_pay2 (F := Ideal)))
          (fun n h acc => k0_pay4 (lblk V c ⟨n, h⟩) acc) (64 * (t.val / 64)) (t.val % 64) h' :=
  Pipeline.eq_accAt_of_mod (fun n h => (outsAt0 V c n h).2) 64 _ _
    (fun n h h0 => count_reset V c ⟨n, h⟩ h0)
    (fun n h hne => count_step V c ⟨n + 1, h⟩ hne)
    (by decide) t.val t.isLt h'

/-- What tile t adds to class k: the number of the tile's rows labelled k, as a sum of weights. -/
def tileCount (c : Dev nD) (t : Fin cfg0.N) (k : Fin 1024) : EReal :=
  ∑ j : Fin 2048, hot (lblk V c t (ix2 j (0 : Fin 1))) k.val

/-- The same as a function of every natural (nothing past the grid). -/
def countAdd (c : Dev nD) (n : Nat) (i : S1x1x1024.Idx) : EReal :=
  if h : n < cfg0.N then tileCount V c ⟨n, h⟩ (i 2) else 0

/-- The fold unrolled: after j further tiles from b the block holds the sum of the tiles' addends. -/
theorem count_run (c : Dev nD) (b j : Nat) (hj : j ≤ 63) (h : b + j < cfg0.N) (i : S1x1x1024.Idx) :
    Pipeline.accAt (fun n h => k0_pay4 (lblk V c ⟨n, h⟩) (k0_pay2 (F := Ideal)))
        (fun n h acc => k0_pay4 (lblk V c ⟨n, h⟩) acc) b j h i
      = 0 + ∑ s ∈ Finset.range (j + 1), countAdd V c (b + s) i :=
  Pipeline.accAt_add_apply _ _ (fun _ => (0 : EReal)) (countAdd V c) b 63
    (fun h i => by
      obtain ⟨p, p', k, rfl⟩ : ∃ (p : Fin 1) (p' : Fin 1) (k : Fin 1024), i = ix3 p p' k := ⟨i 0, i 1, i 2, eq_ix3 i⟩
      obtain rfl : p = 0 := Subsingleton.elim _ _
      obtain rfl : p' = 0 := Subsingleton.elim _ _
      refine (count_step_apply (lblk V c ⟨b, h⟩) (k0_pay2 (F := Ideal)) k).trans ?_
      rw [zero_cnt_apply]
      unfold countAdd
      rw [dif_pos h]
      rfl)
    (fun n h acc i _ _ => by
      obtain ⟨p, p', k, rfl⟩ : ∃ (p : Fin 1) (p' : Fin 1) (k : Fin 1024), i = ix3 p p' k := ⟨i 0, i 1, i 2, eq_ix3 i⟩
      obtain rfl : p = 0 := Subsingleton.elim _ _
      obtain rfl : p' = 0 := Subsingleton.elim _ _
      refine (count_step_apply (lblk V c ⟨n, h⟩) acc k).trans ?_
      unfold countAdd
      rw [dif_pos h]
      rfl)
    j hj h i

/-- At the half's last tile, point 64 q + 63, entry k of the block is the half's rows' weights towards k. -/
theorem count_at_flush (c : Dev nD) (t : Fin cfg0.N) (q : Fin 2) (ht : t.val = 64 * q.val + 63) (k : Fin 1024) :
    (outsAt0 V c t.val t.isLt).2 (ix3 (0 : Fin 1) (0 : Fin 1) k)
      = ∑ s : Fin 64, ∑ j : Fin 2048, hot (labels V c (ix2 (rowAt q s j) (0 : Fin 1))) k.val := by
  have hN : cfg0.N = 128 := N_0
  have hq := q.isLt
  have hdiv : t.val / 64 = q.val := by omega
  have hmod : t.val % 64 = 63 := by omega
  have h' : 64 * (t.val / 64) + t.val % 64 < cfg0.N := by rw [hdiv, hmod, hN]; omega
  rw [count_fold V c t h', count_run V c (64 * (t.val / 64)) (t.val % 64) (by omega) h' (ix3 (0 : Fin 1) (0 : Fin 1) k),
    hdiv, hmod, zero_add, Finset.sum_range]
  refine Finset.sum_congr rfl fun s _ => ?_
  have hs := s.isLt
  have hlt : 64 * q.val + s.val < cfg0.N := by rw [hN]; omega
  unfold countAdd
  rw [dif_pos hlt]
  unfold tileCount
  refine Finset.sum_congr rfl fun j _ => ?_
  rw [lblk_apply V c ⟨64 * q.val + s.val, hlt⟩ q s rfl j]

/-! ## From the blocks to the array -/

/-- The count array after the pass, as one function of the label column. -/
def countsArr (c : Dev nD) : Vec Ideal S2x1x1024 .f32 := fun i =>
  ∑ s : Fin 64, ∑ j : Fin 2048, hot (labels V c (ix2 (rowAt (i 0) s j) (0 : Fin 1))) (i 2).val

theorem countsArr_apply (c : Dev nD) (i : S2x1x1024.Idx) (q : Fin 2) (k : Nat) (hq : (i 0).val = q.val)
    (hk : (i 2).val = k) :
    countsArr V c i = ∑ s : Fin 64, ∑ j : Fin 2048, hot (labels V c (ix2 (rowAt q s j) (0 : Fin 1))) k := by
  have e : i 0 = q := Fin.ext hq
  unfold countsArr
  rw [e, hk]

/-- What a half's last tile writes back is that half's block of the count array. -/
theorem flushed_counts (c : Dev nD) (t : Fin cfg0.N) (hf : (cfg0.win 3).flush t = true) :
    (dat0 V c).flushed 3 t = ((cfg0.win 3).blk t).view.read (Elt Ideal) (countsArr V c) := by
  have hN : cfg0.N = 128 := N_0
  have hlt : t.val < 128 := lt_of_lt_of_eq t.isLt hN
  have h63 : t.val % 64 = 63 := (flush0_3 t).mp hf
  obtain ⟨e0, e1, e2⟩ := idx_counts t
  show (cfg0.win 3).cut (grid0.coords t) ((dat0 V c).after 3 t) = _
  rw [after0_3]
  refine funext fun (y : S1x1x1024.Idx) => ?_
  obtain ⟨p, p', k, rfl⟩ : ∃ (p : Fin 1) (p' : Fin 1) (k : Fin 1024), y = ix3 p p' k := ⟨y 0, y 1, y 2, eq_ix3 y⟩
  obtain rfl : p = 0 := Subsingleton.elim _ _
  obtain rfl : p' = 0 := Subsingleton.elim _ _
  show (outsAt0 V c t.val t.isLt).2 (ix3 (0 : Fin 1) (0 : Fin 1) k)
    = countsArr V c (((cfg0.win 3).blk t).view.emb (ix3 (0 : Fin 1) (0 : Fin 1) k))
  refine (count_at_flush V c t ⟨t.val / 64, by omega⟩ (by show t.val = 64 * (t.val / 64) + 63; omega) k).trans
    (countsArr_apply V c _ ⟨t.val / 64, by omega⟩ k.val ?_ ?_).symm
  · show win0_3.index t 0 * 1 + 1 * 0 = t.val / 64
    rw [e0]; omega
  · show win0_3.index t 2 * 1024 + 1 * k.val = k.val
    rw [e2]; omega

/-- Half `q`'s block of per-class counts after the pass: over the half's rows, the one-hot weight of the row's label. -/
theorem counts_total (c : Dev nD) (q : Fin 2) (k : Fin 1024) :
    ((dat0 (F := Ideal) V c).arrAt 3 cfg0.N : Vec Ideal S2x1x1024 .f32) (ix3 q (0 : Fin 1) k)
      = ∑ s : Fin 64, ∑ j : Fin 2048,
          hot ((V c main_v6 : Vec Ideal S262144x1 .i32) (ix2 (rowAt q s j) (0 : Fin 1))) k.val := by
  have hN : cfg0.N = 128 := N_0
  have hq := q.isLt
  obtain ⟨t, htv⟩ : ∃ t : Fin cfg0.N, t.val = 64 * q.val + 63 := ⟨⟨64 * q.val + 63, by rw [hN]; omega⟩, rfl⟩
  have hf : (cfg0.win 3).flush t = true := (flush0_3 t).mpr (by rw [htv]; omega)
  obtain ⟨e0, e1, e2⟩ := idx_counts t
  -- entry (q, 0, k) lies in the block the half's last tile writes back: block row q of the array
  have hmem : ix3 q (0 : Fin 1) k ∈ ((cfg0.win 3).blk t).view.set := by
    show ix3 q (0 : Fin 1) k ∈ ((View.whole main_v7_1).slice (win0_3.rect t)).set
    rw [View.set_slice_whole, Rect.mem_set_unit]
    intro a
    have hk := k.isLt
    match a with
    | ⟨0, _⟩ =>
      show win0_3.index t 0 * 1 ≤ q.val ∧ q.val < win0_3.index t 0 * 1 + 1
      rw [e0, htv]; omega
    | ⟨1, _⟩ =>
      show win0_3.index t 1 * 1 ≤ 0 ∧ 0 < win0_3.index t 1 * 1 + 1
      rw [e1]; omega
    | ⟨2, _⟩ =>
      show win0_3.index t 2 * 1024 ≤ k.val ∧ k.val < win0_3.index t 2 * 1024 + 1024
      rw [e2]; omega
  exact ((dat0 V c).arrAt_apply_of_mem 3 (countsArr V c) (flushed_counts V c) cfg0.N t (ix3 q (0 : Fin 1) k) t.isLt hf hmem).trans
    (countsArr_apply V c (ix3 q (0 : Fin 1) k) q k.val rfl rfl)

end Cert.KernelIdeal.StatsCounts

end
-- ==== Proof.ReduceDefs.lean ====
/-
  The second pass's row quantities, over what the pass finds in its three input arrays: a row's packed word, the table
  row the one-hot product picks for it, the row minus that, and the root of the sum of squares of the shifted difference.
-/
import proofs.«415260_j42322607735528_3_alg».proof.Proof.Gen.KernelIdeal.Frame
import proofs.«415260_j42322607735528_3_alg».proof.Proof.Common
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Reduce

open Cert.KernelIdeal Cert.KernelIdeal.Gen Cert.CenterStats

variable (V : (c : Dev nD) → (b : Ref sig .tc) → Buf (Elt Ideal) ((c : Thread nD τ).loc b))

/-- The rows as the second pass finds them. -/
abbrev feats (c : Dev nD) : Vec Ideal S262144x256 .f32 := V c main_arg0
/-- The packed class-and-mark column as the second pass finds it. -/
abbrev packed (c : Dev nD) : Vec Ideal S262144x1 .i32 := V c main_v28
/-- The padded table of class centers as the second pass finds it. -/
abbrev table (c : Dev nD) : Vec Ideal S1024x256 .bf16 := V c main_v29

/-- Row `r`'s packed word. -/
def word (c : Dev nD) (r : Fin 262144) : BitVec 32 := packed V c (ix2 r (0 : Fin 1))
/-- What the one-hot product picks for row `r`: the table's row of `r`'s class. -/
def picked (c : Dev nD) (r : Fin 262144) (d : Fin 256) : EReal :=
  ∑ k : Fin 1024, hot (unpackTarget (word V c r)) k.val * table V c (ix2 k d)
/-- The row minus what was picked for it. -/
def diff (c : Dev nD) (r : Fin 262144) (d : Fin 256) : EReal := feats V c (ix2 r d) - picked V c r d
/-- The row's distance to what was picked: the root of the sum of squares of the shifted difference. -/
def dist (c : Dev nD) (r : Fin 262144) : EReal :=
  Ideal.sqrt (∑ d : Fin 256, (diff V c r d + eps32) * (diff V c r d + eps32))

end Cert.KernelIdeal.Reduce

end
-- ==== Proof.ReduceRegion.lean ====
/-
  The second pass's per-class distance sums, read as values. Two halves of 64 tiles of 2048 rows, one block of 1024
  sums per half, cleared at the half's first tile and added into at every tile. A row's packed word gives its class and
  its clean weight. The one-hot product with the padded table picks the table's row of that class; the row minus it is
  the difference. The tile adds to the block, at class k, the clean-weighted distance (the root of the sum of squares of
  the difference shifted by the small constant) of the tile's rows of class k. The distance is added in two parts, the
  value and the value minus itself: the second part is zero because the weighted distance is a real number, and that is
  the one place where finiteness is used.
-/
import proofs.«415260_j42322607735528_3_alg».proof.Proof.Gen.KernelIdeal.Frame
import proofs.«415260_j42322607735528_3_alg».proof.Proof.Common
import proofs.«415260_j42322607735528_3_alg».proof.Proof.ReduceDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Reduce

open Cert.KernelIdeal Cert.KernelIdeal.Gen Cert.CenterStats

variable (V : (c : Dev nD) → (b : Ref sig .tc) → Buf (Elt Ideal) ((c : Thread nD τ).loc b))

namespace DistSum

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A whole-block load after a whole-block store reads what was stored, whatever was stored before it. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- The distance block a later tile leaves: the two updates applied in turn to what the tile found. -/
theorem out3_B (c : Dev nD) (i : grid1.Coords) (a2 : Memref sig .tc .vmem S2048x256 .f32) (h2 : a2.IsWhole)
    (a3 : Memref sig .tc .vmem S2048x1 .i32) (h3 : a3.IsWhole) (a4 : Memref sig .tc .vmem S1024x256 .bf16) (h4 : a4.IsWhole)
    (a5 : Memref sig .tc .vmem S1x1x1024 .f32) (h5 : a5.IsWhole) (a6 : Memref sig .tc .vmem S1x1x1 .f32) (h6 : a6.IsWhole)
    (a7 : Memref sig .tc .vmem S1x1x1 .f32) (h7 : a7.IsWhole) (hc : ¬cond1_0 i)
    (x0 : Vec F S2048x256 .f32) (x1 : Vec F S2048x1 .i32) (x2 : Vec F S1024x256 .bf16)
    (xo3 : Vec F S1x1x1024 .f32) (xo4 : Vec F S1x1x1 .f32) (xo5 : Vec F S1x1x1 .f32) :
    out1_B_3 c i a2 h2 a3 h3 a4 h4 a5 h5 a6 h6 a7 h7 hc x0 x1 x2 xo3 xo4 xo5
      = k1_pay14 (k1_pay6 x1) (k1_pay8 x1) (k1_pay9 x1 x0 x2)
          (k1_pay13 (k1_pay6 x1) (k1_pay8 x1) (k1_pay9 x1 x0 x2) xo3) := by
  unfold out1_B_3
  rw [View.read_writes_eq_canon _ _ _ (cover1_B_3 c i a2 h2 a3 h3 a4 h4 a5 h5 a6 h6 a7 h7 hc x0 x1 x2 xo3 xo4 xo5)]
  unfold kernelRun1_B
  dsimp only
  sl_unfold_words
  rw [View.canon_cons_unit_zero (S := S1x1x1024) hz3, readCov_cons_whole (S := S1x1x1024) _ hz3]
  simp only [View.readAt_eq_ld, h2.read_unread, h3.read_unread, h4.read_unread, h5.read_unread, h6.read_unread, h7.read_unread,
    View.ld_unit_zero (S := S2048x256) hz2, View.ld_unit_zero (S := S2048x1) hz2, View.ld_unit_zero (S := S1024x256) hz2,
    View.ld_unit_zero (S := S1x1x1024) hz3, View.ld_unit_zero (S := S1x1x1) hz3]

/-- The distance block a half's first tile leaves: the two updates applied to the cleared block. -/
theorem out3_A (c : Dev nD) (i : grid1.Coords) (a2 : Memref sig .tc .vmem S2048x256 .f32) (h2 : a2.IsWhole)
    (a3 : Memref sig .tc .vmem S2048x1 .i32) (h3 : a3.IsWhole) (a4 : Memref sig .tc .vmem S1024x256 .bf16) (h4 : a4.IsWhole)
    (a5 : Memref sig .tc .vmem S1x1x1024 .f32) (h5 : a5.IsWhole) (a6 : Memref sig .tc .vmem S1x1x1 .f32) (h6 : a6.IsWhole)
    (a7 : Memref sig .tc .vmem S1x1x1 .f32) (h7 : a7.IsWhole) (hc : cond1_0 i)
    (x0 : Vec F S2048x256 .f32) (x1 : Vec F S2048x1 .i32) (x2 : Vec F S1024x256 .bf16) :
    out1_A_3 c i a2 h2 a3 h3 a4 h4 a5 h5 a6 h6 a7 h7 hc x0 x1 x2
      = k1_pay14 (k1_pay6 x1) (k1_pay8 x1) (k1_pay9 x1 x0 x2)
          (k1_pay13 (k1_pay6 x1) (k1_pay8 x1) (k1_pay9 x1 x0 x2) (k1_pay2 (F := F))) := by
  unfold out1_A_3
  rw [View.read_writes_eq_canon _ _ _ (cover1_A_3 c i a2 h2 a3 h3 a4 h4 a5 h5 a6 h6 a7 h7 hc x0 x1 x2)]
  unfold kernelRun1_A
  dsimp only
  sl_unfold_words
  rw [View.canon_cons_unit_zero (S := S1x1x1024) hz3]
  simp only [readCov_cons_whole (S := S1x1x1024) _ hz3]
  simp only [View.readAt_eq_ld, h2.read_unread, h3.read_unread, h4.read_unread, h5.read_unread, h6.read_unread, h7.read_unread,
    View.ld_unit_zero (S := S2048x256) hz2, View.ld_unit_zero (S := S2048x1) hz2, View.ld_unit_zero (S := S1024x256) hz2,
    View.ld_unit_zero (S := S1x1x1024) hz3, View.ld_unit_zero (S := S1x1x1) hz3]

end Pieces

section Values

/-! ### Words and weights -/

theorem sitofp_eq_ind (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  unfold IntOp.cmpi
  by_cases h : a = b
  · subst h; simp
  · have hb : (a == b) = false := by simpa using h
    simp [hb, h]

/-- The word of sample `j` in a tile's block of words. -/
abbrev wordIn (x1 : Vec Ideal S2048x1 .i32) (j : Fin 2048) : BitVec 32 := x1 (ix2 j (0 : Fin 1))

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay6_apply (x1 : Vec Ideal S2048x1 .i32) (j : Fin 2048) :
    k1_pay6 (F := Ideal) x1 (ix2 j (0 : Fin 1)) = cleanWeight (wordIn x1 j) := by
  unfold k1_pay6 k1_pay5
  rw [shapeCast_self]
  rfl

theorem pay7_apply (x1 : Vec Ideal S2048x1 .i32) (j : Fin 2048) :
    k1_pay7 (F := Ideal) x1 (ix2 j (0 : Fin 1)) = one32 - cleanWeight (wordIn x1 j) := by
  unfold k1_pay7
  show one32 - k1_pay6 (F := Ideal) x1 (ix2 j (0 : Fin 1)) = _
  rw [pay6_apply]

theorem pay8_apply (x1 : Vec Ideal S2048x1 .i32) (j : Fin 2048) (k : Fin 1024) :
    k1_pay8 (F := Ideal) x1 (ix2 j k) = hot (unpackTarget (wordIn x1 j)) k.val := by
  unfold k1_pay8 k1_pay5
  rw [shapeCast_self]
  show FloatOps.sitofp (F := Ideal) .f32 ((IntOp.cmpi .eq
      (broadcastTo S2048x1024 (shrsi x1 (broadcast S2048x1 1#32)) broadcasts_S2048x1_S2048x1024 (ix2 j k))
      (broadcastTo S2048x1024 (iota .tc S1x1024 32 [1] iota_S1x1024_d1_w32) broadcasts_S1x1024_S2048x1024 (ix2 j k))).setWidth 32) = _
  rw [broadcastTo_a1_ab_apply, broadcastTo_1b_ab_apply, iota_single_apply, sitofp_eq_ind]
  rfl

end Values

section Products

/-! ### The two matrix products -/

/-- The one-hot product: samples by classes against classes by columns, contracting the classes. -/
abbrev Dpick := dot_S2048x1024_S1024x256_S2048x256_1_0_0_1_n_n

theorem pick_lhs_0 (j : S2048x256.Idx) (q : Dpick.contr.Idx) : (Dpick.lhsIdx j q 0 : ℕ) = j 0 := by
  simp [DotDims.lhsIdx, Dpick, dot_S2048x1024_S1024x256_S2048x256_1_0_0_1_n_n]; rfl
theorem pick_lhs_1 (j : S2048x256.Idx) (q : Dpick.contr.Idx) : (Dpick.lhsIdx j q 1 : ℕ) = q ⟨0, by decide⟩ := by
  simp [DotDims.lhsIdx, Dpick, dot_S2048x1024_S1024x256_S2048x256_1_0_0_1_n_n]; rfl
theorem pick_rhs_0 (j : S2048x256.Idx) (q : Dpick.contr.Idx) : (Dpick.rhsIdx j q 0 : ℕ) = q ⟨0, by decide⟩ := by
  simp [DotDims.rhsIdx, Dpick, dot_S2048x1024_S1024x256_S2048x256_1_0_0_1_n_n]; rfl
theorem pick_rhs_1 (j : S2048x256.Idx) (q : Dpick.contr.Idx) : (Dpick.rhsIdx j q 1 : ℕ) = j 1 := by
  simp [DotDims.rhsIdx, Dpick, dot_S2048x1024_S1024x256_S2048x256_1_0_0_1_n_n]; rfl

theorem pick_lhsIdx (j : Fin 2048) (d : Fin 256) (k : Fin 1024) :
    Dpick.lhsIdx (ix2 j d) ((contrEquiv1 Dpick 1024 rfl rfl).symm k) = ix2 j k := by
  apply Shape.idx_ext₂
  · exact pick_lhs_0 _ _
  · exact (pick_lhs_1 _ _).trans (contrEquiv1_symm_val Dpick 1024 rfl rfl k)

theorem pick_rhsIdx (j : Fin 2048) (d : Fin 256) (k : Fin 1024) :
    Dpick.rhsIdx (ix2 j d) ((contrEquiv1 Dpick 1024 rfl rfl).symm k) = ix2 k d := by
  apply Shape.idx_ext₂
  · exact (pick_rhs_0 _ _).trans (contrEquiv1_symm_val Dpick 1024 rfl rfl k)
  · exact pick_rhs_1 _ _

/-- The row of the table a sample's one-hot row picks, inside a tile. -/
def pickedIn (x1 : Vec Ideal S2048x1 .i32) (x2 : Vec Ideal S1024x256 .bf16) (j : Fin 2048) (d : Fin 256) : EReal :=
  ∑ k : Fin 1024, hot (unpackTarget (wordIn x1 j)) k.val * x2 (ix2 k d)

/-- A sample's row minus what was picked for it, inside a tile. -/
def diffIn (x1 : Vec Ideal S2048x1 .i32) (x0 : Vec Ideal S2048x256 .f32) (x2 : Vec Ideal S1024x256 .bf16) (j : Fin 2048) (d : Fin 256) : EReal :=
  x0 (ix2 j d) - pickedIn x1 x2 j d

theorem pay9_apply (x1 : Vec Ideal S2048x1 .i32) (x0 : Vec Ideal S2048x256 .f32) (x2 : Vec Ideal S1024x256 .bf16)
    (j : Fin 2048) (d : Fin 256) :
    k1_pay9 (F := Ideal) x1 x0 x2 (ix2 j d) = diffIn x1 x0 x2 j d := by
  unfold k1_pay9
  rw [shapeCast_self]
  show x0 (ix2 j d) - FloatOps.matmul Dpick none (k1_pay8 (F := Ideal) x1) x2 (constant (F := Ideal) S2048x256 .f32 0x00000000#32) (ix2 j d) = _
  rw [Ideal.matmul_constant_zero_apply, ← Equiv.sum_comp (contrEquiv1 Dpick 1024 rfl rfl).symm]
  unfold diffIn pickedIn
  refine congrArg (x0 (ix2 j d) - ·) (Finset.sum_congr rfl fun k _ => ?_)
  rw [pick_lhsIdx, pick_rhsIdx, pay8_apply]

end Products

section Distances

/-! ### The weighted distance of a sample, and the two updates of the per-class block -/

/-- A sum along the lanes of a [2048, 256] vector, read at a sample. -/
theorem laneSum_apply (v : FVec Ideal S2048x256 .f32) (h : S2048x256.Reduces [1] S2048) (hφ : FKind.Formats .f32)
    (hacc : (0x00000000#32 : BitVec 32) = FKind.add.neutral .f32 hφ) (j : Fin 2048) :
    multiReduction (F := Ideal) .add [1] S2048 v 0x00000000#32 h hφ hacc (ix1 j) = ∑ d : Fin 256, v (ix2 j d) := by
  refine (Ideal.multiReduction_add_single v 0x00000000#32 h hφ hacc (ix1 j)).trans ?_
  refine Finset.sum_congr rfl fun d _ => congrArg v ?_
  apply Shape.idx_ext₂ <;> rfl

/-- A [2048] vector viewed as a [2048, 1] column reads, at sample `j`, its entry `j`. -/
theorem column_apply {α : Type} (v : S2048.Idx → α) (h : S2048.ShapeCasts S2048x1) (j : Fin 2048) :
    shapeCast S2048x1 v h (ix2 j (0 : Fin 1)) = v (ix1 j) :=
  shapeCast_apply v h _ _ (by
    rw [Shape.rowMajor_val_two, Shape.rowMajor_val_one]
    show j.val = j.val * 1 + 0
    omega)

theorem pay12_apply (v12 : FVec Ideal S2048x1 .f32) (v26 : FVec Ideal S2048x256 .f32) (j : Fin 2048) :
    k1_pay12 (F := Ideal) v12 v26 (ix2 j (0 : Fin 1))
      = Ideal.sqrt (∑ d : Fin 256, (v26 (ix2 j d) + eps32) * (v26 (ix2 j d) + eps32)) * v12 (ix2 j (0 : Fin 1)) := by
  unfold k1_pay12
  show Ideal.sqrt (shapeCast S2048x1 _ shapeCasts_S2048_S2048x1 (ix2 j (0 : Fin 1))) * v12 (ix2 j (0 : Fin 1)) = _
  rw [column_apply]
  refine congrArg (fun z => Ideal.sqrt z * v12 (ix2 j (0 : Fin 1))) ?_
  refine (laneSum_apply _ _ _ _ j).trans ?_
  rfl

/-- The product that sums the weighted distances class by class: a column of samples against samples by classes,
    contracting the samples. -/
abbrev Dsum := dot_S2048x1_S2048x1024_S1x1024_0_0_1_1_n_n

theorem sum_lhs_0 (j : S1x1024.Idx) (q : Dsum.contr.Idx) : (Dsum.lhsIdx j q 0 : ℕ) = q ⟨0, by decide⟩ := by
  simp [DotDims.lhsIdx, Dsum, dot_S2048x1_S2048x1024_S1x1024_0_0_1_1_n_n]; rfl
theorem sum_lhs_1 (j : S1x1024.Idx) (q : Dsum.contr.Idx) : (Dsum.lhsIdx j q 1 : ℕ) = 0 := by
  simp [DotDims.lhsIdx, Dsum, dot_S2048x1_S2048x1024_S1x1024_0_0_1_1_n_n]
theorem sum_rhs_0 (j : S1x1024.Idx) (q : Dsum.contr.Idx) : (Dsum.rhsIdx j q 0 : ℕ) = q ⟨0, by decide⟩ := by
  simp [DotDims.rhsIdx, Dsum, dot_S2048x1_S2048x1024_S1x1024_0_0_1_1_n_n]; rfl
theorem sum_rhs_1 (j : S1x1024.Idx) (q : Dsum.contr.Idx) : (Dsum.rhsIdx j q 1 : ℕ) = j 1 := by
  simp [DotDims.rhsIdx, Dsum, dot_S2048x1_S2048x1024_S1x1024_0_0_1_1_n_n]; rfl

theorem sum_lhsIdx (k : Fin 1024) (j : Fin 2048) :
    Dsum.lhsIdx (ix2 (0 : Fin 1) k) ((contrEquiv1 Dsum 2048 rfl rfl).symm j) = ix2 j (0 : Fin 1) := by
  apply Shape.idx_ext₂
  · exact (sum_lhs_0 _ _).trans (contrEquiv1_symm_val Dsum 2048 rfl rfl j)
  · exact sum_lhs_1 _ _

theorem sum_rhsIdx (k : Fin 1024) (j : Fin 2048) :
    Dsum.rhsIdx (ix2 (0 : Fin 1) k) ((contrEquiv1 Dsum 2048 rfl rfl).symm j) = ix2 j k := by
  apply Shape.idx_ext₂
  · exact (sum_rhs_0 _ _).trans (contrEquiv1_symm_val Dsum 2048 rfl rfl j)
  · exact sum_rhs_1 _ _

/-- The class sums of a column `u` of per-sample values against the one-hot matrix `v21`, added to a block. -/
theorem classSum_apply (u : FVec Ideal S2048x1 .bf16) (v21 : FVec Ideal S2048x1024 .bf16) (acc : Vec Ideal S1x1x1024 .f32) (k : Fin 1024) :
    shapeCast S1x1x1024
        (addf (shapeCast S1x1024 acc shapeCasts_S1x1x1024_S1x1024)
          (matmul Dsum none u v21 (constant (F := Ideal) S1x1024 .f32 0x00000000#32)))
        shapeCasts_S1x1024_S1x1x1024 (ix3 (0 : Fin 1) (0 : Fin 1) k)
      = acc (ix3 (0 : Fin 1) (0 : Fin 1) k) + ∑ j : Fin 2048, u (ix2 j (0 : Fin 1)) * v21 (ix2 j k) := by
  rw [shapeCast_ab_1ab_apply]
  show shapeCast S1x1024 acc shapeCasts_S1x1x1024_S1x1024 (ix2 (0 : Fin 1) k)
      + FloatOps.matmul Dsum none u v21 (constant (F := Ideal) S1x1024 .f32 0x00000000#32) (ix2 (0 : Fin 1) k) = _
  rw [shapeCast_1ab_ab_apply, Ideal.matmul_constant_zero_apply, ← Equiv.sum_comp (contrEquiv1 Dsum 2048 rfl rfl).symm]
  refine congrArg (acc (ix3 (0 : Fin 1) (0 : Fin 1) k) + ·) (Finset.sum_congr rfl fun j _ => ?_)
  rw [sum_lhsIdx, sum_rhsIdx]

theorem pay13_apply (v12 : FVec Ideal S2048x1 .f32) (v21 : FVec Ideal S2048x1024 .bf16) (v26 : FVec Ideal S2048x256 .f32)
    (acc : Vec Ideal S1x1x1024 .f32) (k : Fin 1024) :
    k1_pay13 (F := Ideal) v12 v21 v26 acc (ix3 (0 : Fin 1) (0 : Fin 1) k)
      = acc (ix3 (0 : Fin 1) (0 : Fin 1) k)
          + ∑ j : Fin 2048, k1_pay12 (F := Ideal) v12 v26 (ix2 j (0 : Fin 1)) * v21 (ix2 j k) := by
  unfold k1_pay13
  exact classSum_apply _ v21 acc k

theorem pay14_apply (v12 : FVec Ideal S2048x1 .f32) (v21 : FVec Ideal S2048x1024 .bf16) (v26 : FVec Ideal S2048x256 .f32)
    (acc : Vec Ideal S1x1x1024 .f32) (k : Fin 1024) :
    k1_pay14 (F := Ideal) v12 v21 v26 acc (ix3 (0 : Fin 1) (0 : Fin 1) k)
      = acc (ix3 (0 : Fin 1) (0 : Fin 1) k)
          + ∑ j : Fin 2048, (k1_pay12 (F := Ideal) v12 v26 (ix2 j (0 : Fin 1)) - k1_pay12 (F := Ideal) v12 v26 (ix2 j (0 : Fin 1)))
              * v21 (ix2 j k) := by
  unfold k1_pay14
  exact classSum_apply _ v21 acc k

end Distances

section Blocks

/-! ### The three input blocks of a tile, read off the arrays -/

/-- Tile `t`'s block of rows, of words, and the table, as the pass hands them to the body. -/
abbrev rowsBlk (c : Dev nD) (t : Fin cfg1.N) : Vec Ideal S2048x256 .f32 := iblk1 V c 0 t
abbrev wordsBlk (c : Dev nD) (t : Fin cfg1.N) : Vec Ideal S2048x1 .i32 := iblk1 V c 1 t
abbrev tableBlk (c : Dev nD) (t : Fin cfg1.N) : Vec Ideal S1024x256 .bf16 := iblk1 V c 2 t

/-- Where the index maps put tile `t`'s blocks: rows and words at block row `t`, the table at the origin, the three
    outputs at block `t / 64`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = t.val / 64 ∧ win1_3.index t (1 : Fin 3) = 0 ∧ win1_3.index t (2 : Fin 3) = 0 :=
  (by decide +kernel : ∀ t : Fin grid1.N, _)

/-- Sample `j` of tile `n`, as a row of the whole array (reduced into range, so that it is a row for every `n`). -/
def rowOf (n : Nat) (j : Fin 2048) : Fin 262144 := ⟨(n * 2048 + j.val) % 262144, Nat.mod_lt _ (by decide)⟩

theorem rowOf_val (t : Fin cfg1.N) (j : Fin 2048) : (rowOf t.val j).val = t.val * 2048 + j.val := by
  have hN : t.val < 128 := lt_of_lt_of_eq t.isLt (show cfg1.N = 128 from N_1)
  have hj := j.isLt
  show (t.val * 2048 + j.val) % 262144 = _
  exact Nat.mod_eq_of_lt (by omega)

theorem rowsBlk_apply (c : Dev nD) (t : Fin cfg1.N) (j : Fin 2048) (d : Fin 256) :
    rowsBlk V c t (ix2 j d) = feats V c (ix2 (rowOf t.val j) d) := by
  unfold rowsBlk iblk1
  rw [View.read_apply]
  show V c main_arg0 _ = V c main_arg0 _
  congr 1
  funext a
  apply Fin.ext
  match a with
  | ⟨0, _⟩ =>
    show win1_0.index t 0 * 2048 + 1 * j.val = (rowOf t.val j).val
    rw [(idx_facts t).1, rowOf_val]; omega
  | ⟨1, _⟩ =>
    show win1_0.index t 1 * 256 + 1 * d.val = d.val
    rw [(idx_facts t).2.1]; omega

theorem wordsBlk_apply (c : Dev nD) (t : Fin cfg1.N) (j : Fin 2048) :
    wordIn (wordsBlk V c t) j = word V c (rowOf t.val j) := by
  unfold word wordIn wordsBlk iblk1
  rw [View.read_apply]
  show V c main_v28 _ = V c main_v28 _
  congr 1
  funext a
  apply Fin.ext
  match a with
  | ⟨0, _⟩ =>
    show win1_1.index t 0 * 2048 + 1 * j.val = (rowOf t.val j).val
    rw [(idx_facts t).2.2.1, rowOf_val]; omega
  | ⟨1, _⟩ =>
    show win1_1.index t 1 * 1 + 1 * 0 = 0
    rw [(idx_facts t).2.2.2.1]

theorem tableBlk_apply (c : Dev nD) (t : Fin cfg1.N) (k : Fin 1024) (d : Fin 256) :
    tableBlk V c t (ix2 k d) = table V c (ix2 k d) := by
  unfold tableBlk iblk1
  rw [View.read_apply]
  show V c main_v29 _ = V c main_v29 _
  congr 1
  funext a
  apply Fin.ext
  match a with
  | ⟨0, _⟩ =>
    show win1_2.index t 0 * 1024 + 1 * k.val = k.val
    rw [(idx_facts t).2.2.2.2.1]; omega
  | ⟨1, _⟩ =>
    show win1_2.index t 1 * 256 + 1 * d.val = d.val
    rw [(idx_facts t).2.2.2.2.2.1]; omega

end Blocks

section Fold

/-! ### One tile's contribution, and the fold over a half's tiles -/

/-- What tile `n` adds to the block at class `k`: the weighted distances of its samples of that class. -/
def tileAdd (c : Dev nD) (n : Nat) (k : Fin 1024) : EReal :=
  ∑ j : Fin 2048, (dist V c (rowOf n j) * cleanWeight (word V c (rowOf n j))) * hot (unpackTarget (word V c (rowOf n j))) k.val

/-- The two updates of tile `t`, applied in turn to a block. -/
abbrev stepFn (c : Dev nD) (t : Fin cfg1.N) (acc : Vec Ideal S1x1x1024 .f32) : Vec Ideal S1x1x1024 .f32 :=
  k1_pay14 (F := Ideal) (k1_pay6 (wordsBlk V c t)) (k1_pay8 (wordsBlk V c t)) (k1_pay9 (wordsBlk V c t) (rowsBlk V c t) (tableBlk V c t))
    (k1_pay13 (F := Ideal) (k1_pay6 (wordsBlk V c t)) (k1_pay8 (wordsBlk V c t)) (k1_pay9 (wordsBlk V c t) (rowsBlk V c t) (tableBlk V c t)) acc)

theorem diffIn_blk (c : Dev nD) (t : Fin cfg1.N) (j : Fin 2048) (d : Fin 256) :
    diffIn (wordsBlk V c t) (rowsBlk V c t) (tableBlk V c t) j d = diff V c (rowOf t.val j) d := by
  unfold diffIn pickedIn diff picked
  rw [rowsBlk_apply, wordsBlk_apply]
  refine congrArg (_ - ·) (Finset.sum_congr rfl fun k _ => ?_)
  rw [tableBlk_apply]

/-- The weighted distance the body computes for sample `j` of tile `t` is that of the sample's row. -/
theorem dw_blk (c : Dev nD) (t : Fin cfg1.N) (j : Fin 2048) :
    k1_pay12 (F := Ideal) (k1_pay6 (wordsBlk V c t)) (k1_pay9 (wordsBlk V c t) (rowsBlk V c t) (tableBlk V c t)) (ix2 j (0 : Fin 1))
      = dist V c (rowOf t.val j) * cleanWeight (word V c (rowOf t.val j)) := by
  rw [pay12_apply, pay6_apply, wordsBlk_apply]
  unfold dist
  refine congrArg (fun z => Ideal.sqrt z * cleanWeight (word V c (rowOf t.val j))) (Finset.sum_congr rfl fun d _ => ?_)
  rw [pay9_apply, diffIn_blk]

/-- A tile's two updates add its contribution: the second update adds the weighted distance minus itself, which is
    zero because the weighted distance is a real number. -/
theorem stepFn_apply (c : Dev nD)
    (hfin : ∀ r : Fin 262144, ∃ x : ℝ, dist V c r * cleanWeight (word V c r) = (x : EReal))
    (t : Fin cfg1.N) (acc : Vec Ideal S1x1x1024 .f32) (k : Fin 1024) :
    stepFn V c t acc (ix3 (0 : Fin 1) (0 : Fin 1) k) = acc (ix3 (0 : Fin 1) (0 : Fin 1) k) + tileAdd V c t.val k := by
  unfold stepFn
  rw [pay14_apply, pay13_apply, add_assoc]
  refine congrArg (acc (ix3 (0 : Fin 1) (0 : Fin 1) k) + ·) ?_
  have h2 : ∑ j : Fin 2048,
      (k1_pay12 (F := Ideal) (k1_pay6 (wordsBlk V c t)) (k1_pay9 (wordsBlk V c t) (rowsBlk V c t) (tableBlk V c t)) (ix2 j (0 : Fin 1))
        - k1_pay12 (F := Ideal) (k1_pay6 (wordsBlk V c t)) (k1_pay9 (wordsBlk V c t) (rowsBlk V c t) (tableBlk V c t)) (ix2 j (0 : Fin 1)))
        * k1_pay8 (F := Ideal) (wordsBlk V c t) (ix2 j k) = 0 :=
    Finset.sum_eq_zero fun j _ => by
      rw [dw_blk]
      obtain ⟨x, hx⟩ := hfin (rowOf t.val j)
      rw [hx, ← EReal.coe_sub, sub_self, EReal.coe_zero, zero_mul]
  rw [h2, add_zero]
  unfold tileAdd
  refine Finset.sum_congr rfl fun j _ => ?_
  rw [dw_blk, pay8_apply, wordsBlk_apply]

theorem pay2_apply (k : Fin 1024) : k1_pay2 (F := Ideal) (ix3 (0 : Fin 1) (0 : Fin 1) k) = 0 := by
  unfold k1_pay2
  rw [shapeCast_ab_1ab_apply]
  exact Ideal.ofBits_zero_f32

/-- The block's entry at class `k` after tile `n`. -/
def blockAt (c : Dev nD) (n : Nat) (h : n < cfg1.N) (k : Fin 1024) : EReal :=
  (outsAt1 V c n h).1 (ix3 (0 : Fin 1) (0 : Fin 1) k)

/-- At a half's first tile the block is that tile's contribution. -/
theorem blockAt_reset (c : Dev nD)
    (hfin : ∀ r : Fin 262144, ∃ x : ℝ, dist V c r * cleanWeight (word V c r) = (x : EReal))
    (n : Nat) (h : n < cfg1.N) (h0 : n % 64 = 0) : blockAt V c n h = fun k => 0 + tileAdd V c n k := by
  funext k
  unfold blockAt
  rw [outsAt1_A V c ⟨n, h⟩ h0]
  dsimp only
  refine (congrFun (out3_A (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) ((hcond1_0 ⟨n, h⟩).mpr h0)
    (iblk1 V c 0 ⟨n, h⟩) (iblk1 V c 1 ⟨n, h⟩) (iblk1 V c 2 ⟨n, h⟩)) (ix3 (0 : Fin 1) (0 : Fin 1) k)).trans ?_
  refine (stepFn_apply V c hfin ⟨n, h⟩ (k1_pay2 (F := Ideal)) k).trans ?_
  rw [pay2_apply]

/-- At every other tile the block is what the tile before left plus the tile's contribution. -/
theorem blockAt_step (c : Dev nD)
    (hfin : ∀ r : Fin 262144, ∃ x : ℝ, dist V c r * cleanWeight (word V c r) = (x : EReal))
    (n : Nat) (h : n + 1 < cfg1.N) (hs : ¬(n + 1) % 64 = 0) :
    blockAt V c (n + 1) h = fun k => blockAt V c n (Nat.lt_of_succ_lt h) k + tileAdd V c (n + 1) k := by
  funext k
  unfold blockAt
  rw [outsAt1_B V c ⟨n + 1, h⟩ hs]
  dsimp only
  refine (congrFun (out3_B (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (fun hh => hs ((hcond1_0 ⟨n + 1, h⟩).mp hh))
    (iblk1 V c 0 ⟨n + 1, h⟩) (iblk1 V c 1 ⟨n + 1, h⟩) (iblk1 V c 2 ⟨n + 1, h⟩)
    (outsAt1 V c n (Nat.lt_of_succ_lt h)).1 (outsAt1 V c n (Nat.lt_of_succ_lt h)).2.1 (outsAt1 V c n (Nat.lt_of_succ_lt h)).2.2)
    (ix3 (0 : Fin 1) (0 : Fin 1) k)).trans ?_
  exact stepFn_apply V c hfin ⟨n + 1, h⟩ (outsAt1 V c n (Nat.lt_of_succ_lt h)).1 k

/-- At a half's last tile the block holds the sum of the half's 64 contributions. -/
theorem blockAt_flush (c : Dev nD)
    (hfin : ∀ r : Fin 262144, ∃ x : ℝ, dist V c r * cleanWeight (word V c r) = (x : EReal))
    (t : Fin cfg1.N) (ht : t.val % 64 = 63) (k : Fin 1024) :
    blockAt V c t.val t.isLt k = ∑ s : Fin 64, tileAdd V c (64 * (t.val / 64) + s.val) k := by
  have h' : 64 * (t.val / 64) + t.val % 64 < cfg1.N := by rw [Nat.div_add_mod]; exact t.isLt
  have e := Pipeline.eq_accAt_of_mod (blockAt V c) 64 (fun n _ k => 0 + tileAdd V c n k)
    (fun n _ acc k => acc k + tileAdd V c n k)
    (fun n h h0 => blockAt_reset V c hfin n h h0) (fun n h hs => blockAt_step V c hfin n h hs) (by decide) t.val t.isLt h'
  rw [e]
  have f := Pipeline.accAt_add_apply (fun n (_ : n < cfg1.N) k => 0 + tileAdd V c n k)
    (fun n _ acc k => acc k + tileAdd V c n k) (fun _ => (0 : EReal)) (fun n k => tileAdd V c n k) (64 * (t.val / 64)) 63
    (fun _ _ => rfl) (fun _ _ _ _ _ _ => rfl) (t.val % 64) (by omega) h' k
  rw [f, ht, zero_add, Finset.sum_range]

end Fold

section Final

/-! ### The array after the pass -/

/-- The whole array of per-class distance sums: half `i 0`, class `i 2`. -/
def total (c : Dev nD) : Vec Ideal S2x1x1024 .f32 :=
  fun i => ∑ s : Fin 64, tileAdd V c (64 * (i 0).val + s.val) ⟨(i 2).val, (i 2).isLt⟩

/-- A half's last tile writes back that half's block of the array of sums. -/
theorem flushed_eq (c : Dev nD)
    (hfin : ∀ r : Fin 262144, ∃ x : ℝ, dist V c r * cleanWeight (word V c r) = (x : EReal))
    (t : Fin cfg1.N) (hf : (cfg1.win 3).flush t = true) :
    (dat1 (F := Ideal) V c).flushed 3 t = ((cfg1.win 3).blk t).view.read (Elt Ideal) (total V c) := by
  have ht : t.val % 64 = 63 := (flush1_3 t).mp hf
  show (cfg1.win 3).cut (grid1.coords t) ((dat1 (F := Ideal) V c).after 3 t) = _
  rw [after1_3]
  funext y
  rw [View.read_apply]
  obtain ⟨y0, y1, y2, rfl⟩ : ∃ (y0 : Fin 1) (y1 : Fin 1) (y2 : Fin 1024), y = ix3 y0 y1 y2 := ⟨y 0, y 1, y 2, eq_ix3 y⟩
  obtain rfl : y0 = 0 := Subsingleton.elim _ _
  obtain rfl : y1 = 0 := Subsingleton.elim _ _
  show blockAt V c t.val t.isLt y2 = total V c (((cfg1.win 3).blk t).view.emb (ix3 (0 : Fin 1) (0 : Fin 1) y2))
  rw [blockAt_flush V c hfin t ht y2]
  have e0 : ((((cfg1.win 3).blk t).view.emb (ix3 (0 : Fin 1) (0 : Fin 1) y2)) 0).val = t.val / 64 := by
    show win1_3.index t 0 * 1 + 1 * 0 = t.val / 64
    rw [(idx_facts t).2.2.2.2.2.2.1]; omega
  have e2 : ((((cfg1.win 3).blk t).view.emb (ix3 (0 : Fin 1) (0 : Fin 1) y2)) 2).val = y2.val := by
    show win1_3.index t 2 * 1024 + 1 * y2.val = y2.val
    rw [(idx_facts t).2.2.2.2.2.2.2.2]; omega
  unfold total
  refine Finset.sum_congr rfl fun s _ => ?_
  rw [e0]
  exact congrArg (tileAdd V c (64 * (t.val / 64) + s.val)) (Fin.ext e2.symm)

end Final

end DistSum

open DistSum

/-- Half `q`'s block of per-class distance sums after the pass (the weighted distances real numbers). -/
theorem distsum_final (c : Dev nD)
    (hfin : ∀ r : Fin 262144, ∃ x : ℝ, dist V c r * cleanWeight (word V c r) = (x : EReal))
    (q : Fin 2) (k : Fin 1024) :
    ((dat1 (F := Ideal) V c).arrAt 3 cfg1.N : Vec Ideal S2x1x1024 .f32) (ix3 q (0 : Fin 1) k)
      = ∑ s : Fin 64, ∑ j : Fin 2048,
          (dist V c (rowAt q s j) * cleanWeight (word V c (rowAt q s j)))
            * hot (unpackTarget (word V c (rowAt q s j))) k.val := by
  have hN : cfg1.N = 128 := N_1
  have hq := q.isLt
  have hlt : 64 * q.val + 63 < cfg1.N := by rw [hN]; omega
  have hf : (cfg1.win 3).flush ⟨64 * q.val + 63, hlt⟩ = true := (flush1_3 _).mpr (by dsimp only; omega)
  have hdiv : (64 * q.val + 63) / 64 = q.val := by omega
  have hmem : ix3 q (0 : Fin 1) k ∈ ((cfg1.win 3).blk ⟨64 * q.val + 63, hlt⟩).view.set := by
    show ix3 q (0 : Fin 1) k ∈ ((View.whole main_v30_0).slice (win1_3.rect ⟨64 * q.val + 63, hlt⟩)).set
    rw [View.set_slice_whole, Rect.mem_set_unit]
    intro a
    have hk := k.isLt
    match a with
    | ⟨0, _⟩ =>
      show win1_3.index ⟨64 * q.val + 63, hlt⟩ 0 * 1 ≤ q.val ∧ q.val < win1_3.index ⟨64 * q.val + 63, hlt⟩ 0 * 1 + 1
      rw [(idx_facts ⟨64 * q.val + 63, hlt⟩).2.2.2.2.2.2.1]; dsimp only; omega
    | ⟨1, _⟩ =>
      show win1_3.index ⟨64 * q.val + 63, hlt⟩ 1 * 1 ≤ 0 ∧ 0 < win1_3.index ⟨64 * q.val + 63, hlt⟩ 1 * 1 + 1
      rw [(idx_facts ⟨64 * q.val + 63, hlt⟩).2.2.2.2.2.2.2.1]; omega
    | ⟨2, _⟩ =>
      show win1_3.index ⟨64 * q.val + 63, hlt⟩ 2 * 1024 ≤ k.val ∧ k.val < win1_3.index ⟨64 * q.val + 63, hlt⟩ 2 * 1024 + 1024
      rw [(idx_facts ⟨64 * q.val + 63, hlt⟩).2.2.2.2.2.2.2.2]; omega
  refine ((dat1 (F := Ideal) V c).arrAt_apply_of_mem 3 (total V c) (flushed_eq V c hfin) cfg1.N ⟨64 * q.val + 63, hlt⟩
    (ix3 q (0 : Fin 1) k) hlt hf hmem).trans ?_
  show ∑ s : Fin 64, tileAdd V c (64 * q.val + s.val) k = _
  refine Finset.sum_congr rfl fun s _ => ?_
  unfold tileAdd
  refine Finset.sum_congr rfl fun j _ => ?_
  have hr : rowOf (64 * q.val + s.val) j = rowAt q s j := Fin.ext (by
    have hs := s.isLt; have hj := j.isLt
    show (( 64 * q.val + s.val) * 2048 + j.val) % 262144 = (64 * q.val + s.val) * 2048 + j.val
    exact Nat.mod_eq_of_lt (by omega))
  rw [hr]

end Cert.KernelIdeal.Reduce

end
-- ==== Proof.KernelHost.lean ====
/-
  The host side of the idealized program, read through the fold of its stretches: the stages of the host computation as
  functions (each the program's own host operations, in order), what the first pass finds in its two input arrays and
  what the second pass finds in its three, each as those operations applied to the argument arrays and to the arrays
  the first pass leaves; and, for the stretches after the second pass, that a buffer a stretch does not write is carried
  across it.
-/
import proofs.«415260_j42322607735528_3_alg».proof.Proof.Gen.KernelIdeal.Frame
import Idealize.ShloMosaic.Lib.StableHlo.Run
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.HostRead

open Cert.KernelIdeal Cert.KernelIdeal.Gen

variable {F : FTy → Type} [FloatOps F]

/-! ## The stages, as functions (each the program's own operations, in order) -/

/-- The first pass's label column from the classes and the marks. -/
def labelsOf (T P : IVec S262144 32) : IVec S262144x1 32 :=
  shapeCast S262144x1
    (select (cmpi .eq P (broadcastInDim S262144 ![] bcast_S_S262144 (constantI S_ 32 0#32)))
      T
      (broadcastInDim S262144 ![] bcast_S_S262144 (id (constantI S_ 32 1000#32))))
    shapeCasts_S262144_S262144x1
/-- The second pass's packed column from the classes and the marks. -/
def packedOf (T P : IVec S262144 32) : IVec S262144x1 32 :=
  shapeCast S262144x1
    (addi (muli T (broadcastInDim S262144 ![] bcast_S_S262144 (constantI S_ 32 2#32))) P)
    shapeCasts_S262144_S262144x1
/-- The per-class sums from the first pass's two half blocks. -/
def sumsOf (a : FVec F S2x1024x256 .f32) : FVec F S1000x256 .f32 :=
  extractStridedSlice S1000x256 ![0, 0]
    (Host.reduceAdd a (constant (F := F) S_ .f32 0x00000000#32) reducesTo_S2x1024x256_S1024x256_d0 h_S_)
    slices_S1024x256_S1000x256_0_0
/-- The per-class counts from the first pass's two half blocks. -/
def countsOf (a : FVec F S2x1x1024 .f32) : FVec F S1000 .f32 :=
  extractStridedSlice S1000 ![0]
    (shapeCast S1024
      (Host.reduceAdd a (constant (F := F) S_ .f32 0x00000000#32) reducesTo_S2x1x1024_S1x1024_d0 h_S_)
      shapeCasts_S1x1024_S1024)
    slices_S1024_S1000_0
/-- The new centers from the sums, the counts and the old centers. -/
def centerNewOf (sums : FVec F S1000x256 .f32) (counts : FVec F S1000 .f32) (ctr : FVec F S1000x256 .f32) : FVec F S1000x256 .f32 :=
  select
    (broadcastInDim S1000x256 ![0, 1] bcast_S1000x1_S1000x256_0_1
      (broadcastInDim S1000x1 ![0] bcast_S1000_S1000x1_0
        (cmpf (F := F) .ogt counts (broadcastInDim S1000 ![] bcast_S_S1000 (constant (F := F) S_ .f32 0x00000000#32)))))
    (addf
      (mulf ctr (broadcastInDim S1000x256 ![] bcast_S_S1000x256 (constant (F := F) S_ .f32 0x3F7D70A4#32)))
      (mulf
        (Host.divf sums
          (broadcastInDim S1000x256 ![0, 1] bcast_S1000x1_S1000x256_0_1
            (broadcastInDim S1000x1 ![0] bcast_S1000_S1000x1_0
              (maximumf counts (broadcastInDim S1000 ![] bcast_S_S1000 (constant (F := F) S_ .f32 0x3F800000#32))))))
        (broadcastInDim S1000x256 ![] bcast_S_S1000x256 (constant (F := F) S_ .f32 0x3C23D70A#32))))
    ctr
/-- The padded table the second pass reads, from the new centers. -/
def tableOf (cn : FVec F S1000x256 .f32) : FVec F S1024x256 .bf16 :=
  truncf .bf16
    (pad S1024x256 ![0, 0] ![24, 0] ![0, 0] cn (sitofp (F := F) .f32 (constantI S_ 32 0#32))
      pads_S1000x256_S1024x256_0240_000 h_S_)
    bitsLt_bf16_f32
/-- The per-class distance sums from the second pass's two half blocks. -/
def distSumOf (a : FVec F S2x1x1024 .f32) : FVec F S1000 .f32 :=
  extractStridedSlice S1000 ![0]
    (shapeCast S1024
      (Host.reduceAdd a (constant (F := F) S_ .f32 0x00000000#32) reducesTo_S2x1x1024_S1x1024_d0 h_S_)
      shapeCasts_S1x1024_S1024)
    slices_S1024_S1000_0
/-- The total of a pair of half scalars. -/
def totalOf (a : FVec F S2x1x1 .f32) : FVec F S_ .f32 :=
  Host.reduceAdd a (constant (F := F) S_ .f32 0x00000000#32) reducesTo_S2x1x1_S_d0_1_2 h_S_
/-- The loss from the count of marked rows and the sum of their squared differences. -/
def lossOf (pcount lossnum : FVec F S_ .f32) : FVec F S_ .f32 :=
  select (cmpf (F := F) .ogt pcount (constant (F := F) S_ .f32 0x00000000#32))
    (Host.divf lossnum
      (maximumf (mulf pcount (constant (F := F) S_ .f32 0x43800000#32)) (constant (F := F) S_ .f32 0x3F800000#32)))
    (constant (F := F) S_ .f32 0x00000000#32)
/-- The new radii from the distance sums, the counts and the old radii. -/
def radiusNewOf (distsum counts radius : FVec F S1000 .f32) : FVec F S1000 .f32 :=
  select
    (cmpf (F := F) .ogt counts (broadcastInDim S1000 ![] bcast_S_S1000 (constant (F := F) S_ .f32 0x00000000#32)))
    (addf
      (mulf radius (broadcastInDim S1000 ![] bcast_S_S1000 (constant (F := F) S_ .f32 0x3F7D70A4#32)))
      (mulf
        (Host.divf distsum
          (maximumf counts (broadcastInDim S1000 ![] bcast_S_S1000 (constant (F := F) S_ .f32 0x3F800000#32))))
        (broadcastInDim S1000 ![] bcast_S_S1000 (constant (F := F) S_ .f32 0x3C23D70A#32))))
    radius

variable (m : (ℓ : Loc nD τ sig) → Buf (Elt F) ℓ) (ρ : Dev nD → PrngReg)

/-- The arrays the first pass leaves. -/
abbrev out0 (c : Dev nD) (w : Fin cfg0.W) := (dat0 (V3 m ρ) c).arrAt w cfg0.N
/-- The arrays the second pass leaves. -/
abbrev out1 (c : Dev nD) (w : Fin cfg1.W) := (dat1 (V9 m ρ) c).arrAt w cfg1.N

/-! ## How a stretch of host operations acts on one buffer

A stretch leaves a buffer none of its operations writes as it found it; at a buffer one of them writes it leaves that
operation's function of what its operands held before it, each operand read the same way in turn. -/

/-- Every operation of the stretch writes a buffer of the given list. -/
local macro "writes_within" ops:ident : tactic =>
  `(tactic| (simp only [$ops:ident, List.Forall, StableHlo.nullary_writes, StableHlo.unary_writes, StableHlo.binary_writes,
        StableHlo.ternary_writes, StableHlo.reshape_writes, Finset.singleton_subset_iff, List.mem_toFinset]
             repeat' apply And.intro
             all_goals exact List.mem_map_of_mem (by decide)))

/-- The buffers each stretch writes, in order. -/
abbrev wr0 : List (Ref sig .tc) := [main_c, main_v0, main_v1, main_c_0]
abbrev wr0_1 : List (Ref sig .tc) := [main_call0_v0, main_call0_v1, main_v2]
abbrev wr0_2 : List (Ref sig .tc) := [main_c_1, main_v3, main_v4, main_v5, main_v6]
abbrev wr1 : List (Ref sig .tc) :=
  [main_cst, main_v8, main_v9, main_cst_2, main_v10, main_v11, main_v12, main_cst_3, main_v13, main_v14, main_v15, main_v16,
   main_v17, main_cst_4, main_v18, main_v19, main_v20, main_cst_5, main_v21, main_v22, main_cst_6, main_v23, main_v24, main_v25]
abbrev wr1_1 : List (Ref sig .tc) := [main_call1_v0, main_v26]
abbrev wr1_2 : List (Ref sig .tc) := [main_c_7]
abbrev wr1_3 : List (Ref sig .tc) := [main_call2_v0, main_v27]
abbrev wr1_4 : List (Ref sig .tc) := [main_v28, main_v29]
abbrev wr2 : List (Ref sig .tc) :=
  [main_cst_8, main_v31, main_v32, main_v33, main_cst_9, main_v34, main_cst_10, main_v35, main_v36, main_cst_11, main_v37,
   main_v38, main_cst_12, main_v39, main_v40, main_v41]
abbrev wr2_1 : List (Ref sig .tc) := [main_v42]
abbrev wr2_2 : List (Ref sig .tc) :=
  [main_cst_13, main_v43, main_cst_14, main_v44, main_cst_15, main_v45, main_v46, main_cst_16]
abbrev wr2_3 : List (Ref sig .tc) := [main_v47]

theorem wr0_sub : (hostOps0 : List (HloOp τ sig (Elt F))).Forall fun op => op.writes ⊆ (wr0.map (Proc.devRef (τ := τ) .tc)).toFinset := by
  writes_within hostOps0
theorem wr0_1_sub : (hostOps0_1 : List (HloOp τ sig (Elt F))).Forall fun op => op.writes ⊆ (wr0_1.map (Proc.devRef (τ := τ) .tc)).toFinset := by
  writes_within hostOps0_1
theorem wr0_2_sub : (hostOps0_2 : List (HloOp τ sig (Elt F))).Forall fun op => op.writes ⊆ (wr0_2.map (Proc.devRef (τ := τ) .tc)).toFinset := by
  writes_within hostOps0_2
theorem wr1_sub : (hostOps1 : List (HloOp τ sig (Elt F))).Forall fun op => op.writes ⊆ (wr1.map (Proc.devRef (τ := τ) .tc)).toFinset := by
  writes_within hostOps1
theorem wr1_1_sub : (hostOps1_1 : List (HloOp τ sig (Elt F))).Forall fun op => op.writes ⊆ (wr1_1.map (Proc.devRef (τ := τ) .tc)).toFinset := by
  writes_within hostOps1_1
theorem wr1_2_sub : (hostOps1_2 : List (HloOp τ sig (Elt F))).Forall fun op => op.writes ⊆ (wr1_2.map (Proc.devRef (τ := τ) .tc)).toFinset := by
  writes_within hostOps1_2
theorem wr1_3_sub : (hostOps1_3 : List (HloOp τ sig (Elt F))).Forall fun op => op.writes ⊆ (wr1_3.map (Proc.devRef (τ := τ) .tc)).toFinset := by
  writes_within hostOps1_3
theorem wr1_4_sub : (hostOps1_4 : List (HloOp τ sig (Elt F))).Forall fun op => op.writes ⊆ (wr1_4.map (Proc.devRef (τ := τ) .tc)).toFinset := by
  writes_within hostOps1_4
theorem wr2_sub : (hostOps2 : List (HloOp τ sig (Elt F))).Forall fun op => op.writes ⊆ (wr2.map (Proc.devRef (τ := τ) .tc)).toFinset := by
  writes_within hostOps2
theorem wr2_1_sub : (hostOps2_1 : List (HloOp τ sig (Elt F))).Forall fun op => op.writes ⊆ (wr2_1.map (Proc.devRef (τ := τ) .tc)).toFinset := by
  writes_within hostOps2_1
theorem wr2_2_sub : (hostOps2_2 : List (HloOp τ sig (Elt F))).Forall fun op => op.writes ⊆ (wr2_2.map (Proc.devRef (τ := τ) .tc)).toFinset := by
  writes_within hostOps2_2
theorem wr2_3_sub : (hostOps2_3 : List (HloOp τ sig (Elt F))).Forall fun op => op.writes ⊆ (wr2_3.map (Proc.devRef (τ := τ) .tc)).toFinset := by
  writes_within hostOps2_3

/-! ### A buffer a stretch does not write holds what it held before the stretch -/

theorem W1_of (c : Dev nD) (r : Ref sig .tc) (h : r ∉ wr0) :
    W1 m ρ c (Proc.devRef .tc r) = m ((c : Thread nD τ).loc r) :=
  StableHlo.after_of_writes_sub hostOps0 _ wr0_sub h
theorem W2_of (c : Dev nD) (r : Ref sig .tc) (h : r ∉ wr0_1) :
    W2 m ρ c (Proc.devRef .tc r) = W1 m ρ c (Proc.devRef .tc r) :=
  StableHlo.after_of_writes_sub hostOps0_1 _ wr0_1_sub h
theorem W3_of (c : Dev nD) (r : Ref sig .tc) (h : r ∉ wr0_2) :
    W3 m ρ c (Proc.devRef .tc r) = W2 m ρ c (Proc.devRef .tc r) :=
  StableHlo.after_of_writes_sub hostOps0_2 _ wr0_2_sub h
theorem W5_of (c : Dev nD) (r : Ref sig .tc) (h : r ∉ wr1) :
    W5 m ρ c (Proc.devRef .tc r) = W4 m ρ c (Proc.devRef .tc r) :=
  StableHlo.after_of_writes_sub hostOps1 _ wr1_sub h
theorem W6_of (c : Dev nD) (r : Ref sig .tc) (h : r ∉ wr1_1) :
    W6 m ρ c (Proc.devRef .tc r) = W5 m ρ c (Proc.devRef .tc r) :=
  StableHlo.after_of_writes_sub hostOps1_1 _ wr1_1_sub h
theorem W7_of (c : Dev nD) (r : Ref sig .tc) (h : r ∉ wr1_2) :
    W7 m ρ c (Proc.devRef .tc r) = W6 m ρ c (Proc.devRef .tc r) :=
  StableHlo.after_of_writes_sub hostOps1_2 _ wr1_2_sub h
theorem W8_of (c : Dev nD) (r : Ref sig .tc) (h : r ∉ wr1_3) :
    W8 m ρ c (Proc.devRef .tc r) = W7 m ρ c (Proc.devRef .tc r) :=
  StableHlo.after_of_writes_sub hostOps1_3 _ wr1_3_sub h
theorem W9_of (c : Dev nD) (r : Ref sig .tc) (h : r ∉ wr1_4) :
    W9 m ρ c (Proc.devRef .tc r) = W8 m ρ c (Proc.devRef .tc r) :=
  StableHlo.after_of_writes_sub hostOps1_4 _ wr1_4_sub h
theorem W11_of (c : Dev nD) (r : Ref sig .tc) (h : r ∉ wr2) :
    W11 m ρ c (Proc.devRef .tc r) = W10 m ρ c (Proc.devRef .tc r) :=
  StableHlo.after_of_writes_sub hostOps2 _ wr2_sub h
theorem W12_of (c : Dev nD) (r : Ref sig .tc) (h : r ∉ wr2_1) :
    W12 m ρ c (Proc.devRef .tc r) = W11 m ρ c (Proc.devRef .tc r) :=
  StableHlo.after_of_writes_sub hostOps2_1 _ wr2_1_sub h
theorem W13_of (c : Dev nD) (r : Ref sig .tc) (h : r ∉ wr2_2) :
    W13 m ρ c (Proc.devRef .tc r) = W12 m ρ c (Proc.devRef .tc r) :=
  StableHlo.after_of_writes_sub hostOps2_2 _ wr2_2_sub h
theorem W14_of (c : Dev nD) (r : Ref sig .tc) (h : r ∉ wr2_3) :
    W14 m ρ c (Proc.devRef .tc r) = W13 m ρ c (Proc.devRef .tc r) :=
  StableHlo.after_of_writes_sub hostOps2_3 _ wr2_3_sub h

/-- Up to the first pass: a buffer none of the three stretches writes holds what it held at launch. -/
theorem W3_launch (c : Dev nD) (r : Ref sig .tc) (h0 : r ∉ wr0) (h1 : r ∉ wr0_1) (h2 : r ∉ wr0_2) :
    W3 m ρ c (Proc.devRef .tc r) = m ((c : Thread nD τ).loc r) := by
  rw [W3_of m ρ c r h2, W2_of m ρ c r h1, W1_of m ρ c r h0]
/-- Between the passes: a buffer none of the five stretches writes holds what the first pass left. -/
theorem W9_mid (c : Dev nD) (r : Ref sig .tc) (h0 : r ∉ wr1) (h1 : r ∉ wr1_1) (h2 : r ∉ wr1_2) (h3 : r ∉ wr1_3)
    (h4 : r ∉ wr1_4) : W9 m ρ c (Proc.devRef .tc r) = W4 m ρ c (Proc.devRef .tc r) := by
  rw [W9_of m ρ c r h4, W8_of m ρ c r h3, W7_of m ρ c r h2, W6_of m ρ c r h1, W5_of m ρ c r h0]
/-- After the second pass: a buffer none of the four stretches writes holds what the second pass left. -/
theorem W14_tail (c : Dev nD) (r : Ref sig .tc) (h0 : r ∉ wr2) (h1 : r ∉ wr2_1) (h2 : r ∉ wr2_2) (h3 : r ∉ wr2_3) :
    W14 m ρ c (Proc.devRef .tc r) = W10 m ρ c (Proc.devRef .tc r) := by
  rw [W14_of m ρ c r h3, W13_of m ρ c r h2, W12_of m ρ c r h1, W11_of m ρ c r h0]

/-! ## Each stretch at the buffers that matter, over any contents `V` before it -/

section Stretches

variable (V : Valuation τ sig (Elt F))

/-- The marks compared with zero. -/
theorem st0_v1 :
    (StableHlo.after hostOps0 V (Proc.devRef .tc main_v1) : IVec S262144 1)
      = cmpi .eq (V (Proc.devRef .tc main_arg4) : IVec S262144 32)
          (broadcastInDim S262144 ![] bcast_S_S262144 (constantI S_ 32 0#32)) := by
  after_results <;> rfl
/-- The class count. -/
theorem st0_c_0 : (StableHlo.after hostOps0 V (Proc.devRef .tc main_c_0) : IVec S_ 32) = constantI S_ 32 1000#32 := by
  after_results <;> rfl
/-- The classes, with the class count where the mark is zero. -/
theorem st0_1_v2 :
    (StableHlo.after hostOps0_1 V (Proc.devRef .tc main_v2) : IVec S262144 32)
      = select (V (Proc.devRef .tc main_v1) : IVec S262144 1) (V (Proc.devRef .tc main_arg3) : IVec S262144 32)
          (broadcastInDim S262144 ![] bcast_S_S262144 (id (V (Proc.devRef .tc main_c_0) : IVec S_ 32))) := by
  after_results <;> rfl
/-- The label column is the selected classes as a column. -/
theorem st0_2_v6 :
    (StableHlo.after hostOps0_2 V (Proc.devRef .tc main_v6) : IVec S262144x1 32)
      = shapeCast S262144x1 (V (Proc.devRef .tc main_v2) : IVec S262144 32) shapeCasts_S262144_S262144x1 := by
  after_results <;> rfl
/-- The packed classes and marks: twice the class plus the mark. -/
theorem st0_2_v5 :
    (StableHlo.after hostOps0_2 V (Proc.devRef .tc main_v5) : IVec S262144 32)
      = addi (muli (V (Proc.devRef .tc main_arg3) : IVec S262144 32)
            (broadcastInDim S262144 ![] bcast_S_S262144 (constantI S_ 32 2#32)))
          (V (Proc.devRef .tc main_arg4) : IVec S262144 32) := by
  after_results <;> rfl

/-- The per-class sums. -/
theorem st1_v9 :
    (StableHlo.after hostOps1 V (Proc.devRef .tc main_v9) : FVec F S1000x256 .f32)
      = sumsOf (V (Proc.devRef .tc main_v7_0) : FVec F S2x1024x256 .f32) := by
  after_results <;> rfl
/-- The per-class counts. -/
theorem st1_v12 :
    (StableHlo.after hostOps1 V (Proc.devRef .tc main_v12) : FVec F S1000 .f32)
      = countsOf (V (Proc.devRef .tc main_v7_1) : FVec F S2x1x1024 .f32) := by
  after_results <;> rfl
/-- The counts, at least one. -/
theorem st1_v14 :
    (StableHlo.after hostOps1 V (Proc.devRef .tc main_v14) : FVec F S1000 .f32)
      = maximumf (countsOf (V (Proc.devRef .tc main_v7_1) : FVec F S2x1x1024 .f32))
          (broadcastInDim S1000 ![] bcast_S_S1000 (constant (F := F) S_ .f32 0x3F800000#32)) := by
  after_results <;> rfl
/-- Which classes have a row. -/
theorem st1_v19 :
    (StableHlo.after hostOps1 V (Proc.devRef .tc main_v19) : IVec S1000 1)
      = cmpf (F := F) .ogt (countsOf (V (Proc.devRef .tc main_v7_1) : FVec F S2x1x1024 .f32))
          (broadcastInDim S1000 ![] bcast_S_S1000 (constant (F := F) S_ .f32 0x00000000#32)) := by
  after_results <;> rfl
/-- The same as a column. -/
theorem st1_v20 :
    (StableHlo.after hostOps1 V (Proc.devRef .tc main_v20) : IVec S1000x1 1)
      = broadcastInDim S1000x1 ![0] bcast_S1000_S1000x1_0
          (cmpf (F := F) .ogt (countsOf (V (Proc.devRef .tc main_v7_1) : FVec F S2x1x1024 .f32))
            (broadcastInDim S1000 ![] bcast_S_S1000 (constant (F := F) S_ .f32 0x00000000#32))) := by
  after_results <;> rfl
/-- The blend of the old centers with the class means. -/
theorem st1_v25 :
    (StableHlo.after hostOps1 V (Proc.devRef .tc main_v25) : FVec F S1000x256 .f32)
      = addf
          (mulf (V (Proc.devRef .tc main_arg1) : FVec F S1000x256 .f32)
            (broadcastInDim S1000x256 ![] bcast_S_S1000x256 (constant (F := F) S_ .f32 0x3F7D70A4#32)))
          (mulf
            (Host.divf (sumsOf (V (Proc.devRef .tc main_v7_0) : FVec F S2x1024x256 .f32))
              (broadcastInDim S1000x256 ![0, 1] bcast_S1000x1_S1000x256_0_1
                (broadcastInDim S1000x1 ![0] bcast_S1000_S1000x1_0
                  (maximumf (countsOf (V (Proc.devRef .tc main_v7_1) : FVec F S2x1x1024 .f32))
                    (broadcastInDim S1000 ![] bcast_S_S1000 (constant (F := F) S_ .f32 0x3F800000#32))))))
            (broadcastInDim S1000x256 ![] bcast_S_S1000x256 (constant (F := F) S_ .f32 0x3C23D70A#32))) := by
  after_results_simp <;> rfl
/-- The new centers: the blend where the class has a row, the old center elsewhere. -/
theorem st1_1_v26 :
    (StableHlo.after hostOps1_1 V (Proc.devRef .tc main_v26) : FVec F S1000x256 .f32)
      = select
          (broadcastInDim S1000x256 ![0, 1] bcast_S1000x1_S1000x256_0_1 (V (Proc.devRef .tc main_v20) : IVec S1000x1 1))
          (V (Proc.devRef .tc main_v25) : FVec F S1000x256 .f32)
          (V (Proc.devRef .tc main_arg1) : FVec F S1000x256 .f32) := by
  after_results <;> rfl
/-- The padding value's integer. -/
theorem st1_2_c_7 : (StableHlo.after hostOps1_2 V (Proc.devRef .tc main_c_7) : IVec S_ 32) = constantI S_ 32 0#32 := by
  after_results <;> rfl
/-- The new centers padded with zero rows to the table's height. -/
theorem st1_3_v27 :
    (StableHlo.after hostOps1_3 V (Proc.devRef .tc main_v27) : FVec F S1024x256 .f32)
      = pad S1024x256 ![0, 0] ![24, 0] ![0, 0] (V (Proc.devRef .tc main_v26) : FVec F S1000x256 .f32)
          (sitofp (F := F) .f32 (V (Proc.devRef .tc main_c_7) : IVec S_ 32))
          pads_S1000x256_S1024x256_0240_000 h_S_ := by
  after_results <;> rfl
/-- The table: the padded centers rounded to the narrow format. -/
theorem st1_4_v29 :
    (StableHlo.after hostOps1_4 V (Proc.devRef .tc main_v29) : FVec F S1024x256 .bf16)
      = truncf .bf16 (V (Proc.devRef .tc main_v27) : FVec F S1024x256 .f32) bitsLt_bf16_f32 := by
  after_results <;> rfl
/-- The packed column. -/
theorem st1_4_v28 :
    (StableHlo.after hostOps1_4 V (Proc.devRef .tc main_v28) : IVec S262144x1 32)
      = shapeCast S262144x1 (V (Proc.devRef .tc main_v5) : IVec S262144 32) shapeCasts_S262144_S262144x1 := by
  after_results <;> rfl

end Stretches

/-! ## Before the first pass -/

/-- The label column from the launch contents. -/
theorem W3_labels (c : Dev nD) :
    W3 m ρ c (Proc.devRef .tc main_v6)
      = labelsOf (m ((c : Thread nD τ).loc main_arg3)) (m ((c : Thread nD τ).loc main_arg4)) := by
  refine (st0_2_v6 (W2 m ρ c)).trans ?_
  rw [show W2 m ρ c (Proc.devRef .tc main_v2) = _ from st0_1_v2 (W1 m ρ c),
    show W1 m ρ c (Proc.devRef .tc main_v1) = _ from st0_v1 (W0 m ρ c),
    show W1 m ρ c (Proc.devRef .tc main_c_0) = _ from st0_c_0 (W0 m ρ c),
    W1_of m ρ c main_arg3 (by decide)]
  rfl
/-- The packed classes and marks from the launch contents. -/
theorem W3_v5 (c : Dev nD) :
    (W3 m ρ c (Proc.devRef .tc main_v5) : IVec S262144 32)
      = addi (muli (m ((c : Thread nD τ).loc main_arg3))
            (broadcastInDim S262144 ![] bcast_S_S262144 (constantI S_ 32 2#32)))
          (m ((c : Thread nD τ).loc main_arg4)) := by
  refine (st0_2_v5 (W2 m ρ c)).trans ?_
  rw [W2_of m ρ c main_arg3 (by decide), W2_of m ρ c main_arg4 (by decide),
    W1_of m ρ c main_arg3 (by decide), W1_of m ρ c main_arg4 (by decide)]

/-! ## What the first pass finds -/

theorem V3_feats (c : Dev nD) : V3 m ρ c main_arg0 = m ((c : Thread nD τ).loc main_arg0) := by
  show W3 m ρ c (Proc.devRef .tc main_arg0) = _
  exact W3_launch m ρ c main_arg0 (by decide) (by decide) (by decide)
theorem V3_labels (c : Dev nD) :
    V3 m ρ c main_v6 = labelsOf (m ((c : Thread nD τ).loc main_arg3)) (m ((c : Thread nD τ).loc main_arg4)) := by
  exact W3_labels m ρ c

/-! ## Between the passes -/

/-- The first pass reads the features through an input window, so their buffer is as it was entered. -/
theorem W4_arg0 (c : Dev nD) : W4 m ρ c (Proc.devRef .tc main_arg0) = W3 m ρ c (Proc.devRef .tc main_arg0) :=
  (W4_arr m ρ c 0).trans (((dat0 (V3 m ρ) c).arrAt_in 0 rfl _).trans (A_eq0 (V3 m ρ) c 0))
/-- The two arrays the first pass writes hold what it leaves. -/
theorem W4_v7_0 (c : Dev nD) : W4 m ρ c (Proc.devRef .tc main_v7_0) = out0 m ρ c 2 := W4_arr m ρ c 2
theorem W4_v7_1 (c : Dev nD) : W4 m ρ c (Proc.devRef .tc main_v7_1) = out0 m ρ c 3 := W4_arr m ρ c 3
/-- A buffer no stretch before the first pass writes, and that is no array of the pass, holds at its exit what it held at
    launch. -/
theorem W4_launch (c : Dev nD) (r : Ref sig .tc) (hr : ∀ w, Pipeline.arrRef spec0 w ≠ r) (h0 : r ∉ wr0) (h1 : r ∉ wr0_1)
    (h2 : r ∉ wr0_2) : W4 m ρ c (Proc.devRef .tc r) = m ((c : Thread nD τ).loc r) := by
  rw [W4_of_ne m ρ c r hr, W3_launch m ρ c r h0 h1 h2]

/-- The counts, at least one, from what the first pass leaves. -/
theorem W5_v14 (c : Dev nD) :
    (W5 m ρ c (Proc.devRef .tc main_v14) : FVec F S1000 .f32)
      = maximumf (countsOf (out0 m ρ c 3))
          (broadcastInDim S1000 ![] bcast_S_S1000 (constant (F := F) S_ .f32 0x3F800000#32)) := by
  refine (st1_v14 (W4 m ρ c)).trans ?_
  rw [W4_v7_1]
/-- Which classes have a row, from what the first pass leaves. -/
theorem W5_v19 (c : Dev nD) :
    (W5 m ρ c (Proc.devRef .tc main_v19) : IVec S1000 1)
      = cmpf (F := F) .ogt (countsOf (out0 m ρ c 3))
          (broadcastInDim S1000 ![] bcast_S_S1000 (constant (F := F) S_ .f32 0x00000000#32)) := by
  refine (st1_v19 (W4 m ρ c)).trans ?_
  rw [W4_v7_1]
/-- The new centers from what the first pass leaves and the old centers. -/
theorem W6_centers (c : Dev nD) :
    W6 m ρ c (Proc.devRef .tc main_v26)
      = centerNewOf (sumsOf (out0 m ρ c 2)) (countsOf (out0 m ρ c 3)) (m ((c : Thread nD τ).loc main_arg1)) := by
  refine (st1_1_v26 (W5 m ρ c)).trans ?_
  rw [show W5 m ρ c (Proc.devRef .tc main_v20) = _ from st1_v20 (W4 m ρ c),
    show W5 m ρ c (Proc.devRef .tc main_v25) = _ from st1_v25 (W4 m ρ c),
    W5_of m ρ c main_arg1 (by decide),
    W4_launch m ρ c main_arg1 (by decide) (by decide) (by decide) (by decide), W4_v7_0, W4_v7_1]
  rfl
/-- The table from what the first pass leaves and the old centers. -/
theorem W9_table (c : Dev nD) :
    W9 m ρ c (Proc.devRef .tc main_v29)
      = tableOf (centerNewOf (sumsOf (out0 m ρ c 2)) (countsOf (out0 m ρ c 3)) (m ((c : Thread nD τ).loc main_arg1))) := by
  refine (st1_4_v29 (W8 m ρ c)).trans ?_
  rw [show W8 m ρ c (Proc.devRef .tc main_v27) = _ from st1_3_v27 (W7 m ρ c),
    show W7 m ρ c (Proc.devRef .tc main_c_7) = _ from st1_2_c_7 (W6 m ρ c),
    W7_of m ρ c main_v26 (by decide), W6_centers]
  rfl
/-- The packed column from the launch contents. -/
theorem W9_packed (c : Dev nD) :
    W9 m ρ c (Proc.devRef .tc main_v28)
      = packedOf (m ((c : Thread nD τ).loc main_arg3)) (m ((c : Thread nD τ).loc main_arg4)) := by
  refine (st1_4_v28 (W8 m ρ c)).trans ?_
  rw [W8_of m ρ c main_v5 (by decide), W7_of m ρ c main_v5 (by decide), W6_of m ρ c main_v5 (by decide),
    W5_of m ρ c main_v5 (by decide), W4_of_ne m ρ c main_v5 (by decide), W3_v5]
  rfl

/-! ## What the second pass finds -/

theorem V9_feats (c : Dev nD) : V9 m ρ c main_arg0 = m ((c : Thread nD τ).loc main_arg0) := by
  show W9 m ρ c (Proc.devRef .tc main_arg0) = _
  rw [W9_mid m ρ c main_arg0 (by decide) (by decide) (by decide) (by decide) (by decide), W4_arg0]
  exact W3_launch m ρ c main_arg0 (by decide) (by decide) (by decide)
theorem V9_packed (c : Dev nD) :
    V9 m ρ c main_v28 = packedOf (m ((c : Thread nD τ).loc main_arg3)) (m ((c : Thread nD τ).loc main_arg4)) := by
  exact W9_packed m ρ c
theorem V9_table (c : Dev nD) :
    V9 m ρ c main_v29
      = tableOf (centerNewOf (sumsOf (out0 m ρ c 2)) (countsOf (out0 m ρ c 3)) (m ((c : Thread nD τ).loc main_arg1))) := by
  exact W9_table m ρ c

end Cert.KernelIdeal.HostRead

end
-- ==== Proof.KernelHostResults.lean ====
/-
  What the three results hold at the end of the idealized program's run, read back through the last four host stretches
  to the arrays the second pass leaves, and, for what is computed before that pass and read again after it (the clipped
  counts, the test "the class has a clean row", the new centers), through the pass itself, which does not write them.
-/
import proofs.«415260_j42322607735528_3_alg».proof.Proof.KernelHost

set_option maxRecDepth 16384

noncomputable section

open Idealize.ShloMosaic Idealize.ShloMosaic.TcCoe Idealize.SL.Sem
open Idealize.ShloMosaic.Pipeline (Dat)

namespace Cert.KernelIdeal.HostRead

open Cert.KernelIdeal Cert.KernelIdeal.Gen

variable {F : FTy → Type} [FloatOps F]
variable (m : (ℓ : Loc nD τ sig) → Buf (Elt F) ℓ) (ρ : Dev nD → PrngReg)

/-! ## Each of the last four stretches at the buffers the results depend on, over any contents `V` before it

A stretch leaves at a buffer one of its operations writes that operation's function of what its operands held, each
operand read the same way in turn down to buffers the stretch does not write, which hold what `V` has there. -/

section Stretches

variable (V : Valuation τ sig (Elt F))

/-- The per-class distance sums. -/
theorem aft2_v33 :
    (StableHlo.after hostOps2 V (Proc.devRef .tc main_v33) : FVec F S1000 .f32)
      = distSumOf (V (Proc.devRef .tc main_v30_0) : FVec F S2x1x1024 .f32) := by
  after_results <;> rfl
/-- The number of marked rows. -/
theorem aft2_v34 :
    (StableHlo.after hostOps2 V (Proc.devRef .tc main_v34) : FVec F S_ .f32)
      = totalOf (V (Proc.devRef .tc main_v30_1) : FVec F S2x1x1 .f32) := by
  after_results <;> rfl
/-- The sum of the marked rows' squared differences. -/
theorem aft2_v35 :
    (StableHlo.after hostOps2 V (Proc.devRef .tc main_v35) : FVec F S_ .f32)
      = totalOf (V (Proc.devRef .tc main_v30_2) : FVec F S2x1x1 .f32) := by
  after_results <;> rfl
/-- The blend of the old radii with the class mean distances. -/
theorem aft2_v41 :
    (StableHlo.after hostOps2 V (Proc.devRef .tc main_v41) : FVec F S1000 .f32)
      = addf
          (mulf (V (Proc.devRef .tc main_arg2) : FVec F S1000 .f32)
            (broadcastInDim S1000 ![] bcast_S_S1000 (constant (F := F) S_ .f32 0x3F7D70A4#32)))
          (mulf
            (Host.divf (distSumOf (V (Proc.devRef .tc main_v30_0) : FVec F S2x1x1024 .f32))
              (V (Proc.devRef .tc main_v14) : FVec F S1000 .f32))
            (broadcastInDim S1000 ![] bcast_S_S1000 (constant (F := F) S_ .f32 0x3C23D70A#32))) := by
  after_results <;> rfl
/-- The new radii: the blend where the class has a row, the old radius elsewhere. -/
theorem aft2_1_v42 :
    (StableHlo.after hostOps2_1 V (Proc.devRef .tc main_v42) : FVec F S1000 .f32)
      = select (V (Proc.devRef .tc main_v19) : IVec S1000 1)
          (V (Proc.devRef .tc main_v41) : FVec F S1000 .f32)
          (V (Proc.devRef .tc main_arg2) : FVec F S1000 .f32) := by
  after_results <;> (try simp only [StableHlo.TRef.ofBuf, StableHlo.TRef.toBuf, cast_eq]) <;> rfl
/-- "Some row is marked". -/
theorem aft2_2_v43 :
    (StableHlo.after hostOps2_2 V (Proc.devRef .tc main_v43) : IVec S_ 1)
      = cmpf (F := F) .ogt (V (Proc.devRef .tc main_v34) : FVec F S_ .f32) (constant (F := F) S_ .f32 0x00000000#32) := by
  after_results <;> rfl
/-- The sum of squared differences over the number of entries of the marked rows, that number at least one. -/
theorem aft2_2_v46 :
    (StableHlo.after hostOps2_2 V (Proc.devRef .tc main_v46) : FVec F S_ .f32)
      = Host.divf (V (Proc.devRef .tc main_v35) : FVec F S_ .f32)
          (maximumf
            (mulf (V (Proc.devRef .tc main_v34) : FVec F S_ .f32) (constant (F := F) S_ .f32 0x43800000#32))
            (constant (F := F) S_ .f32 0x3F800000#32)) := by
  after_results <;> rfl
/-- The loss of a batch with no marked row. -/
theorem aft2_2_cst_16 :
    (StableHlo.after hostOps2_2 V (Proc.devRef .tc main_cst_16) : FVec F S_ .f32) = constant (F := F) S_ .f32 0x00000000#32 := by
  after_results <;> rfl
/-- The loss: the quotient if some row is marked, else zero. -/
theorem aft2_3_v47 :
    (StableHlo.after hostOps2_3 V (Proc.devRef .tc main_v47) : FVec F S_ .f32)
      = select (V (Proc.devRef .tc main_v43) : IVec S_ 1)
          (V (Proc.devRef .tc main_v46) : FVec F S_ .f32)
          (V (Proc.devRef .tc main_cst_16) : FVec F S_ .f32) := by
  after_results <;> (try simp only [StableHlo.TRef.ofBuf, StableHlo.TRef.toBuf, cast_eq]) <;> rfl

end Stretches

/-! ## The second pass's exit

The three arrays the second pass writes hold what it leaves; a buffer that is none of its six arrays holds what it held
at the pass's entry. -/

theorem exit1_v30_0 (c : Dev nD) : W10 m ρ c (Proc.devRef .tc main_v30_0) = out1 m ρ c 3 := W10_arr m ρ c 3
theorem exit1_v30_1 (c : Dev nD) : W10 m ρ c (Proc.devRef .tc main_v30_1) = out1 m ρ c 4 := W10_arr m ρ c 4
theorem exit1_v30_2 (c : Dev nD) : W10 m ρ c (Proc.devRef .tc main_v30_2) = out1 m ρ c 5 := W10_arr m ρ c 5

/-- The clipped counts, computed before the second pass, are still there after it: the four stretches between do not
    write them, nor does the pass. -/
theorem exit1_v14 (c : Dev nD) :
    (W10 m ρ c (Proc.devRef .tc main_v14) : FVec F S1000 .f32)
      = maximumf (countsOf (out0 m ρ c 3)) (broadcastInDim S1000 ![] bcast_S_S1000 (constant (F := F) S_ .f32 0x3F800000#32)) := by
  rw [W10_of_ne m ρ c main_v14 (by decide), W9_of m ρ c main_v14 (by decide), W8_of m ρ c main_v14 (by decide),
    W7_of m ρ c main_v14 (by decide), W6_of m ρ c main_v14 (by decide), W5_v14]
/-- Likewise the test "the class has a row". -/
theorem exit1_v19 (c : Dev nD) :
    (W10 m ρ c (Proc.devRef .tc main_v19) : IVec S1000 1)
      = cmpf (F := F) .ogt (countsOf (out0 m ρ c 3)) (broadcastInDim S1000 ![] bcast_S_S1000 (constant (F := F) S_ .f32 0x00000000#32)) := by
  rw [W10_of_ne m ρ c main_v19 (by decide), W9_of m ρ c main_v19 (by decide), W8_of m ρ c main_v19 (by decide),
    W7_of m ρ c main_v19 (by decide), W6_of m ρ c main_v19 (by decide), W5_v19]
/-- The old radii are an argument no stretch and neither pass writes. -/
theorem exit1_arg2 (c : Dev nD) : W10 m ρ c (Proc.devRef .tc main_arg2) = m ((c : Thread nD τ).loc main_arg2) := by
  rw [W10_of_ne m ρ c main_arg2 (by decide),
    W9_mid m ρ c main_arg2 (by decide) (by decide) (by decide) (by decide) (by decide),
    W4_launch m ρ c main_arg2 (by decide) (by decide) (by decide) (by decide)]
/-- The new centers, computed before the second pass, are still there after it. -/
theorem exit1_v26 (c : Dev nD) :
    W10 m ρ c (Proc.devRef .tc main_v26)
      = centerNewOf (sumsOf (out0 m ρ c 2)) (countsOf (out0 m ρ c 3)) (m ((c : Thread nD τ).loc main_arg1)) := by
  rw [W10_of_ne m ρ c main_v26 (by decide), W9_of m ρ c main_v26 (by decide), W8_of m ρ c main_v26 (by decide),
    W7_of m ρ c main_v26 (by decide), W6_centers]

/-! ## After the second pass -/

/-- The number of marked rows and the sum of their squared differences, from the two pairs of half scalars. -/
theorem tail_v34 (c : Dev nD) : (W11 m ρ c (Proc.devRef .tc main_v34) : FVec F S_ .f32) = totalOf (out1 m ρ c 4) :=
  (aft2_v34 (W10 m ρ c)).trans (by rw [exit1_v30_1])
theorem tail_v35 (c : Dev nD) : (W11 m ρ c (Proc.devRef .tc main_v35) : FVec F S_ .f32) = totalOf (out1 m ρ c 5) :=
  (aft2_v35 (W10 m ρ c)).trans (by rw [exit1_v30_2])
/-- The blended radii, from the second pass's distance sums, the first pass's counts and the old radii. -/
theorem tail_v41 (c : Dev nD) :
    (W11 m ρ c (Proc.devRef .tc main_v41) : FVec F S1000 .f32)
      = addf
          (mulf (m ((c : Thread nD τ).loc main_arg2) : FVec F S1000 .f32)
            (broadcastInDim S1000 ![] bcast_S_S1000 (constant (F := F) S_ .f32 0x3F7D70A4#32)))
          (mulf
            (Host.divf (distSumOf (out1 m ρ c 3))
              (maximumf (countsOf (out0 m ρ c 3))
                (broadcastInDim S1000 ![] bcast_S_S1000 (constant (F := F) S_ .f32 0x3F800000#32))))
            (broadcastInDim S1000 ![] bcast_S_S1000 (constant (F := F) S_ .f32 0x3C23D70A#32))) :=
  (aft2_v41 (W10 m ρ c)).trans (by rw [exit1_arg2, exit1_v30_0, exit1_v14])

/-! ## The three results -/

theorem loss_read (c : Dev nD) :
    W14 m ρ c (Proc.devRef .tc main_v47) = lossOf (totalOf (out1 m ρ c 4)) (totalOf (out1 m ρ c 5)) := by
  refine (aft2_3_v47 (W13 m ρ c)).trans ?_
  rw [show W13 m ρ c (Proc.devRef .tc main_v43) = _ from aft2_2_v43 (W12 m ρ c),
    show W13 m ρ c (Proc.devRef .tc main_v46) = _ from aft2_2_v46 (W12 m ρ c),
    show W13 m ρ c (Proc.devRef .tc main_cst_16) = _ from aft2_2_cst_16 (W12 m ρ c),
    W12_of m ρ c main_v34 (by decide), W12_of m ρ c main_v35 (by decide), tail_v34, tail_v35]
  rfl
theorem centers_read (c : Dev nD) :
    W14 m ρ c (Proc.devRef .tc main_v26)
      = centerNewOf (sumsOf (out0 m ρ c 2)) (countsOf (out0 m ρ c 3)) (m ((c : Thread nD τ).loc main_arg1)) := by
  rw [W14_tail m ρ c main_v26 (by decide) (by decide) (by decide) (by decide), exit1_v26]
theorem radii_read (c : Dev nD) :
    W14 m ρ c (Proc.devRef .tc main_v42)
      = radiusNewOf (distSumOf (out1 m ρ c 3)) (countsOf (out0 m ρ c 3)) (m ((c : Thread nD τ).loc main_arg2)) := by
  rw [W14_of m ρ c main_v42 (by decide), W13_of m ρ c main_v42 (by decide)]
  refine (aft2_1_v42 (W11 m ρ c)).trans ?_
  rw [W11_of m ρ c main_v19 (by decide), W11_of m ρ c main_arg2 (by decide), tail_v41, exit1_v19, exit1_arg2]
  rfl

end Cert.KernelIdeal.HostRead

end
-- ==== Proof.ReduceTotals.lean ====
/-
  The second pass's count output, read as a value: per half, the number of rows that are not clean.

  The count block has one entry. A half's first tile clears it and adds its own count, the sum over its 2048 samples
  of one minus the sample's clean weight; every later tile adds its own count to what the block holds; the half's last
  tile writes the block back as the half's entry of the result. So the entry is the sum over the half's 64 tiles of
  the tiles' counts, and sample j of tile 64 q + s is row (64 q + s) · 2048 + j.
-/
import proofs.«415260_j42322607735528_3_alg».proof.Proof.ReduceDefs
import proofs.«415260_j42322607735528_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Reduce.Totals

open Cert.KernelIdeal Cert.KernelIdeal.Gen Cert.CenterStats

/-! ## What one tile leaves in the two scalar blocks, as terms of the tile's blocks -/

section Pieces
variable {F : FTy → Type} [FloatOps F]

theorem off3 : (![0, 0, 0] : Fin 3 → Nat) = fun _ => 0 := funext fun a => by fin_cases a <;> rfl
theorem off2 : (![0, 0] : Fin 2 → Nat) = fun _ => 0 := funext fun a => by fin_cases a <;> rfl

/-- A load of a whole block just after a store of the whole block reads what was stored, whatever lay there before. -/
theorem readCov_whole_after_store {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- A later tile leaves, in the count block, the count update of its words over what the block held. -/
theorem count_later (c : Dev nD) (i : grid1.Coords) (a2 : Memref sig .tc .vmem S2048x256 .f32) (h2 : a2.IsWhole)
    (a3 : Memref sig .tc .vmem S2048x1 .i32) (h3 : a3.IsWhole) (a4 : Memref sig .tc .vmem S1024x256 .bf16) (h4 : a4.IsWhole)
    (a5 : Memref sig .tc .vmem S1x1x1024 .f32) (h5 : a5.IsWhole) (a6 : Memref sig .tc .vmem S1x1x1 .f32) (h6 : a6.IsWhole)
    (a7 : Memref sig .tc .vmem S1x1x1 .f32) (h7 : a7.IsWhole) (hc : ¬cond1_0 i)
    (x0 : Vec F S2048x256 .f32) (x1 : Vec F S2048x1 .i32) (x2 : Vec F S1024x256 .bf16)
    (xo3 : Vec F S1x1x1024 .f32) (xo4 : Vec F S1x1x1 .f32) (xo5 : Vec F S1x1x1 .f32) :
    out1_B_4 c i a2 h2 a3 h3 a4 h4 a5 h5 a6 h6 a7 h7 hc x0 x1 x2 xo3 xo4 xo5 = k1_pay1 (k1_pay15 (k1_pay7 x1) xo4) := by
  unfold out1_B_4
  rw [View.read_writes_eq_canon _ _ _ (cover1_B_4 c i a2 h2 a3 h3 a4 h4 a5 h5 a6 h6 a7 h7 hc x0 x1 x2 xo3 xo4 xo5)]
  unfold kernelRun1_B
  dsimp only
  sl_unfold_words
  rw [View.canon_cons_unit_zero (S := S1x1x1) off3]
  simp only [View.readAt_eq_ld, h2.read_unread, h3.read_unread, h4.read_unread, h5.read_unread, h6.read_unread, h7.read_unread,
    View.ld_unit_zero (S := S2048x256) off2, View.ld_unit_zero (S := S2048x1) off2, View.ld_unit_zero (S := S1024x256) off2,
    View.ld_unit_zero (S := S1x1x1024) off3, View.ld_unit_zero (S := S1x1x1) off3]

/-- A half's first tile leaves, in the count block, the count update of its words over the cleared block. -/
theorem count_first (c : Dev nD) (i : grid1.Coords) (a2 : Memref sig .tc .vmem S2048x256 .f32) (h2 : a2.IsWhole)
    (a3 : Memref sig .tc .vmem S2048x1 .i32) (h3 : a3.IsWhole) (a4 : Memref sig .tc .vmem S1024x256 .bf16) (h4 : a4.IsWhole)
    (a5 : Memref sig .tc .vmem S1x1x1024 .f32) (h5 : a5.IsWhole) (a6 : Memref sig .tc .vmem S1x1x1 .f32) (h6 : a6.IsWhole)
    (a7 : Memref sig .tc .vmem S1x1x1 .f32) (h7 : a7.IsWhole) (hc : cond1_0 i)
    (x0 : Vec F S2048x256 .f32) (x1 : Vec F S2048x1 .i32) (x2 : Vec F S1024x256 .bf16) :
    out1_A_4 c i a2 h2 a3 h3 a4 h4 a5 h5 a6 h6 a7 h7 hc x0 x1 x2 = k1_pay1 (k1_pay15 (k1_pay7 x1) (k1_pay3 (F := F))) := by
  unfold out1_A_4
  rw [View.read_writes_eq_canon _ _ _ (cover1_A_4 c i a2 h2 a3 h3 a4 h4 a5 h5 a6 h6 a7 h7 hc x0 x1 x2)]
  unfold kernelRun1_A
  dsimp only
  sl_unfold_words
  rw [View.canon_cons_unit_zero (S := S1x1x1) off3]
  simp only [readCov_whole_after_store (S := S1x1x1) _ off3]
  simp only [View.readAt_eq_ld, h2.read_unread, h3.read_unread, h4.read_unread, h5.read_unread, h6.read_unread, h7.read_unread,
    View.ld_unit_zero (S := S2048x256) off2, View.ld_unit_zero (S := S2048x1) off2, View.ld_unit_zero (S := S1024x256) off2,
    View.ld_unit_zero (S := S1x1x1024) off3, View.ld_unit_zero (S := S1x1x1) off3]

end Pieces

/-! ## The tile's arithmetic, entry by entry, over the extended reals -/

section Values

/-- The one index of a block of one entry. -/
theorem unit3 (i : S1x1x1.Idx) : i = ix3 (0 : Fin 1) (0 : Fin 1) (0 : Fin 1) := by
  funext a
  apply Fin.ext
  match a with
  | ⟨0, _⟩ => have h : (i 0).val < 1 := (i 0).isLt; show (i 0).val = 0; omega
  | ⟨1, _⟩ => have h : (i 1).val < 1 := (i 1).isLt; show (i 1).val = 0; omega
  | ⟨2, _⟩ => have h : (i 2).val < 1 := (i 2).isLt; show (i 2).val = 0; omega
/-- Likewise at rank two -/
theorem unit2 (i : S1x1.Idx) : i = ix2 (0 : Fin 1) (0 : Fin 1) := by
  funext a
  apply Fin.ext
  match a with
  | ⟨0, _⟩ => have h : (i 0).val < 1 := (i 0).isLt; show (i 0).val = 0; omega
  | ⟨1, _⟩ => have h : (i 1).val < 1 := (i 1).isLt; show (i 1).val = 0; omega
/-- and at rank one. -/
theorem unit1 (i : S1.Idx) : i = ix1 (0 : Fin 1) := by
  funext a
  apply Fin.ext
  match a with
  | ⟨0, _⟩ => have h : (i 0).val < 1 := (i 0).isLt; show (i 0).val = 0; omega

/-- A change of shape out of a shape with one index reads that index. -/
theorem shapeCast_of_unit {s t : Shape} {α : Type} (v : s.Idx → α) (h : s.ShapeCasts t) (j : t.Idx) (k : s.Idx)
    (hs : ∀ k' : s.Idx, k' = k) : shapeCast t v h j = v k := by
  unfold shapeCast
  exact congrArg v (hs _)

/-- A sum down the samples of a [2048, 1] column. -/
theorem sample_sum_apply (v : FVec Ideal S2048x1 .f32) (h : S2048x1.Reduces [0] S1) (hφ : FKind.Formats .f32)
    (hacc : (0x00000000#32 : BitVec 32) = FKind.add.neutral .f32 hφ) :
    multiReduction (F := Ideal) .add [0] S1 v 0x00000000#32 h hφ hacc (ix1 (0 : Fin 1)) = ∑ j : Fin 2048, v (ix2 j (0 : Fin 1)) := by
  refine (Ideal.multiReduction_add_single v 0x00000000#32 h hφ hacc (ix1 (0 : Fin 1))).trans ?_
  refine Finset.sum_congr rfl fun j _ => congrArg v ?_
  apply Shape.idx_ext₂ <;> rfl

/-- The weight with which a tile counts sample j: one minus the clean weight of its word. -/
theorem notClean_apply (x1 : Vec Ideal S2048x1 .i32) (j : Fin 2048) :
    k1_pay7 (F := Ideal) x1 (ix2 j (0 : Fin 1)) = one32 - cleanWeight (x1 (ix2 j (0 : Fin 1))) := by
  unfold k1_pay7 k1_pay6 k1_pay5
  rw [shapeCast_self]
  rfl

/-- The count update at the block's one entry: what the block held plus the tile's number of rows that are not clean. -/
theorem count_step (x1 : Vec Ideal S2048x1 .i32) (xo4 : Vec Ideal S1x1x1 .f32) :
    k1_pay1 (F := Ideal) (k1_pay15 (F := Ideal) (k1_pay7 (F := Ideal) x1) xo4) (ix3 (0 : Fin 1) (0 : Fin 1) (0 : Fin 1))
      = xo4 (ix3 (0 : Fin 1) (0 : Fin 1) (0 : Fin 1)) + ∑ j : Fin 2048, (one32 - cleanWeight (x1 (ix2 j (0 : Fin 1)))) := by
  unfold k1_pay1
  refine (shapeCast_of_unit _ _ _ (ix2 (0 : Fin 1) (0 : Fin 1)) unit2).trans ?_
  unfold k1_pay15
  show shapeCast S1x1 xo4 shapeCasts_S1x1x1_S1x1 (ix2 (0 : Fin 1) (0 : Fin 1))
    + shapeCast S1x1 (multiReduction (F := Ideal) .add [0] S1 (k1_pay7 (F := Ideal) x1) 0x00000000#32 reduces_S2048x1_S1 (.inl rfl) rfl)
        shapeCasts_S1_S1x1 (ix2 (0 : Fin 1) (0 : Fin 1)) = _
  refine congrArg₂ (· + ·) (shapeCast_of_unit xo4 _ _ (ix3 (0 : Fin 1) (0 : Fin 1) (0 : Fin 1)) unit3)
    ((shapeCast_of_unit _ _ _ (ix1 (0 : Fin 1)) unit1).trans ?_)
  refine (sample_sum_apply _ _ _ _).trans ?_
  exact Finset.sum_congr rfl fun j _ => notClean_apply x1 j

/-- The cleared count block holds zero. -/
theorem cleared_count : k1_pay3 (F := Ideal) (ix3 (0 : Fin 1) (0 : Fin 1) (0 : Fin 1)) = 0 := by
  unfold k1_pay3
  refine (shapeCast_of_unit _ _ _ (ix2 (0 : Fin 1) (0 : Fin 1)) unit2).trans ?_
  exact Ideal.ofBits_zero_f32

end Values

/-! ## The fold over a half's tiles, and the array the run leaves -/

section Fold

variable (V : (c : Dev nD) → (b : Ref sig .tc) → Buf (Elt Ideal) ((c : Thread nD τ).loc b))

/-- The block of packed words tile `t` finds. -/
abbrev wordsAt (c : Dev nD) (t : Fin cfg1.N) : Vec Ideal S2048x1 .i32 := iblk1 V c 1 t

/-- Tile `t` reads block (t, 0) of the packed words and writes, when it writes, entry (t / 64, 0, 0) of the counts. -/
theorem index_facts : ∀ t : Fin cfg1.N, win1_1.index t (0 : Fin 2) = t.val ∧ win1_1.index t (1 : Fin 2) = 0
    ∧ win1_4.index t (0 : Fin 3) = t.val / 64 ∧ win1_4.index t (1 : Fin 3) = 0 ∧ win1_4.index t (2 : Fin 3) = 0 :=
  (by decide +kernel : ∀ t : Fin grid1.N, win1_1.index t (0 : Fin 2) = t.val ∧ win1_1.index t (1 : Fin 2) = 0
    ∧ win1_4.index t (0 : Fin 3) = t.val / 64 ∧ win1_4.index t (1 : Fin 3) = 0 ∧ win1_4.index t (2 : Fin 3) = 0)

/-- Sample `j` of tile `t` is row `2048 t + j`: its word in the tile's block is that row's packed word. -/
theorem wordsAt_apply (c : Dev nD) (t : Fin cfg1.N) (j : Fin 2048) (r : Fin 262144) (hr : r.val = t.val * 2048 + j.val) :
    wordsAt V c t (ix2 j (0 : Fin 1)) = word V c r := by
  obtain ⟨e0, e1, -⟩ := index_facts t
  unfold word packed
  show iblk1 V c 1 t (ix2 j (0 : Fin 1)) = _
  unfold iblk1
  rw [View.read_apply]
  show V c main_v28 _ = V c main_v28 _
  refine congrArg (V c main_v28) ?_
  funext a
  apply Fin.ext
  match a with
  | ⟨0, _⟩ => show win1_1.index t (0 : Fin 2) * 2048 + 1 * j.val = r.val; rw [e0, hr]; omega
  | ⟨1, _⟩ => show win1_1.index t (1 : Fin 2) * 1 + 1 * 0 = 0; rw [e1]

/-- The number of rows of tile `n` that are not clean (zero past the grid, where there is no tile). -/
def tileCount (c : Dev nD) (n : ℕ) : EReal :=
  if h : n < cfg1.N then ∑ j : Fin 2048, (one32 - cleanWeight (wordsAt V c ⟨n, h⟩ (ix2 j (0 : Fin 1)))) else 0

/-- After tile `t` the count block holds the counts of the tiles of `t`'s half up to `t`: cleared at the half's
    first tile, each tile adds its own. -/
theorem count_after (c : Dev nD) (t : ℕ) (ht : t < cfg1.N) :
    (outsAt1 V c t ht).2.1 (ix3 (0 : Fin 1) (0 : Fin 1) (0 : Fin 1))
      = ∑ s ∈ Finset.range (t % 64 + 1), tileCount V c (64 * (t / 64) + s) := by
  have hN : cfg1.N = 128 := N_1
  have h' : 64 * (t / 64) + t % 64 < cfg1.N := by rw [Nat.div_add_mod]; exact ht
  have key := Pipeline.eq_accAt_of_mod (N := cfg1.N) (fun n h => (outsAt1 V c n h).2.1) 64
    (fun n h => k1_pay1 (F := Ideal) (k1_pay15 (F := Ideal) (k1_pay7 (F := Ideal) (wordsAt V c ⟨n, h⟩)) (k1_pay3 (F := Ideal))))
    (fun n h acc => k1_pay1 (F := Ideal) (k1_pay15 (F := Ideal) (k1_pay7 (F := Ideal) (wordsAt V c ⟨n, h⟩)) acc))
    (fun n h hm => by
      show (outsAt1 V c n h).2.1 = _
      rw [outsAt1_A V c ⟨n, h⟩ hm]
      dsimp only
      exact count_first (F := Ideal) c (grid1.coords ⟨n, h⟩) (ms1_0 ⟨n, h⟩) (hs1_0 ⟨n, h⟩) (ms1_1 ⟨n, h⟩) (hs1_1 ⟨n, h⟩)
        (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩)
        ((hcond1_0 ⟨n, h⟩).mpr hm) (iblk1 V c 0 ⟨n, h⟩) (iblk1 V c 1 ⟨n, h⟩) (iblk1 V c 2 ⟨n, h⟩))
    (fun n h hm => by
      show (outsAt1 V c (n + 1) h).2.1 = _
      rw [outsAt1_B V c ⟨n + 1, h⟩ hm]
      dsimp only
      exact count_later (F := Ideal) c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩)
        (fun hc => hm ((hcond1_0 ⟨n + 1, h⟩).mp hc)) (iblk1 V c 0 ⟨n + 1, h⟩) (iblk1 V c 1 ⟨n + 1, h⟩) (iblk1 V c 2 ⟨n + 1, h⟩)
        (outsAt1 V c n (Nat.lt_of_succ_lt h)).1 (outsAt1 V c n (Nat.lt_of_succ_lt h)).2.1 (outsAt1 V c n (Nat.lt_of_succ_lt h)).2.2)
    (by decide) t ht h'
  refine (congrFun key _).trans ?_
  refine (Pipeline.accAt_add_apply (ι := S1x1x1.Idx) (β := EReal) _ _ (fun _ => 0) (fun n _ => tileCount V c n)
    (64 * (t / 64)) 63 ?_ ?_ (t % 64) (by omega) h' (ix3 (0 : Fin 1) (0 : Fin 1) (0 : Fin 1))).trans (zero_add _)
  · intro h i
    obtain rfl := unit3 i
    refine (count_step (wordsAt V c ⟨64 * (t / 64), h⟩) (k1_pay3 (F := Ideal))).trans ?_
    rw [cleared_count]
    unfold tileCount
    rw [dif_pos h]
  · intro n h acc i _ _
    obtain rfl := unit3 i
    refine (count_step (wordsAt V c ⟨n, h⟩) acc).trans ?_
    unfold tileCount
    rw [dif_pos h]

/-- The counts the run leaves: entry (q, 0, 0) is the sum of the counts of half `q`'s 64 tiles. -/
def countArr (c : Dev nD) : Vec Ideal S2x1x1 .f32 :=
  fun i => ∑ s ∈ Finset.range 64, tileCount V c (64 * (i 0).val + s)

/-- Two blocks of one entry that agree at it are equal. -/
theorem block_ext (u v : Vec Ideal S1x1x1 .f32)
    (h : u (ix3 (0 : Fin 1) (0 : Fin 1) (0 : Fin 1)) = v (ix3 (0 : Fin 1) (0 : Fin 1) (0 : Fin 1))) : u = v :=
  funext fun y => by rw [unit3 y]; exact h

/-- What a half's last tile writes back is that half's entry of the counts. -/
theorem flushed_count (c : Dev nD) (t : Fin cfg1.N) (hf : (cfg1.win 4).flush t = true) :
    (dat1 (F := Ideal) V c).flushed 4 t = ((cfg1.win 4).blk t).view.read (Elt Ideal) (countArr V c) := by
  have hN : cfg1.N = 128 := N_1
  have h63 : t.val % 64 = 63 := (flush1_4 t).mp hf
  obtain ⟨-, -, e0, e1, e2⟩ := index_facts t
  show (cfg1.win 4).cut (grid1.coords t) ((dat1 (F := Ideal) V c).after 4 t) = _
  rw [after1_4]
  refine block_ext _ _ ?_
  rw [View.read_apply]
  show (outsAt1 V c t.val t.isLt).2.1 (ix3 (0 : Fin 1) (0 : Fin 1) (0 : Fin 1))
    = countArr V c (((cfg1.win 4).blk t).view.emb (ix3 (0 : Fin 1) (0 : Fin 1) (0 : Fin 1)))
  rw [count_after V c t.val t.isLt, h63]
  unfold countArr
  refine Finset.sum_congr rfl fun s _ => congrArg (tileCount V c) ?_
  show 64 * (t.val / 64) + s = 64 * (win1_4.index t (0 : Fin 3) * 1 + 1 * 0) + s
  rw [e0]
  omega

end Fold

end Cert.KernelIdeal.Reduce.Totals

namespace Cert.KernelIdeal.Reduce

open Cert.KernelIdeal Cert.KernelIdeal.Gen Cert.CenterStats Cert.KernelIdeal.Reduce.Totals

variable (V : (c : Dev nD) → (b : Ref sig .tc) → Buf (Elt Ideal) ((c : Thread nD τ).loc b))

/-- Half `q`'s count of rows that are not clean. -/
theorem pcount_final (c : Dev nD) (q : Fin 2) :
    ((dat1 (F := Ideal) V c).arrAt 4 cfg1.N : Vec Ideal S2x1x1 .f32) (ix3 q (0 : Fin 1) (0 : Fin 1))
      = ∑ s : Fin 64, ∑ j : Fin 2048, (one32 - cleanWeight (word V c (rowAt q s j))) := by
  have hN : cfg1.N = 128 := N_1
  have hq := q.isLt
  have ht : 64 * q.val + 63 < cfg1.N := by omega
  -- the half's last tile writes the entry back
  have hf : (cfg1.win 4).flush ⟨64 * q.val + 63, ht⟩ = true :=
    (flush1_4 ⟨64 * q.val + 63, ht⟩).mpr (by show (64 * q.val + 63) % 64 = 63; omega)
  obtain ⟨-, -, e0, e1, e2⟩ := index_facts ⟨64 * q.val + 63, ht⟩
  have e0' : win1_4.index ⟨64 * q.val + 63, ht⟩ (0 : Fin 3) = q.val := by
    rw [e0]; show (64 * q.val + 63) / 64 = q.val; omega
  refine ((dat1 (F := Ideal) V c).arrAt_apply_of_mem 4 (countArr V c) (flushed_count V c) cfg1.N ⟨64 * q.val + 63, ht⟩
    (ix3 q (0 : Fin 1) (0 : Fin 1)) ht hf ?_).trans ?_
  · -- entry (q, 0, 0) is that tile's block
    show ix3 q (0 : Fin 1) (0 : Fin 1) ∈ ((View.whole main_v30_1).slice (win1_4.rect ⟨64 * q.val + 63, ht⟩)).set
    rw [View.set_slice_whole, Rect.mem_set_unit]
    intro a
    match a with
    | ⟨0, _⟩ =>
      show win1_4.index ⟨64 * q.val + 63, ht⟩ (0 : Fin 3) * 1 ≤ q.val ∧ q.val < win1_4.index ⟨64 * q.val + 63, ht⟩ (0 : Fin 3) * 1 + 1
      rw [e0']; omega
    | ⟨1, _⟩ =>
      show win1_4.index ⟨64 * q.val + 63, ht⟩ (1 : Fin 3) * 1 ≤ 0 ∧ 0 < win1_4.index ⟨64 * q.val + 63, ht⟩ (1 : Fin 3) * 1 + 1
      rw [e1]; omega
    | ⟨2, _⟩ =>
      show win1_4.index ⟨64 * q.val + 63, ht⟩ (2 : Fin 3) * 1 ≤ 0 ∧ 0 < win1_4.index ⟨64 * q.val + 63, ht⟩ (2 : Fin 3) * 1 + 1
      rw [e2]; omega
  · -- the half's tiles' counts, row by row
    unfold countArr
    show ∑ s ∈ Finset.range 64, tileCount V c (64 * q.val + s) = _
    rw [Finset.sum_range]
    refine Finset.sum_congr rfl fun s _ => ?_
    have hs := s.isLt
    have hts : 64 * q.val + s.val < cfg1.N := by omega
    unfold tileCount
    rw [dif_pos hts]
    refine Finset.sum_congr rfl fun j _ => ?_
    rw [wordsAt_apply V c ⟨64 * q.val + s.val, hts⟩ j (rowAt q s j) (rowAt_val q s j)]

end Cert.KernelIdeal.Reduce

end
-- ==== Proof.ReduceLoss.lean ====
/-
  The second pass's loss numerator, read as a value: per half, the sum over the half's rows that are not clean of the
  squared differences between the row and the table row its class picks. The block is cleared at the half's first
  tile, added into at every tile, and written back at its last.
-/
import proofs.«415260_j42322607735528_3_alg».proof.Proof.ReduceDefs
import proofs.«415260_j42322607735528_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Reduce

open Cert.KernelIdeal Cert.KernelIdeal.Gen Cert.CenterStats

namespace Loss

/-! ## What one tile leaves in the loss block, as a term of the tile's blocks -/

section Pieces
variable {F : FTy → Type} [FloatOps F]

theorem off3 : (![0, 0, 0] : Fin 3 → Nat) = fun _ => 0 := funext fun a => by fin_cases a <;> rfl
theorem off2 : (![0, 0] : Fin 2 → Nat) = fun _ => 0 := funext fun a => by fin_cases a <;> rfl

/-- Reading the whole block back right after the whole block was stored gives the stored contents; the older pieces
    underneath play no part. -/
theorem readCov_whole_after_store {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- At a tile that is not a half's first, the loss block ends at the update computed from the tile's rows, words and
    table and from the block's running contents. -/
theorem loss_later (c : Dev nD) (i : grid1.Coords) (a2 : Memref sig .tc .vmem S2048x256 .f32) (h2 : a2.IsWhole)
    (a3 : Memref sig .tc .vmem S2048x1 .i32) (h3 : a3.IsWhole) (a4 : Memref sig .tc .vmem S1024x256 .bf16) (h4 : a4.IsWhole)
    (a5 : Memref sig .tc .vmem S1x1x1024 .f32) (h5 : a5.IsWhole) (a6 : Memref sig .tc .vmem S1x1x1 .f32) (h6 : a6.IsWhole)
    (a7 : Memref sig .tc .vmem S1x1x1 .f32) (h7 : a7.IsWhole) (hc : ¬cond1_0 i)
    (x0 : Vec F S2048x256 .f32) (x1 : Vec F S2048x1 .i32) (x2 : Vec F S1024x256 .bf16)
    (xo3 : Vec F S1x1x1024 .f32) (xo4 : Vec F S1x1x1 .f32) (xo5 : Vec F S1x1x1 .f32) :
    out1_B_5 c i a2 h2 a3 h3 a4 h4 a5 h5 a6 h6 a7 h7 hc x0 x1 x2 xo3 xo4 xo5 = k1_pay11 (k1_pay10 x1 x0 x2 xo5) := by
  unfold out1_B_5
  rw [View.read_writes_eq_canon _ _ _ (cover1_B_5 c i a2 h2 a3 h3 a4 h4 a5 h5 a6 h6 a7 h7 hc x0 x1 x2 xo3 xo4 xo5)]
  unfold kernelRun1_B
  dsimp only
  sl_unfold_words
  rw [View.canon_cons_unit_zero (S := S1x1x1) off3]
  simp only [View.readAt_eq_ld, h2.read_unread, h3.read_unread, h4.read_unread, h5.read_unread, h6.read_unread, h7.read_unread,
    View.ld_unit_zero (S := S2048x256) off2, View.ld_unit_zero (S := S2048x1) off2, View.ld_unit_zero (S := S1024x256) off2,
    View.ld_unit_zero (S := S1x1x1024) off3, View.ld_unit_zero (S := S1x1x1) off3]

/-- At a half's first tile the block is cleared first, so it ends at the same update computed from the zero block. -/
theorem loss_first (c : Dev nD) (i : grid1.Coords) (a2 : Memref sig .tc .vmem S2048x256 .f32) (h2 : a2.IsWhole)
    (a3 : Memref sig .tc .vmem S2048x1 .i32) (h3 : a3.IsWhole) (a4 : Memref sig .tc .vmem S1024x256 .bf16) (h4 : a4.IsWhole)
    (a5 : Memref sig .tc .vmem S1x1x1024 .f32) (h5 : a5.IsWhole) (a6 : Memref sig .tc .vmem S1x1x1 .f32) (h6 : a6.IsWhole)
    (a7 : Memref sig .tc .vmem S1x1x1 .f32) (h7 : a7.IsWhole) (hc : cond1_0 i)
    (x0 : Vec F S2048x256 .f32) (x1 : Vec F S2048x1 .i32) (x2 : Vec F S1024x256 .bf16) :
    out1_A_5 c i a2 h2 a3 h3 a4 h4 a5 h5 a6 h6 a7 h7 hc x0 x1 x2 = k1_pay11 (k1_pay10 x1 x0 x2 (k1_pay4 (F := F))) := by
  unfold out1_A_5
  rw [View.read_writes_eq_canon _ _ _ (cover1_A_5 c i a2 h2 a3 h3 a4 h4 a5 h5 a6 h6 a7 h7 hc x0 x1 x2)]
  unfold kernelRun1_A
  dsimp only
  sl_unfold_words
  rw [View.canon_cons_unit_zero (S := S1x1x1) off3]
  simp only [readCov_whole_after_store (S := S1x1x1) _ off3]
  simp only [View.readAt_eq_ld, h2.read_unread, h3.read_unread, h4.read_unread, h5.read_unread, h6.read_unread, h7.read_unread,
    View.ld_unit_zero (S := S2048x256) off2, View.ld_unit_zero (S := S2048x1) off2, View.ld_unit_zero (S := S1024x256) off2,
    View.ld_unit_zero (S := S1x1x1024) off3, View.ld_unit_zero (S := S1x1x1) off3]

end Pieces

/-! ## The tile's arithmetic, entry by entry, over the extended reals -/

section Values

/-- A shape all of whose extents are one has a single index. -/
theorem unit3 (i : S1x1x1.Idx) : i = ix3 (0 : Fin 1) (0 : Fin 1) (0 : Fin 1) := by
  funext a
  apply Fin.ext
  match a with
  | ⟨0, _⟩ => have h : (i 0).val < 1 := (i 0).isLt; show (i 0).val = 0; omega
  | ⟨1, _⟩ => have h : (i 1).val < 1 := (i 1).isLt; show (i 1).val = 0; omega
  | ⟨2, _⟩ => have h : (i 2).val < 1 := (i 2).isLt; show (i 2).val = 0; omega
theorem unit2 (i : S1x1.Idx) : i = ix2 (0 : Fin 1) (0 : Fin 1) := by
  funext a
  apply Fin.ext
  match a with
  | ⟨0, _⟩ => have h : (i 0).val < 1 := (i 0).isLt; show (i 0).val = 0; omega
  | ⟨1, _⟩ => have h : (i 1).val < 1 := (i 1).isLt; show (i 1).val = 0; omega
theorem unit1 (i : S1.Idx) : i = ix1 (0 : Fin 1) := by
  funext a
  apply Fin.ext
  match a with
  | ⟨0, _⟩ => have h : (i 0).val < 1 := (i 0).isLt; show (i 0).val = 0; omega

/-- Reshaping a one-entry value: whatever the target index, the entry read is the source's only one. -/
theorem shapeCast_of_unit {s t : Shape} {α : Type} (v : s.Idx → α) (h : s.ShapeCasts t) (j : t.Idx) (k : s.Idx)
    (hs : ∀ k' : s.Idx, k' = k) : shapeCast t v h j = v k := by
  unfold shapeCast
  exact congrArg v (hs _)

/-- Spreading an [a, 1] column over b columns: entry (p, c) of the result is entry p of the column. -/
theorem spread_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Viewing a [2048] vector as a [2048, 1] column keeps entry j at row j. -/
theorem as_column_apply {α : Type} (v : S2048.Idx → α) (h : S2048.ShapeCasts S2048x1) (j : Fin 2048) :
    shapeCast S2048x1 v h (ix2 j (0 : Fin 1)) = v (ix1 j) :=
  shapeCast_apply v h _ _ (by
    rw [Shape.rowMajor_val_two, Shape.rowMajor_val_one]
    show j.val = j.val * 1 + 0
    omega)

/-- Reducing a [2048, 256] block along its second axis: at row j, the sum of the row's 256 entries. -/
theorem lane_sum_apply (v : FVec Ideal S2048x256 .f32) (h : S2048x256.Reduces [1] S2048) (hφ : FKind.Formats .f32)
    (hacc : (0x00000000#32 : BitVec 32) = FKind.add.neutral .f32 hφ) (j : Fin 2048) :
    multiReduction (F := Ideal) .add [1] S2048 v 0x00000000#32 h hφ hacc (ix1 j) = ∑ d : Fin 256, v (ix2 j d) := by
  refine (Ideal.multiReduction_add_single v 0x00000000#32 h hφ hacc (ix1 j)).trans ?_
  refine Finset.sum_congr rfl fun d _ => congrArg v ?_
  apply Shape.idx_ext₂ <;> rfl

/-- Reducing a [2048, 1] column along its first axis: the sum of its 2048 entries. -/
theorem sample_sum_apply (v : FVec Ideal S2048x1 .f32) (h : S2048x1.Reduces [0] S1) (hφ : FKind.Formats .f32)
    (hacc : (0x00000000#32 : BitVec 32) = FKind.add.neutral .f32 hφ) :
    multiReduction (F := Ideal) .add [0] S1 v 0x00000000#32 h hφ hacc (ix1 (0 : Fin 1)) = ∑ j : Fin 2048, v (ix2 j (0 : Fin 1)) := by
  refine (Ideal.multiReduction_add_single v 0x00000000#32 h hφ hacc (ix1 (0 : Fin 1))).trans ?_
  refine Finset.sum_congr rfl fun j _ => congrArg v ?_
  apply Shape.idx_ext₂ <;> rfl

/-- An equality test's bit, zero-extended and converted to a float, is the indicator of the equality. -/
theorem ind_of_cmpi (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  unfold IntOp.cmpi
  by_cases h : a = b
  · subst h; simp
  · have hb : (a == b) = false := by simpa using h
    simp [hb, h]

/-- The factor a sample carries into the loss: one minus the clean weight of its packed word. -/
theorem notClean_apply (x1 : Vec Ideal S2048x1 .i32) (j : Fin 2048) :
    k1_pay7 (F := Ideal) x1 (ix2 j (0 : Fin 1)) = one32 - cleanWeight (x1 (ix2 j (0 : Fin 1))) := by
  unfold k1_pay7 k1_pay6 k1_pay5
  rw [shapeCast_self]
  rfl

/-- Entry (j, k) of the tile's one-hot matrix: one if sample j's class is k, else zero. -/
theorem onehot_apply (x1 : Vec Ideal S2048x1 .i32) (j : Fin 2048) (k : Fin 1024) :
    k1_pay8 (F := Ideal) x1 (ix2 j k) = hot (unpackTarget (x1 (ix2 j (0 : Fin 1)))) k.val := by
  unfold k1_pay8 k1_pay5
  rw [shapeCast_self]
  show FloatOps.sitofp (F := Ideal) .f32 ((IntOp.cmpi .eq
      (broadcastTo S2048x1024 (shrsi x1 (broadcast S2048x1 1#32)) broadcasts_S2048x1_S2048x1024 (ix2 j k))
      (broadcastTo S2048x1024 (iota .tc S1x1024 32 [1] iota_S1x1024_d1_w32) broadcasts_S1x1024_S2048x1024 (ix2 j k))).setWidth 32) = _
  rw [spread_column_apply, broadcastTo_1b_ab_apply, iota_single_apply, ind_of_cmpi]
  rfl

/-- The dimension numbers of the product of the one-hot matrix with the table: the class axis is contracted. -/
abbrev pickDims := dot_S2048x1024_S1024x256_S2048x256_1_0_0_1_n_n

theorem pickDims_lhs_0 (j : S2048x256.Idx) (q : pickDims.contr.Idx) : (pickDims.lhsIdx j q 0 : ℕ) = j 0 := by
  simp [DotDims.lhsIdx, pickDims, dot_S2048x1024_S1024x256_S2048x256_1_0_0_1_n_n]; rfl
theorem pickDims_lhs_1 (j : S2048x256.Idx) (q : pickDims.contr.Idx) : (pickDims.lhsIdx j q 1 : ℕ) = q ⟨0, by decide⟩ := by
  simp [DotDims.lhsIdx, pickDims, dot_S2048x1024_S1024x256_S2048x256_1_0_0_1_n_n]; rfl
theorem pickDims_rhs_0 (j : S2048x256.Idx) (q : pickDims.contr.Idx) : (pickDims.rhsIdx j q 0 : ℕ) = q ⟨0, by decide⟩ := by
  simp [DotDims.rhsIdx, pickDims, dot_S2048x1024_S1024x256_S2048x256_1_0_0_1_n_n]; rfl
theorem pickDims_rhs_1 (j : S2048x256.Idx) (q : pickDims.contr.Idx) : (pickDims.rhsIdx j q 1 : ℕ) = j 1 := by
  simp [DotDims.rhsIdx, pickDims, dot_S2048x1024_S1024x256_S2048x256_1_0_0_1_n_n]; rfl

/-- In that product, entry (j, d) at class k multiplies the left factor's entry (j, k) -/
theorem pickDims_lhsIdx (j : Fin 2048) (d : Fin 256) (k : Fin 1024) :
    pickDims.lhsIdx (ix2 j d) ((contrEquiv1 pickDims 1024 rfl rfl).symm k) = ix2 j k := by
  apply Shape.idx_ext₂
  · exact pickDims_lhs_0 _ _
  · exact (pickDims_lhs_1 _ _).trans (contrEquiv1_symm_val pickDims 1024 rfl rfl k)

/-- by the right factor's entry (k, d). -/
theorem pickDims_rhsIdx (j : Fin 2048) (d : Fin 256) (k : Fin 1024) :
    pickDims.rhsIdx (ix2 j d) ((contrEquiv1 pickDims 1024 rfl rfl).symm k) = ix2 k d := by
  apply Shape.idx_ext₂
  · exact (pickDims_rhs_0 _ _).trans (contrEquiv1_symm_val pickDims 1024 rfl rfl k)
  · exact pickDims_rhs_1 _ _

/-- Entry (j, d) of the tile's difference: the row's entry minus the one-hot combination of the table's column d. -/
theorem difference_apply (x1 : Vec Ideal S2048x1 .i32) (x0 : Vec Ideal S2048x256 .f32) (x2 : Vec Ideal S1024x256 .bf16)
    (j : Fin 2048) (d : Fin 256) :
    k1_pay9 (F := Ideal) x1 x0 x2 (ix2 j d)
      = x0 (ix2 j d) - ∑ k : Fin 1024, hot (unpackTarget (x1 (ix2 j (0 : Fin 1)))) k.val * x2 (ix2 k d) := by
  unfold k1_pay9
  rw [shapeCast_self]
  show x0 (ix2 j d) - FloatOps.matmul pickDims none (k1_pay8 (F := Ideal) x1) x2 (constant (F := Ideal) S2048x256 .f32 0x00000000#32) (ix2 j d) = _
  rw [Ideal.matmul_constant_zero_apply, ← Equiv.sum_comp (contrEquiv1 pickDims 1024 rfl rfl).symm]
  refine congrArg (x0 (ix2 j d) - ·) (Finset.sum_congr rfl fun k _ => ?_)
  rw [pickDims_lhsIdx, pickDims_rhsIdx, onehot_apply]

/-- The loss update read at its single entry: the running value plus, summed over the tile's samples and along each
    row, the squared difference times the sample's factor. -/
theorem loss_step (x1 : Vec Ideal S2048x1 .i32) (x0 : Vec Ideal S2048x256 .f32) (x2 : Vec Ideal S1024x256 .bf16)
    (xo5 : Vec Ideal S1x1x1 .f32) :
    k1_pay11 (F := Ideal) (k1_pay10 (F := Ideal) x1 x0 x2 xo5) (ix3 (0 : Fin 1) (0 : Fin 1) (0 : Fin 1))
      = xo5 (ix3 (0 : Fin 1) (0 : Fin 1) (0 : Fin 1))
        + ∑ j : Fin 2048, ∑ d : Fin 256,
            (k1_pay9 (F := Ideal) x1 x0 x2 (ix2 j d) * k1_pay9 (F := Ideal) x1 x0 x2 (ix2 j d))
              * (one32 - cleanWeight (x1 (ix2 j (0 : Fin 1)))) := by
  unfold k1_pay11
  refine (shapeCast_of_unit _ _ _ (ix2 (0 : Fin 1) (0 : Fin 1)) unit2).trans ?_
  unfold k1_pay10
  show shapeCast S1x1 xo5 shapeCasts_S1x1x1_S1x1 (ix2 (0 : Fin 1) (0 : Fin 1))
    + shapeCast S1x1 (multiReduction (F := Ideal) .add [0] S1
        (shapeCast S2048x1 (multiReduction (F := Ideal) .add [1] S2048
          (mulf (mulf (k1_pay9 (F := Ideal) x1 x0 x2) (k1_pay9 (F := Ideal) x1 x0 x2))
            (broadcastTo S2048x256 (k1_pay7 (F := Ideal) x1) broadcasts_S2048x1_S2048x256))
          0x00000000#32 reduces_S2048x256_S2048 (.inl rfl) rfl) shapeCasts_S2048_S2048x1)
        0x00000000#32 reduces_S2048x1_S1 (.inl rfl) rfl)
        shapeCasts_S1_S1x1 (ix2 (0 : Fin 1) (0 : Fin 1)) = _
  refine congrArg₂ (· + ·) (shapeCast_of_unit xo5 _ _ (ix3 (0 : Fin 1) (0 : Fin 1) (0 : Fin 1)) unit3)
    ((shapeCast_of_unit _ _ _ (ix1 (0 : Fin 1)) unit1).trans ?_)
  refine (sample_sum_apply _ _ _ _).trans ?_
  refine Finset.sum_congr rfl fun j _ => ?_
  refine (as_column_apply _ _ j).trans ?_
  refine (lane_sum_apply _ _ _ _ j).trans ?_
  refine Finset.sum_congr rfl fun d _ => ?_
  show (k1_pay9 (F := Ideal) x1 x0 x2 (ix2 j d) * k1_pay9 (F := Ideal) x1 x0 x2 (ix2 j d))
    * broadcastTo S2048x256 (k1_pay7 (F := Ideal) x1) broadcasts_S2048x1_S2048x256 (ix2 j d) = _
  refine congrArg (fun z : EReal => (k1_pay9 (F := Ideal) x1 x0 x2 (ix2 j d) * k1_pay9 (F := Ideal) x1 x0 x2 (ix2 j d)) * z) ?_
  exact (spread_column_apply _ _ j d).trans (notClean_apply x1 j)

/-- The cleared loss block holds zero. -/
theorem cleared_loss : k1_pay4 (F := Ideal) (ix3 (0 : Fin 1) (0 : Fin 1) (0 : Fin 1)) = 0 := by
  unfold k1_pay4
  refine (shapeCast_of_unit _ _ _ (ix2 (0 : Fin 1) (0 : Fin 1)) unit2).trans ?_
  exact Ideal.ofBits_zero_f32

end Values

/-! ## The tile's three input blocks, read off the arrays -/

section Blocks
variable (V : (c : Dev nD) → (b : Ref sig .tc) → Buf (Elt Ideal) ((c : Thread nD τ).loc b))

/-- The rows, the packed words and the table as tile `t` finds them in its staging buffers. -/
abbrev rowsBlk (c : Dev nD) (t : Fin cfg1.N) : Vec Ideal S2048x256 .f32 := iblk1 V c 0 t
abbrev wordsBlk (c : Dev nD) (t : Fin cfg1.N) : Vec Ideal S2048x1 .i32 := iblk1 V c 1 t
abbrev tableBlk (c : Dev nD) (t : Fin cfg1.N) : Vec Ideal S1024x256 .bf16 := iblk1 V c 2 t

/-- Sample `j` of tile `t` is row `2048 t + j`. -/
def rowOf (t : Fin cfg1.N) (j : Fin 2048) : Fin 262144 :=
  ⟨t.val * 2048 + j.val, by have := t.isLt; have e : cfg1.N = 128 := N_1; have := j.isLt; omega⟩

/-- The block indices of the three inputs at tile `t`: rows and words move with the tile, the table stays. -/
theorem idx_in : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

theorem rowsBlk_apply (c : Dev nD) (t : Fin cfg1.N) (j : Fin 2048) (d : Fin 256) :
    rowsBlk V c t (ix2 j d) = feats V c (ix2 (rowOf t j) d) := by
  obtain ⟨e0, e1, -⟩ := idx_in t
  show V c main_arg0 (((cfg1.win 0).blk t).view.emb (ix2 j d)) = V c main_arg0 (ix2 (rowOf t j) d)
  refine congrArg (V c main_arg0) ?_
  funext a; apply Fin.ext
  match a with
  | ⟨0, _⟩ => show win1_0.index t (0 : Fin 2) * 2048 + 1 * j.val = t.val * 2048 + j.val; omega
  | ⟨1, _⟩ => show win1_0.index t (1 : Fin 2) * 256 + 1 * d.val = d.val; omega

theorem wordsBlk_apply (c : Dev nD) (t : Fin cfg1.N) (j : Fin 2048) :
    wordsBlk V c t (ix2 j (0 : Fin 1)) = word V c (rowOf t j) := by
  obtain ⟨-, -, e0, e1, -⟩ := idx_in t
  show V c main_v28 (((cfg1.win 1).blk t).view.emb (ix2 j (0 : Fin 1))) = V c main_v28 (ix2 (rowOf t j) (0 : Fin 1))
  refine congrArg (V c main_v28) ?_
  funext a; apply Fin.ext
  match a with
  | ⟨0, _⟩ => show win1_1.index t (0 : Fin 2) * 2048 + 1 * j.val = t.val * 2048 + j.val; omega
  | ⟨1, _⟩ => show win1_1.index t (1 : Fin 2) * 1 + 1 * 0 = 0; omega

theorem tableBlk_apply (c : Dev nD) (t : Fin cfg1.N) (k : Fin 1024) (d : Fin 256) :
    tableBlk V c t (ix2 k d) = table V c (ix2 k d) := by
  obtain ⟨-, -, -, -, e0, e1⟩ := idx_in t
  show V c main_v29 (((cfg1.win 2).blk t).view.emb (ix2 k d)) = V c main_v29 (ix2 k d)
  refine congrArg (V c main_v29) ?_
  funext a; apply Fin.ext
  match a with
  | ⟨0, _⟩ => show win1_2.index t (0 : Fin 2) * 1024 + 1 * k.val = k.val; omega
  | ⟨1, _⟩ => show win1_2.index t (1 : Fin 2) * 256 + 1 * d.val = d.val; omega

/-- Tile `t`'s part of the loss numerator: over its samples that are not clean, the squared differences. -/
def tilePart (c : Dev nD) (t : Fin cfg1.N) : EReal :=
  ∑ j : Fin 2048, ∑ d : Fin 256,
    (diff V c (rowOf t j) d * diff V c (rowOf t j) d) * (one32 - cleanWeight (word V c (rowOf t j)))

/-- The tile's difference block is the rows' difference, sample by sample. -/
theorem diffBlk_apply (c : Dev nD) (t : Fin cfg1.N) (j : Fin 2048) (d : Fin 256) :
    k1_pay9 (F := Ideal) (wordsBlk V c t) (rowsBlk V c t) (tableBlk V c t) (ix2 j d) = diff V c (rowOf t j) d := by
  refine (difference_apply (wordsBlk V c t) (rowsBlk V c t) (tableBlk V c t) j d).trans ?_
  rw [rowsBlk_apply, wordsBlk_apply]
  unfold diff picked
  refine congrArg (fun z : EReal => feats V c (ix2 (rowOf t j) d) - z) (Finset.sum_congr rfl fun k _ => ?_)
  rw [tableBlk_apply]

/-- One tile's update of the loss block, at the block's one entry: what it held plus the tile's part. -/
theorem tile_step (c : Dev nD) (t : Fin cfg1.N) (xo5 : Vec Ideal S1x1x1 .f32) :
    k1_pay11 (F := Ideal) (k1_pay10 (F := Ideal) (wordsBlk V c t) (rowsBlk V c t) (tableBlk V c t) xo5)
        (ix3 (0 : Fin 1) (0 : Fin 1) (0 : Fin 1))
      = xo5 (ix3 (0 : Fin 1) (0 : Fin 1) (0 : Fin 1)) + tilePart V c t := by
  refine (loss_step (wordsBlk V c t) (rowsBlk V c t) (tableBlk V c t) xo5).trans ?_
  refine congrArg (fun z : EReal => xo5 (ix3 (0 : Fin 1) (0 : Fin 1) (0 : Fin 1)) + z) ?_
  unfold tilePart
  refine Finset.sum_congr rfl fun j _ => Finset.sum_congr rfl fun d _ => ?_
  rw [diffBlk_apply, wordsBlk_apply]

end Blocks

/-! ## The fold over a half's 64 tiles -/

section Fold
variable (V : (c : Dev nD) → (b : Ref sig .tc) → Buf (Elt Ideal) ((c : Thread nD τ).loc b))

/-- What the loss block holds after point `n`. -/
abbrev lossAt (c : Dev nD) (n : ℕ) (h : n < cfg1.N) : Vec Ideal S1x1x1 .f32 := (outsAt1 V c n h).2.2

/-- What a half's first tile leaves: its update of the cleared block. -/
def firstTerm (c : Dev nD) (n : ℕ) (h : n < cfg1.N) : Vec Ideal S1x1x1 .f32 :=
  k1_pay11 (F := Ideal) (k1_pay10 (F := Ideal) (wordsBlk V c ⟨n, h⟩) (rowsBlk V c ⟨n, h⟩) (tableBlk V c ⟨n, h⟩) (k1_pay4 (F := Ideal)))
/-- What a later tile leaves: its update of what the tile before left. -/
def laterTerm (c : Dev nD) (n : ℕ) (h : n < cfg1.N) (acc : Vec Ideal S1x1x1 .f32) : Vec Ideal S1x1x1 .f32 :=
  k1_pay11 (F := Ideal) (k1_pay10 (F := Ideal) (wordsBlk V c ⟨n, h⟩) (rowsBlk V c ⟨n, h⟩) (tableBlk V c ⟨n, h⟩) acc)

theorem lossAt_first (c : Dev nD) (n : ℕ) (h : n < cfg1.N) (hm : n % 64 = 0) : lossAt V c n h = firstTerm V c n h := by
  show (outsAt1 V c n h).2.2 = _
  rw [outsAt1_A V c ⟨n, h⟩ hm]
  dsimp only
  exact loss_first (F := Ideal) c (grid1.coords ⟨n, h⟩) (ms1_0 ⟨n, h⟩) (hs1_0 ⟨n, h⟩) (ms1_1 ⟨n, h⟩) (hs1_1 ⟨n, h⟩)
    (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩)
    ((hcond1_0 ⟨n, h⟩).mpr hm) (iblk1 V c 0 ⟨n, h⟩) (iblk1 V c 1 ⟨n, h⟩) (iblk1 V c 2 ⟨n, h⟩)

theorem lossAt_later (c : Dev nD) (n : ℕ) (h : n + 1 < cfg1.N) (hm : ¬(n + 1) % 64 = 0) :
    lossAt V c (n + 1) h = laterTerm V c (n + 1) h (lossAt V c n (Nat.lt_of_succ_lt h)) := by
  show (outsAt1 V c (n + 1) h).2.2 = _
  rw [outsAt1_B V c ⟨n + 1, h⟩ hm]
  dsimp only
  exact loss_later (F := Ideal) c (grid1.coords ⟨n + 1, h⟩) (ms1_0 ⟨n + 1, h⟩) (hs1_0 ⟨n + 1, h⟩) (ms1_1 ⟨n + 1, h⟩) (hs1_1 ⟨n + 1, h⟩)
    (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩)
    (fun hh => hm ((hcond1_0 ⟨n + 1, h⟩).mp hh)) (iblk1 V c 0 ⟨n + 1, h⟩) (iblk1 V c 1 ⟨n + 1, h⟩) (iblk1 V c 2 ⟨n + 1, h⟩)
    (outsAt1 V c n (Nat.lt_of_succ_lt h)).1 (outsAt1 V c n (Nat.lt_of_succ_lt h)).2.1 (outsAt1 V c n (Nat.lt_of_succ_lt h)).2.2

/-- Point `n`'s addend, for every natural `n` (zero past the grid). -/
def partAt (c : Dev nD) (n : ℕ) : S1x1x1.Idx → EReal := fun _ => if h : n < cfg1.N then tilePart V c ⟨n, h⟩ else 0

/-- At a point that ends a run of 64, the loss block holds the sum of the run's 64 parts. -/
theorem lossAt_last (c : Dev nD) (t : Fin cfg1.N) (h63 : t.val % 64 = 63) (i : S1x1x1.Idx) :
    lossAt V c t.val t.isLt i = ∑ s : Fin 64, partAt V c (64 * (t.val / 64) + s.val) i := by
  have hN : cfg1.N = 128 := N_1
  have hlt := t.isLt
  have h' : 64 * (t.val / 64) + t.val % 64 < cfg1.N := by rw [Nat.div_add_mod]; exact t.isLt
  rw [Pipeline.eq_accAt_of_mod (lossAt V c) 64 (firstTerm V c) (laterTerm V c) (lossAt_first V c) (lossAt_later V c)
    (by decide) t.val t.isLt h']
  have hsum := Pipeline.accAt_add_apply (firstTerm V c) (laterTerm V c) (fun _ => (0 : EReal)) (partAt V c) (64 * (t.val / 64)) 63
    (fun h i => by
      rw [unit3 i]
      unfold firstTerm partAt
      rw [dif_pos h]
      exact (tile_step V c ⟨64 * (t.val / 64), h⟩ (k1_pay4 (F := Ideal))).trans (by rw [cleared_loss]))
    (fun n h acc i _ _ => by
      rw [unit3 i]
      unfold laterTerm partAt
      rw [dif_pos h]
      exact tile_step V c ⟨n, h⟩ acc)
    (t.val % 64) (by omega) h' i
  rw [hsum, zero_add, h63, Finset.sum_range]

end Fold

/-! ## The final array -/

section Final
variable (V : (c : Dev nD) → (b : Ref sig .tc) → Buf (Elt Ideal) ((c : Thread nD τ).loc b))

/-- Half `q`'s loss numerator: over the half's rows that are not clean, the squared differences. -/
def total (c : Dev nD) (q : Fin 2) : EReal :=
  ∑ s : Fin 64, ∑ j : Fin 2048, ∑ d : Fin 256,
    (diff V c (rowAt q s j) d * diff V c (rowAt q s j) d) * (one32 - cleanWeight (word V c (rowAt q s j)))

/-- The array of the two halves' numerators. -/
abbrev totals (c : Dev nD) : Vec Ideal S2x1x1 .f32 := fun i => total V c (i 0)

/-- The loss block's index at point `t`: the half `t / 64`. -/
theorem idx_out : ∀ t : Fin cfg1.N, win1_5.index t (0 : Fin 3) = t.val / 64 ∧ win1_5.index t (1 : Fin 3) = 0
    ∧ win1_5.index t (2 : Fin 3) = 0 :=
  (by decide +kernel : ∀ t : Fin grid1.N, _)

/-- The 64 parts of the run that holds point `t` are the half's 64 tiles. -/
theorem parts_eq_total (c : Dev nD) (t : Fin cfg1.N) (i : S1x1x1.Idx) (hq : t.val / 64 < 2) :
    ∑ s : Fin 64, partAt V c (64 * (t.val / 64) + s.val) i = total V c ⟨t.val / 64, hq⟩ := by
  have hN : cfg1.N = 128 := N_1
  unfold total
  refine Finset.sum_congr rfl fun s _ => ?_
  have hs := s.isLt
  have hlt : 64 * (t.val / 64) + s.val < cfg1.N := by omega
  unfold partAt
  rw [dif_pos hlt]
  unfold tilePart
  refine Finset.sum_congr rfl fun j _ => ?_
  have er : rowOf ⟨64 * (t.val / 64) + s.val, hlt⟩ j = rowAt ⟨t.val / 64, hq⟩ s j := Fin.ext rfl
  rw [er]

/-- What a point that writes the loss block back writes: its half's entry of the totals. -/
theorem flushed_eq (c : Dev nD) (t : Fin cfg1.N) (hf : (cfg1.win 5).flush t = true) :
    (dat1 V c).flushed 5 t = ((cfg1.win 5).blk t).view.read (Elt Ideal) (totals V c) := by
  have hN : cfg1.N = 128 := N_1
  have h63 : t.val % 64 = 63 := (flush1_5 t).mp hf
  obtain ⟨e0, e1, e2⟩ := idx_out t
  have hq : t.val / 64 < 2 := by have := t.isLt; omega
  show (cfg1.win 5).cut (grid1.coords t) ((dat1 V c).after 5 t) = _
  rw [after1_5]
  funext y
  show lossAt V c t.val t.isLt ((cfg1.win 5).xinj (grid1.coords t) y) = totals V c (((cfg1.win 5).blk t).view.emb y)
  refine (lossAt_last V c t h63 _).trans ((parts_eq_total V c t _ hq).trans ?_)
  show total V c ⟨t.val / 64, hq⟩ = total V c ((((cfg1.win 5).blk t).view.emb y) 0)
  refine congrArg (total V c) (Fin.ext ?_)
  show t.val / 64 = win1_5.index t (0 : Fin 3) * 1 + 1 * (y 0).val
  have hy : (y 0).val < 1 := (y 0).isLt
  omega

/-- An entry of the array lies in point `t`'s block iff each coordinate lies in the block's range. -/
theorem mem_blk (t : Fin cfg1.N) (i : S2x1x1.Idx) :
    i ∈ ((cfg1.win 5).blk t).view.set
      ↔ ∀ a : Fin 3, win1_5.index t a * S1x1x1.size a ≤ (i a).val ∧ (i a).val < win1_5.index t a * S1x1x1.size a + S1x1x1.size a := by
  show i ∈ ((View.whole main_v30_2).slice (win1_5.rect t)).set ↔ _
  rw [View.set_slice_whole, Rect.mem_set_unit]
  exact Iff.rfl

end Final

end Loss

variable (V : (c : Dev nD) → (b : Ref sig .tc) → Buf (Elt Ideal) ((c : Thread nD τ).loc b))

/-- Half `q`'s sum of squared differences over the rows that are not clean. -/
theorem lossnum_total (c : Dev nD) (q : Fin 2) :
    ((dat1 (F := Ideal) V c).arrAt 5 cfg1.N : Vec Ideal S2x1x1 .f32) (ix3 q (0 : Fin 1) (0 : Fin 1))
      = ∑ s : Fin 64, ∑ j : Fin 2048, ∑ d : Fin 256,
          (diff V c (rowAt q s j) d * diff V c (rowAt q s j) d) * (one32 - cleanWeight (word V c (rowAt q s j))) := by
  have hN : cfg1.N = 128 := N_1
  have hq := q.isLt
  have hlt : 64 * q.val + 63 < cfg1.N := by omega
  -- the half's last tile writes the block back, and the half's entry lies in its block
  have hf : (cfg1.win 5).flush ⟨64 * q.val + 63, hlt⟩ = true :=
    (flush1_5 ⟨64 * q.val + 63, hlt⟩).mpr (by show (64 * q.val + 63) % 64 = 63; omega)
  obtain ⟨e0, e1, e2⟩ := Loss.idx_out ⟨64 * q.val + 63, hlt⟩
  have e0' : win1_5.index ⟨64 * q.val + 63, hlt⟩ (0 : Fin 3) = (64 * q.val + 63) / 64 := e0
  refine ((dat1 V c).arrAt_apply_of_mem 5 (Loss.totals V c) (Loss.flushed_eq V c) cfg1.N ⟨64 * q.val + 63, hlt⟩
    (ix3 q (0 : Fin 1) (0 : Fin 1)) hlt hf ?_).trans rfl
  rw [Loss.mem_blk]
  intro a
  match a with
  | ⟨0, _⟩ =>
    show win1_5.index ⟨64 * q.val + 63, hlt⟩ (0 : Fin 3) * 1 ≤ q.val ∧ q.val < win1_5.index ⟨64 * q.val + 63, hlt⟩ (0 : Fin 3) * 1 + 1
    omega
  | ⟨1, _⟩ =>
    show win1_5.index ⟨64 * q.val + 63, hlt⟩ (1 : Fin 3) * 1 ≤ 0 ∧ 0 < win1_5.index ⟨64 * q.val + 63, hlt⟩ (1 : Fin 3) * 1 + 1
    omega
  | ⟨2, _⟩ =>
    show win1_5.index ⟨64 * q.val + 63, hlt⟩ (2 : Fin 3) * 1 ≤ 0 ∧ 0 < win1_5.index ⟨64 * q.val + 63, hlt⟩ (2 : Fin 3) * 1 + 1
    omega

end Cert.KernelIdeal.Reduce

end
-- ==== Proof.StageIndex.lean ====
/-
  The kernel program's host stages at an index, over the extended reals.

  The label column at row `r` is the row's class if its mark is zero and the spare class 1000 otherwise; the packed
  column is twice the class plus the mark. A total over the two halves is the literal zero plus the two halves' entries;
  the slices keep the first 1000 classes of 1024, so class `k` below 1000 reads class `k`; the padded table's first
  1000 rows are the new centers' rows.
-/
import proofs.«415260_j42322607735528_3_alg».proof.Proof.KernelHost
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.HostRead

open Cert.KernelIdeal Cert.KernelIdeal.Gen

/-- Class `k` below 1000 as a class below 1024. -/
abbrev wide (k : Fin 1000) : Fin 1024 := ⟨k.val, by have := k.isLt; omega⟩

/-! ## Three layout steps read at an index given by coordinates -/

section Layout
variable {α : Type}

/-- A column `[n]` cast to `[n, 1]` reads, at `(r, u)`, the operand at `r`: both have row-major position `r`. -/
theorem shapeCast_a_a1_apply {n : ℕ} (x : (⟨1, ![n]⟩ : Shape).Idx → α)
    (h : (⟨1, ![n]⟩ : Shape).ShapeCasts ⟨2, ![n, 1]⟩) (r : Fin n) (u : Fin 1) :
    shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A vector cut from its start reads, at `j`, the source at the same position `k`. -/
theorem slice1_front_apply {n m : ℕ} (X : (⟨1, ![n]⟩ : Shape).Idx → α)
    (h : (⟨1, ![n]⟩ : Shape).Slices ![0] ⟨1, ![m]⟩) (j : Fin m) (k : Fin n) (hk : k.val = j.val) :
    extractStridedSlice ⟨1, ![m]⟩ ![0] X h (ix1 j) = X (ix1 k) :=
  extractStridedSlice_apply _ _ _ _ _ (fun ax => by
    match ax with
    | ⟨0, _⟩ => exact hk.trans (Nat.zero_add _).symm)

/-- A matrix padded after its last row only (nothing before, nothing between, nothing on the columns) reads, at a row
    `k'` that is one of the operand's rows `k`, the operand there: on both axes the padded coordinate is the operand's. -/
theorem pad_rows_after_apply {n m c p : ℕ} (x : (⟨2, ![n, c]⟩ : Shape).Idx → α) {u : Shape} (v : u.Idx → α)
    (h : (⟨2, ![n, c]⟩ : Shape).Pads (![0, 0] : Fin 2 → Nat) ![p, 0] ![0, 0] ⟨2, ![m, c]⟩) (hu : 0 < u.numel)
    (k' : Fin m) (k : Fin n) (d : Fin c) (hk : k'.val = k.val) :
    pad ⟨2, ![m, c]⟩ ![0, 0] ![p, 0] ![0, 0] x v h hu (ix2 k' d) = x (ix2 k d) := by
  have hcoord : ∀ a : Fin 2, ((ix2 k' d) (a.cast h.1)).val = ((ix2 k d) a).val := fun a => by
    match a with
    | ⟨0, _⟩ => exact hk
    | ⟨1, _⟩ => rfl
  have hin : ∀ a : Fin 2, (![0, 0] : Fin 2 → Nat) a ≤ ((ix2 k' d) (a.cast h.1)).val
      ∧ (((ix2 k' d) (a.cast h.1)).val - (![0, 0] : Fin 2 → Nat) a) % ((![0, 0] : Fin 2 → Nat) a + 1) = 0
      ∧ (((ix2 k' d) (a.cast h.1)).val - (![0, 0] : Fin 2 → Nat) a) / ((![0, 0] : Fin 2 → Nat) a + 1)
          < (⟨2, ![n, c]⟩ : Shape).size a := fun a => by
    rw [hcoord a]
    match a with
    | ⟨0, _⟩ =>
      show 0 ≤ k.val ∧ (k.val - 0) % 1 = 0 ∧ (k.val - 0) / 1 < n
      exact ⟨Nat.zero_le _, Nat.mod_one _, by rw [Nat.sub_zero, Nat.div_one]; exact k.isLt⟩
    | ⟨1, _⟩ =>
      show 0 ≤ d.val ∧ (d.val - 0) % 1 = 0 ∧ (d.val - 0) / 1 < c
      exact ⟨Nat.zero_le _, Nat.mod_one _, by rw [Nat.sub_zero, Nat.div_one]; exact d.isLt⟩
  unfold pad
  rw [dif_pos hin]
  refine congrArg x (funext fun a => Fin.ext ?_)
  show (((ix2 k' d) (a.cast h.1)).val - (![0, 0] : Fin 2 → Nat) a) / ((![0, 0] : Fin 2 → Nat) a + 1) = ((ix2 k d) a).val
  rw [hcoord a]
  match a with
  | ⟨0, _⟩ =>
    show (k.val - 0) / 1 = k.val
    rw [Nat.sub_zero, Nat.div_one]
  | ⟨1, _⟩ =>
    show (d.val - 0) / 1 = d.val
    rw [Nat.sub_zero, Nat.div_one]

end Layout

/-! ## The two integer columns -/

theorem labelsOf_apply (T P : IVec S262144 32) (r : Fin 262144) :
    labelsOf T P (ix2 r (0 : Fin 1)) = Scalar.select (IntOp.cmpi .eq (P (ix1 r)) 0#32) (T (ix1 r)) 1000#32 := by
  unfold labelsOf
  -- the cast reads row `r` of the column; there the select, the comparison and the two splat constants read pointwise
  exact (shapeCast_a_a1_apply _ _ r 0).trans rfl

theorem packedOf_apply (T P : IVec S262144 32) (r : Fin 262144) :
    packedOf T P (ix2 r (0 : Fin 1)) = IntOp.addi (IntOp.muli (T (ix1 r)) 2#32) (P (ix1 r)) := by
  unfold packedOf
  exact (shapeCast_a_a1_apply _ _ r 0).trans rfl

/-! ## The totals over the two halves

A host sum over the leading axis of extent 2, at the ideal values, is the initial value — the literal zero's word —
plus the sum over that axis's two coordinates of the operand at the index with the coordinate put back in front. -/

/-- The sum over the leading axis of a `[2, K, D]` array at `(k, d)`. -/
theorem halves_sum_2KD (a : FVec Ideal S2x1024x256 .f32) (k : Fin 1024) (d : Fin 256) :
    Host.reduceAdd a (constant (F := Ideal) S_ .f32 0x00000000#32) reducesTo_S2x1024x256_S1024x256_d0 h_S_ (ix2 k d)
      = Ideal.ofBits .f32 0x00000000#32 + ∑ q : Fin 2, a (ix3 q k d) := by
  have hR : S2x1024x256.Reduces [0] S1024x256 := by decide
  show Ideal.hostReduceAdd reducesTo_S2x1024x256_S1024x256_d0 a (Ideal.ofBits .f32 0x00000000#32) (ix2 k d) = _
  rw [Ideal.hostReduceAdd_single _ hR]
  show _ + ∑ q : Fin 2, a (hR.lift (ix2 k d) q) = _
  refine congrArg _ (Finset.sum_congr rfl fun q _ => congrArg a ?_)
  funext ax
  match ax with
  | ⟨0, _⟩ => rfl
  | ⟨1, _⟩ => rfl
  | ⟨2, _⟩ => rfl

/-- The sum over the leading axis of a `[2, 1, K]` array at `(0, k)`. -/
theorem halves_sum_21K (b : FVec Ideal S2x1x1024 .f32) (k : Fin 1024) :
    Host.reduceAdd b (constant (F := Ideal) S_ .f32 0x00000000#32) reducesTo_S2x1x1024_S1x1024_d0 h_S_ (ix2 (0 : Fin 1) k)
      = Ideal.ofBits .f32 0x00000000#32 + ∑ q : Fin 2, b (ix3 q (0 : Fin 1) k) := by
  have hR : S2x1x1024.Reduces [0] S1x1024 := by decide
  show Ideal.hostReduceAdd reducesTo_S2x1x1024_S1x1024_d0 b (Ideal.ofBits .f32 0x00000000#32) (ix2 (0 : Fin 1) k) = _
  rw [Ideal.hostReduceAdd_single _ hR]
  show _ + ∑ q : Fin 2, b (hR.lift (ix2 (0 : Fin 1) k) q) = _
  refine congrArg _ (Finset.sum_congr rfl fun q _ => congrArg b ?_)
  funext ax
  match ax with
  | ⟨0, _⟩ => rfl
  | ⟨1, _⟩ => rfl
  | ⟨2, _⟩ => rfl

theorem sumsOf_apply (a : FVec Ideal S2x1024x256 .f32) (k : Fin 1000) (d : Fin 256) :
    sumsOf (F := Ideal) a (ix2 k d) = Ideal.ofBits .f32 0x00000000#32 + ∑ q : Fin 2, a (ix3 q (wide k) d) := by
  unfold sumsOf
  -- the slice keeps the first 1000 of the 1024 classes: class `k` reads class `k`
  exact (slice2_axis0_apply 0 _ _ k d (wide k) (Nat.zero_add _).symm).trans (halves_sum_2KD a (wide k) d)

theorem countsOf_apply (b : FVec Ideal S2x1x1024 .f32) (k : Fin 1000) :
    countsOf (F := Ideal) b (ix1 k) = Ideal.ofBits .f32 0x00000000#32 + ∑ q : Fin 2, b (ix3 q (0 : Fin 1) (wide k)) := by
  unfold countsOf
  -- slice, then the unit axis dropped, then the sum over the halves
  exact (slice1_front_apply _ _ k (wide k) rfl).trans
    ((shapeCast_1a_a_apply _ _ (wide k)).trans (halves_sum_21K b (wide k)))

theorem distSumOf_apply (b : FVec Ideal S2x1x1024 .f32) (k : Fin 1000) :
    distSumOf (F := Ideal) b (ix1 k) = Ideal.ofBits .f32 0x00000000#32 + ∑ q : Fin 2, b (ix3 q (0 : Fin 1) (wide k)) := by
  unfold distSumOf
  exact (slice1_front_apply _ _ k (wide k) rfl).trans
    ((shapeCast_1a_a_apply _ _ (wide k)).trans (halves_sum_21K b (wide k)))

/-- A `[2, 1, 1]` array's indices are its leading coordinates: the other two axes have one coordinate each. -/
def idxEquiv211 : (⟨3, ![2, 1, 1]⟩ : Shape).Idx ≃ Fin 2 where
  toFun i := i 0
  invFun q := ix3 q (0 : Fin 1) (0 : Fin 1)
  left_inv i := by
    funext ax
    match ax with
    | ⟨0, _⟩ => rfl
    | ⟨1, h1⟩ =>
      have hlt : (i ⟨1, h1⟩).val < 1 := (i ⟨1, h1⟩).isLt
      exact Fin.ext (Nat.lt_one_iff.mp hlt).symm
    | ⟨2, h2⟩ =>
      have hlt : (i ⟨2, h2⟩).val < 1 := (i ⟨2, h2⟩).isLt
      exact Fin.ext (Nat.lt_one_iff.mp hlt).symm
  right_inv _ := rfl

theorem totalOf_apply (a : FVec Ideal S2x1x1 .f32) :
    totalOf (F := Ideal) a ix0 = Ideal.ofBits .f32 0x00000000#32 + ∑ q : Fin 2, a (ix3 q (0 : Fin 1) (0 : Fin 1)) := by
  unfold totalOf
  show Ideal.hostReduceAdd reducesTo_S2x1x1_S_d0_1_2 a (Ideal.ofBits .f32 0x00000000#32) ix0 = _
  -- every index reduces to the one scalar index, so the sum is over all of them, and they are the two leading coordinates
  rw [Ideal.hostReduceAdd_total _ (fun b => b.elim0)]
  refine congrArg _ ?_
  rw [← Equiv.sum_comp idxEquiv211.symm a]
  rfl

/-! ## The padded table -/

theorem tableOf_apply (cn : FVec Ideal S1000x256 .f32) (k : Fin 1000) (d : Fin 256) :
    tableOf (F := Ideal) cn (ix2 (wide k) d) = cn (ix2 k d) := by
  unfold tableOf
  -- the format change is the identity on the extended reals; row `k` below 1000 of the padded table is the operand's row
  show pad S1024x256 ![0, 0] ![24, 0] ![0, 0] cn (sitofp (F := Ideal) .f32 (constantI S_ 32 0#32))
      pads_S1000x256_S1024x256_0240_000 h_S_ (ix2 (wide k) d) = cn (ix2 k d)
  exact pad_rows_after_apply cn _ _ _ (wide k) k d rfl

end Cert.KernelIdeal.HostRead

end
-- ==== Proof.LibRowGather.lean ====
/-
  A row gather read at an index, and an all-ones mask folded by `and`.

  `x[idx]` for a matrix `x : [N, C]` and a column of row numbers `idx : [E, 1]` is StableHLO's gather with
  offset axis 1, collapsed axis 0, start index map [0], index vector axis 1 and slices of one whole row.
  Its element `(e, f)` is `x` at row `min (toNat (toInt idx[e, 0])) (N - 1)` and column `f`: the row number
  is read signed, clamped into the matrix, and does not depend on the column; the column passes through.
  So a function applied row by row commutes with the gather, whatever the row numbers are.

  A reduce by `and` from the constant 1 over words that are all 1 is 1 (the converse of reading an
  element out of a reduce that is 1).
-/
import Idealize.ShloMosaic.PureOps
import Idealize.ShloMosaic.PureOps.Reduce
import Idealize.ShloMosaic.Lib.ValueIdx
import Idealize.ShloMosaic.Lib.Affine

noncomputable section

namespace Idealize.ShloMosaic.RowGather

open Idealize.ShloMosaic Idealize.ShloMosaic.ValueIdx

variable {α : Type}

/-- The dimension numbers of a row gather: operand `[N, C]`, start indices `[E, 1]`, result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the gather reads for result row `e`: the start index read signed and clamped into `[0, N - 1]`. -/
def rowOf {N E w : Nat} (hN : 0 < N) (idx : IVec ⟨2, ![E, 1]⟩ w) (e : Fin E) : Fin N :=
  ⟨min (idx (ix2 e (0 : Fin 1))).toInt.toNat (N - 1), by omega⟩

/-- The row gather at `(e, f)` is the operand at `(rowOf e, f)`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowDims N C E wf) x idx (ix2 e f) = x (ix2 (rowOf hN idx e) f) := by
  unfold Host.gather
  congr 1
  funext a
  refine Fin.ext ?_
  match a with
  | ⟨0, _⟩ =>
    show (rowDims N C E wf).start (ix2 e f) idx 0 + (rowDims N C E wf).batchCoord (ix2 e f) 0
      + (rowDims N C E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e f) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e f) idx 1 + (rowDims N C E wf).batchCoord (ix2 e f) 1
      + (rowDims N C E wf).offCoord (ix2 e f) 1 = _
    have hs : (rowDims N C E wf).start (ix2 e f) idx 1 = 0 := by
      unfold GatherDims.start
      rw [dif_neg (fun h : (1 : Fin 2) ∈ (rowDims N C E wf).startIndexMap =>
        absurd (congrArg Fin.val (List.mem_singleton.mp h)) Nat.one_ne_zero)]
    rw [GatherDims.batchCoord_eq_zero _ _ _ List.not_mem_nil, hs]
    simp only [Nat.zero_add, Nat.add_zero]
    unfold GatherDims.offCoord
    rw [dif_pos ((GatherDims.mem_sKept _ _).mpr
      ⟨fun h : (1 : Fin 2) ∈ (rowDims N C E wf).collapsedSliceDims =>
        absurd (congrArg Fin.val (List.mem_singleton.mp h)) Nat.one_ne_zero, List.not_mem_nil⟩)]
    rfl

/-- A left fold by `and` from 1 over words that are all 1 is 1. -/
theorem foldl_andi_of_all_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    refine foldl_andi_of_all_one f l _ ?_ (fun n hn => hl n (List.mem_cons_of_mem _ hn))
    show IntOp.andi init (f a) = 1#1
    rw [h, hl a (List.mem_cons_self ..)]; rfl

/-- A `stablehlo.reduce` by `and` from 1 of an array of 1s is 1 at every result index. -/
theorem reduce_andi_of_all_one {s t u : Shape} {axes : List (Fin s.rank)} (x : s.Idx → BitVec 1)
    (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact foldl_andi_of_all_one x _ _ hinit (fun n _ => hx n)

/-! ## A row number wrapped once

`jnp` indexing adds the extent to a negative row number before it gathers. For a signed word in `[-n, n)`
the wrapped word is in `[0, n - 1]`: the range test a filling `take` makes on it passes. -/

/-- Words in `[-n, n)` wrap into `[0, n - 1]`; `lo`, `hi`, `m` are the printed constants `-n`, `n`, `n - 1`. -/
theorem wrap_in_range (n : Int) (hn : 0 < n ∧ n < 2 ^ 30) (s lo hi m : BitVec 32)
    (hlo : lo.toInt = -n) (hhi : hi.toInt = n) (hm : m.toInt = n - 1)
    (hge : IntOp.cmpi .sge s lo = 1#1) (hlt : IntOp.cmpi .slt s hi = 1#1) :
    IntOp.cmpi .sge (Scalar.select (IntOp.cmpi .slt s 0#32) (IntOp.addi s hi) s) 0#32 = 1#1
      ∧ IntOp.cmpi .sle (Scalar.select (IntOp.cmpi .slt s 0#32) (IntOp.addi s hi) s) m = 1#1 := by
  rw [IntOp.cmpi_sge, hlo] at hge
  rw [IntOp.cmpi_slt, hhi] at hlt
  have h0 : (0#32 : BitVec 32).toInt = 0 := by decide
  by_cases hneg : s.toInt < 0
  · have hc : IntOp.cmpi .slt s 0#32 = 1#1 := IntOp.cmpi_slt.mpr (by rw [h0]; exact hneg)
    have hsum : (IntOp.addi s hi).toInt = s.toInt + n := by
      rw [IntOp.addi, BitVec.toInt_add, hhi]
      exact Int.bmod_eq_of_le (by omega) (by omega)
    rw [hc, show Scalar.select 1#1 (IntOp.addi s hi) s = IntOp.addi s hi from if_pos rfl,
      IntOp.cmpi_sge, IntOp.cmpi_sle, h0, hm, hsum]
    omega
  · have hc : ¬IntOp.cmpi .slt s 0#32 = 1#1 := fun h => hneg (by have := IntOp.cmpi_slt.mp h; rwa [h0] at this)
    rw [show Scalar.select (IntOp.cmpi .slt s 0#32) (IntOp.addi s hi) s = s from if_neg hc,
      IntOp.cmpi_sge, IntOp.cmpi_sle, h0, hm]
    omega

end Idealize.ShloMosaic.RowGather

end
-- ==== Proof.LibRowScatterAdd.lean ====
/-
  A row scatter that adds, read at an index.

  For a matrix of updates $u : [E, C]$ and a column of row numbers $idx : [E, 1]$, the accumulating
  scatter into an operand $x : [N, C]$ with update window axis 1, inserted window axis 0, the map
  [0] from the index vector to the operand's axes and index vector axis 1 sends the update element
  $(r, c)$ to the operand element $(idx[r, 0], c)$: the row number is read signed and is not clamped,
  so an update whose row number is outside $0 \dots N - 1$ lands nowhere. Hence the result at
  $(k, d)$ is $x[k, d]$ plus the sum of $u[r, d]$ over the rows $r$ whose row number is $k$.

  The same with no window at all: updates $u : [E]$, operand $x : [N]$; update $r$ lands at
  $idx[r, 0]$, and the result at $k$ is $x[k]$ plus the sum of $u[r]$ over the rows numbered $k$.
-/
import Idealize.ShloMosaic.PureOps
import Idealize.ShloMosaic.PureOps.Ideal
import Idealize.ShloMosaic.Lib.ValueIdx

noncomputable section

open scoped BigOperators

namespace Idealize.ShloMosaic.RowScatterAdd

open Idealize.ShloMosaic Idealize.ShloMosaic.ValueIdx

/-! ## Rows of a matrix -/

/-- The dimension numbers of a row scatter: operand $[N, C]$, scatter indices $[E, 1]$, updates $[E, C]$. -/
abbrev rowDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section rows

variable {N C E w : Nat} (wf : ScatterDims.WF ⟨2, ![N, C]⟩ ⟨2, ![E, 1]⟩ ⟨2, ![E, C]⟩ [1] [0] [0] 1)
variable (idx : IVec ⟨2, ![E, 1]⟩ w) (r : Fin E) (c : Fin C)

/-- On the row axis the window starts at the row number of the update's row, read signed. -/
theorem rows_start_zero :
    (rowDims N C E wf).start (ix2 r c) idx 0 = (idx (ix2 r (0 : Fin 1))).toInt := by
  unfold ScatterDims.start
  rw [dif_pos (show (0 : Fin 2) ∈ (rowDims N C E wf).scatterDimsToOperandDims from List.mem_singleton.mpr rfl)]
  have hsi : (rowDims N C E wf).siIdx (ix2 r c) ⟨List.idxOf (0 : Fin 2) (rowDims N C E wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- On the column axis the window starts at zero: the index vector names no column. -/
theorem rows_start_one : (rowDims N C E wf).start (ix2 r c) idx 1 = 0 := by
  unfold ScatterDims.start
  rw [dif_neg (fun h : (1 : Fin 2) ∈ (rowDims N C E wf).scatterDimsToOperandDims =>
    absurd (congrArg Fin.val (List.mem_singleton.mp h)) Nat.one_ne_zero)]

/-- The operand's axes that are not inserted: the column axis alone. -/
theorem rows_mem_sKept (a : Fin 2) : a ∈ (rowDims N C E wf).sKept ↔ a ≠ 0 := by
  simp [ScatterDims.sKept, Shape.kept, List.mem_filter, List.mem_finRange]

/-- The row axis is inserted: the update has no coordinate on it. -/
theorem rows_window_zero : (rowDims N C E wf).window (ix2 r c) 0 = 0 := by
  unfold ScatterDims.window
  rw [dif_neg (fun h => (rows_mem_sKept wf 0).mp h rfl)]

/-- The column axis carries the update's column. -/
theorem rows_window_one : (rowDims N C E wf).window (ix2 r c) 1 = c.val := by
  unfold ScatterDims.window
  rw [dif_pos ((rows_mem_sKept wf 1).mpr (by decide))]
  rfl

/-- Update $(r, c)$ lands at $(k, d)$ exactly when row $r$ is numbered $k$ and $c = d$. -/
theorem rows_resultIdx?_eq_some (k : Fin N) (d : Fin C) :
    (rowDims N C E wf).resultIdx? (ix2 r c) idx = some (ix2 k d)
      ↔ (idx (ix2 r (0 : Fin 1))).toInt = (k.val : Int) ∧ c = d := by
  have s0 := rows_start_zero wf idx r c
  have s1 := rows_start_one wf idx r c
  have w0 := rows_window_zero wf r c
  have w1 := rows_window_one wf r c
  unfold ScatterDims.resultIdx?
  split
  · rename_i h
    rw [Option.some.injEq]
    constructor
    · intro hf
      have e0 : ((rowDims N C E wf).start (ix2 r c) idx 0 + ((rowDims N C E wf).window (ix2 r c) 0 : Nat)).toNat = k.val :=
        congrArg (fun f => (f 0).val) hf
      have e1 : ((rowDims N C E wf).start (ix2 r c) idx 1 + ((rowDims N C E wf).window (ix2 r c) 1 : Nat)).toNat = d.val :=
        congrArg (fun f => (f 1).val) hf
      have h0 := (h 0).1
      rw [s0, w0] at e0 h0
      rw [s1, w1] at e1
      exact ⟨by omega, Fin.ext (by omega)⟩
    · rintro ⟨hk, hc⟩
      funext a; refine Fin.ext ?_
      match a with
      | ⟨0, _⟩ =>
        show ((rowDims N C E wf).start (ix2 r c) idx 0 + ((rowDims N C E wf).window (ix2 r c) 0 : Nat)).toNat = k.val
        rw [s0, w0]; omega
      | ⟨1, _⟩ =>
        show ((rowDims N C E wf).start (ix2 r c) idx 1 + ((rowDims N C E wf).window (ix2 r c) 1 : Nat)).toNat = d.val
        rw [s1, w1, hc]; omega
  · rename_i h
    refine ⟨fun hf => absurd hf (by simp), ?_⟩
    rintro ⟨hk, hc⟩
    refine absurd (fun a => ?_) h
    match a with
    | ⟨0, _⟩ =>
      show 0 ≤ (rowDims N C E wf).start (ix2 r c) idx 0 + ((rowDims N C E wf).window (ix2 r c) 0 : Nat)
        ∧ (rowDims N C E wf).start (ix2 r c) idx 0 + ((rowDims N C E wf).window (ix2 r c) 0 : Nat) < (N : Int)
      rw [s0, w0]; have := k.isLt; omega
    | ⟨1, _⟩ =>
      show 0 ≤ (rowDims N C E wf).start (ix2 r c) idx 1 + ((rowDims N C E wf).window (ix2 r c) 1 : Nat)
        ∧ (rowDims N C E wf).start (ix2 r c) idx 1 + ((rowDims N C E wf).window (ix2 r c) 1 : Nat) < (C : Int)
      rw [s1, w1]; have := c.isLt; omega

/-- The row scatter that adds, at $(k, d)$: the operand there plus the updates' column $d$ summed over the rows
    numbered $k$. -/
theorem scatterAdd_rows_apply (x : (⟨2, ![N, C]⟩ : Shape).Idx → EReal) (upd : (⟨2, ![E, C]⟩ : Shape).Idx → EReal)
    (k : Fin N) (d : Fin C) :
    Ideal.hostScatterAdd (rowDims N C E wf) x idx upd (ix2 k d)
      = x (ix2 k d)
        + ∑ r : Fin E, if (idx (ix2 r (0 : Fin 1))).toInt = (k.val : Int) then upd (ix2 r d) else 0 := by
  unfold Ideal.hostScatterAdd
  congr 1
  rw [Finset.sum_filter, sum_idx2]
  refine Finset.sum_congr rfl fun r _ => ?_
  by_cases hk : (idx (ix2 r (0 : Fin 1))).toInt = (k.val : Int)
  · rw [if_pos hk, Finset.sum_eq_single d]
    · exact if_pos ((rows_resultIdx?_eq_some wf idx r d k d).mpr ⟨hk, rfl⟩)
    · intro c _ hc
      exact if_neg (fun h => hc ((rows_resultIdx?_eq_some wf idx r c k d).mp h).2)
    · intro h; exact absurd (Finset.mem_univ d) h
  · rw [if_neg hk]
    exact Finset.sum_eq_zero fun c _ => if_neg (fun h => hk ((rows_resultIdx?_eq_some wf idx r c k d).mp h).1)

end rows

/-! ## Entries of a vector -/

/-- The dimension numbers of an entry scatter: operand $[N]$, scatter indices $[E, 1]$, updates $[E]$. -/
abbrev entryDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A sum over the indices of a vector is the sum over its entries' numbers. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    (fun i => congrArg f (eq_ix1 i))

section entries

variable {N E w : Nat} (wf : ScatterDims.WF ⟨1, ![N]⟩ ⟨2, ![E, 1]⟩ ⟨1, ![E]⟩ [] [0] [0] 1)
variable (idx : IVec ⟨2, ![E, 1]⟩ w) (r : Fin E)

/-- The window starts at the number of the update's entry, read signed. -/
theorem entries_start :
    (entryDims N E wf).start (ix1 r) idx 0 = (idx (ix2 r (0 : Fin 1))).toInt := by
  unfold ScatterDims.start
  rw [dif_pos (show (0 : Fin 1) ∈ (entryDims N E wf).scatterDimsToOperandDims from List.mem_singleton.mpr rfl)]
  have hsi : (entryDims N E wf).siIdx (ix1 r) ⟨List.idxOf (0 : Fin 1) (entryDims N E wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- The operand's one axis is inserted: no axis is left for a window. -/
theorem entries_not_mem_sKept (a : Fin 1) : a ∉ (entryDims N E wf).sKept := by
  have : a = 0 := Subsingleton.elim _ _
  simp [ScatterDims.sKept, Shape.kept, List.mem_filter, List.mem_finRange, this]

/-- The update has no window coordinate. -/
theorem entries_window : (entryDims N E wf).window (ix1 r) 0 = 0 := by
  unfold ScatterDims.window
  rw [dif_neg (entries_not_mem_sKept wf 0)]

/-- Update $r$ lands at $k$ exactly when entry $r$ is numbered $k$. -/
theorem entries_resultIdx?_eq_some (k : Fin N) :
    (entryDims N E wf).resultIdx? (ix1 r) idx = some (ix1 k)
      ↔ (idx (ix2 r (0 : Fin 1))).toInt = (k.val : Int) := by
  have s0 := entries_start wf idx r
  have w0 := entries_window wf r
  unfold ScatterDims.resultIdx?
  split
  · rename_i h
    rw [Option.some.injEq]
    constructor
    · intro hf
      have e0 : ((entryDims N E wf).start (ix1 r) idx 0 + ((entryDims N E wf).window (ix1 r) 0 : Nat)).toNat = k.val :=
        congrArg (fun f => (f 0).val) hf
      have h0 := (h 0).1
      rw [s0, w0] at e0 h0
      omega
    · intro hk
      funext a; refine Fin.ext ?_
      match a with
      | ⟨0, _⟩ =>
        show ((entryDims N E wf).start (ix1 r) idx 0 + ((entryDims N E wf).window (ix1 r) 0 : Nat)).toNat = k.val
        rw [s0, w0]; omega
  · rename_i h
    refine ⟨fun hf => absurd hf (by simp), fun hk => ?_⟩
    refine absurd (fun a => ?_) h
    match a with
    | ⟨0, _⟩ =>
      show 0 ≤ (entryDims N E wf).start (ix1 r) idx 0 + ((entryDims N E wf).window (ix1 r) 0 : Nat)
        ∧ (entryDims N E wf).start (ix1 r) idx 0 + ((entryDims N E wf).window (ix1 r) 0 : Nat) < (N : Int)
      rw [s0, w0]; have := k.isLt; omega

/-- The entry scatter that adds, at $k$: the operand there plus the updates summed over the entries numbered $k$. -/
theorem scatterAdd_entries_apply (x : (⟨1, ![N]⟩ : Shape).Idx → EReal) (upd : (⟨1, ![E]⟩ : Shape).Idx → EReal)
    (k : Fin N) :
    Ideal.hostScatterAdd (entryDims N E wf) x idx upd (ix1 k)
      = x (ix1 k) + ∑ r : Fin E, if (idx (ix2 r (0 : Fin 1))).toInt = (k.val : Int) then upd (ix1 r) else 0 := by
  unfold Ideal.hostScatterAdd
  congr 1
  rw [Finset.sum_filter, sum_idx1]
  refine Finset.sum_congr rfl fun r _ => ?_
  by_cases hk : (idx (ix2 r (0 : Fin 1))).toInt = (k.val : Int)
  · rw [if_pos hk]; exact if_pos ((entries_resultIdx?_eq_some wf idx r k).mpr hk)
  · rw [if_neg hk]; exact if_neg (fun h => hk ((entries_resultIdx?_eq_some wf idx r k).mp h))

end entries

end Idealize.ShloMosaic.RowScatterAdd

end
-- ==== Proof.RefStages.lean ====
/-
  The reference's stages that depend on the data, read at an index.

  A segment sum is a scatter that adds row `r` of the updates into row `seg r` of a zero array of 1001 rows: its row
  `k` is the sum of the rows whose segment is `k`, which is the sum over ALL rows of the one-hot weight of `seg r` at
  `k` times the row (a segment outside 0 … 1000 lands nowhere and has weight zero at every `k`). The segment of a row is
  its class if its mark is zero and 1000 otherwise. A take `table[class]` of a class in range reads the table's row
  of that class.
-/
import proofs.«415260_j42322607735528_3_alg».proof.Proof.RefRead
import proofs.«415260_j42322607735528_3_alg».proof.Proof.Common
import proofs.«415260_j42322607735528_3_alg».proof.Proof.LibRowGather
import proofs.«415260_j42322607735528_3_alg».proof.Proof.LibRowScatterAdd
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.Stages

open Cert.ReferenceIdeal Cert.ReferenceIdeal.Gen Cert.ReferenceIdeal.Read Cert.CenterStats

variable (X : (⟨S262144x256, .f32⟩ : BufTy).Contents (Elt Ideal)) (Cn : (⟨S1000x256, .f32⟩ : BufTy).Contents (Elt Ideal))
variable (T P : (⟨S262144, .i32⟩ : BufTy).Contents (Elt Ideal))

/-- The segment of a row of class `t` and mark `p`: the class if the mark is zero, the spare segment 1000 otherwise. -/
def segWord (t p : BitVec 32) : BitVec 32 := Scalar.select (IntOp.cmpi .eq p 0#32) t 1000#32
/-- The weight of a row of mark `p`: one if the mark is zero, zero otherwise. -/
def markWeight (p : BitVec 32) : EReal := FloatOps.uitofp (F := Ideal) .f32 (IntOp.cmpi .eq p 0#32)

/-- A word read signed is the number `k` exactly when it is the word of `k`, for `k` below 1001; so keeping a
    term where the word reads `k` is weighting it by the one-hot weight of the word at `k`. -/
theorem ite_toInt_eq_hot (s : BitVec 32) (k : Nat) (hk : k < 1001) (a : EReal) :
    (if s.toInt = (k : Int) then a else 0) = hot s k * a := by
  have hof : (BitVec.ofNat 32 k).toInt = (k : Int) := by
    rw [BitVec.toInt_ofNat']
    exact Int.bmod_eq_of_le (by omega) (by omega)
  by_cases h : s = BitVec.ofNat 32 k
  · rw [if_pos (by rw [h, hof]), hot_eq s k h, one_mul]
  · rw [if_neg (fun e => h (BitVec.eq_of_toInt_eq (by rw [e, hof]))), hot_ne s k h, zero_mul]

/-- The segment column, at row `r`. -/
theorem seg_apply (r : Fin 262144) :
    val_main_v3 (F := Ideal) T P (ix1 r) = segWord (T (ix1 r)) (P (ix1 r)) := by
  rw [val_main_v3_apply, val_main_v1_apply, val_main_v0_apply, val_main_c_apply, val_main_call0_v1_apply,
    val_main_call0_v0_apply, val_main_c_0_apply]
  rfl

/-- The mark's weight, at row `r`. -/
theorem weight_at (r : Fin 262144) : val_main_v2 (F := Ideal) P (ix1 r) = markWeight (P (ix1 r)) := by
  rw [val_main_v2_apply, val_main_v1_apply, val_main_v0_apply, val_main_c_apply]
  rfl

/-- The weighted sample, at row `r` and column `d`. -/
theorem weighted_at (r : Fin 262144) (d : Fin 256) :
    val_main_v6 (F := Ideal) X P (ix2 r d) = X (ix2 r d) * markWeight (P (ix1 r)) := by
  rw [val_main_v6_apply, val_main_v5_apply, val_main_v4_apply,
    show idx_main_v4 (idx_main_v5 (ix2 r d)) = ix1 r from funext fun a => match a with | ⟨0, _⟩ => rfl,
    weight_at]
  rfl

/-- The segment column as the first scatter reads it, at row `r`. -/
theorem seg8_at (r : Fin 262144) :
    val_main_v8 (F := Ideal) T P (ix2 r (0 : Fin 1)) = segWord (T (ix1 r)) (P (ix1 r)) := by
  rw [val_main_v8_apply,
    show idx_main_v8 (ix2 r (0 : Fin 1)) = ix1 r from funext fun a => match a with | ⟨0, _⟩ => rfl,
    seg_apply]

/-- The segment column as the second scatter reads it, at row `r`. -/
theorem seg12_at (r : Fin 262144) :
    val_main_v12 (F := Ideal) T P (ix2 r (0 : Fin 1)) = segWord (T (ix1 r)) (P (ix1 r)) := by
  rw [val_main_v12_apply,
    show idx_main_v12 (ix2 r (0 : Fin 1)) = ix1 r from funext fun a => match a with | ⟨0, _⟩ => rfl,
    seg_apply]

/-- The segment column as the third scatter reads it, at row `r`. -/
theorem seg44_at (r : Fin 262144) :
    val_main_v44 (F := Ideal) T P (ix2 r (0 : Fin 1)) = segWord (T (ix1 r)) (P (ix1 r)) := by
  rw [val_main_v44_apply,
    show idx_main_v44 (ix2 r (0 : Fin 1)) = ix1 r from funext fun a => match a with | ⟨0, _⟩ => rfl,
    seg_apply]

/-- The per-class sums: row `k`, column `d`. -/
theorem sums_apply (k : Fin 1000) (d : Fin 256) :
    val_main_v10 (F := Ideal) X T P (ix2 k d)
      = Ideal.ofBits .f32 0x00000000#32
        + ∑ r : Fin 262144, hot (segWord (T (ix1 r)) (P (ix1 r))) k.val * (X (ix2 r d) * markWeight (P (ix1 r))) := by
  have hk : k.val < 1001 := by have := k.isLt; omega
  rw [val_main_v10_apply,
    show idx_main_v10 (ix2 k d) = ix2 (⟨k.val, hk⟩ : Fin 1001) d from
      funext fun a => match a with | ⟨0, _⟩ => rfl | ⟨1, _⟩ => rfl]
  show Ideal.hostScatterAdd (RowScatterAdd.rowDims 1001 256 262144 _) (val_main_v7 (F := Ideal))
    (val_main_v8 (F := Ideal) T P) (val_main_v6 (F := Ideal) X P) (ix2 (⟨k.val, hk⟩ : Fin 1001) d) = _
  rw [RowScatterAdd.scatterAdd_rows_apply, val_main_v7_apply, val_main_cst_apply]
  refine congrArg (Ideal.ofBits .f32 0x00000000#32 + ·) (Finset.sum_congr rfl fun r _ => ?_)
  rw [seg8_at, weighted_at]
  exact ite_toInt_eq_hot _ k.val hk _

/-- The per-class counts: class `k`. -/
theorem counts_apply (k : Fin 1000) :
    val_main_v14 (F := Ideal) T P (ix1 k)
      = Ideal.ofBits .f32 0x00000000#32
        + ∑ r : Fin 262144, hot (segWord (T (ix1 r)) (P (ix1 r))) k.val * markWeight (P (ix1 r)) := by
  have hk : k.val < 1001 := by have := k.isLt; omega
  rw [val_main_v14_apply,
    show idx_main_v14 (ix1 k) = ix1 (⟨k.val, hk⟩ : Fin 1001) from funext fun a => match a with | ⟨0, _⟩ => rfl]
  show Ideal.hostScatterAdd (RowScatterAdd.entryDims 1001 262144 _) (val_main_v11 (F := Ideal))
    (val_main_v12 (F := Ideal) T P) (val_main_v2 (F := Ideal) P) (ix1 (⟨k.val, hk⟩ : Fin 1001)) = _
  rw [RowScatterAdd.scatterAdd_entries_apply, val_main_v11_apply, val_main_cst_1_apply]
  refine congrArg (Ideal.ofBits .f32 0x00000000#32 + ·) (Finset.sum_congr rfl fun r _ => ?_)
  rw [seg12_at, weight_at]
  exact ite_toInt_eq_hot _ k.val hk _

/-- The per-class sums of the weighted distances: class `k`. -/
theorem distsum_apply (k : Fin 1000) :
    val_main_v46 (F := Ideal) X Cn T P (ix1 k)
      = Ideal.ofBits .f32 0x00000000#32
        + ∑ r : Fin 262144, hot (segWord (T (ix1 r)) (P (ix1 r))) k.val * val_main_v42 (F := Ideal) X Cn T P (ix1 r) := by
  have hk : k.val < 1001 := by have := k.isLt; omega
  rw [val_main_v46_apply,
    show idx_main_v46 (ix1 k) = ix1 (⟨k.val, hk⟩ : Fin 1001) from funext fun a => match a with | ⟨0, _⟩ => rfl]
  show Ideal.hostScatterAdd (RowScatterAdd.entryDims 1001 262144 _) (val_main_v43 (F := Ideal))
    (val_main_v44 (F := Ideal) T P) (val_main_v42 (F := Ideal) X Cn T P) (ix1 (⟨k.val, hk⟩ : Fin 1001)) = _
  rw [RowScatterAdd.scatterAdd_entries_apply, val_main_v43_apply, val_main_cst_10_apply]
  refine congrArg (Ideal.ofBits .f32 0x00000000#32 + ·) (Finset.sum_congr rfl fun r _ => ?_)
  rw [seg44_at]
  exact ite_toInt_eq_hot _ k.val hk _

/-- The row a class in range names. -/
def classRow (t : BitVec 32) (h : 0 ≤ t.toInt ∧ t.toInt < 1000) : Fin 1000 := ⟨t.toInt.toNat, by omega⟩

/-- A class that is not negative is left as it is by the wrap of negative classes. -/
theorem wrap_of_nonneg (t : BitVec 32) (h : 0 ≤ t.toInt) :
    Scalar.select (IntOp.cmpi .slt t 0#32) (IntOp.addi t 1000#32) t = t :=
  if_neg fun hc => by
    have := IntOp.cmpi_slt.mp hc
    rw [show (0#32 : BitVec 32).toInt = 0 from by decide] at this
    omega

/-- The wrapped class column as the first take reads it, at row `r`. -/
theorem class34_at (r : Fin 262144) :
    val_main_v34 (F := Ideal) T (ix2 r (0 : Fin 1))
      = Scalar.select (IntOp.cmpi .slt (T (ix1 r)) 0#32) (IntOp.addi (T (ix1 r)) 1000#32) (T (ix1 r)) := by
  rw [val_main_v34_apply,
    show idx_main_v34 (ix2 r (0 : Fin 1)) = ix1 r from funext fun a => match a with | ⟨0, _⟩ => rfl,
    val_main_v33_apply, val_main_v30_apply, val_main_v29_apply, val_main_c_6_apply, val_main_v32_apply,
    val_main_v31_apply, val_main_c_7_apply]

/-- The wrapped class column as the second take reads it, at row `r`. -/
theorem class61_at (r : Fin 262144) :
    val_main_v61 (F := Ideal) T (ix2 r (0 : Fin 1))
      = Scalar.select (IntOp.cmpi .slt (T (ix1 r)) 0#32) (IntOp.addi (T (ix1 r)) 1000#32) (T (ix1 r)) := by
  rw [val_main_v61_apply,
    show idx_main_v61 (ix2 r (0 : Fin 1)) = ix1 r from funext fun a => match a with | ⟨0, _⟩ => rfl,
    val_main_v60_apply, val_main_v57_apply, val_main_v56_apply, val_main_c_14_apply, val_main_v59_apply,
    val_main_v58_apply, val_main_c_15_apply]

/-- The take of the new centers at the rows' classes (the one feeding the distances), classes in range. -/
theorem take35_apply (hT : ∀ r : Fin 262144, 0 ≤ (T (ix1 r)).toInt ∧ (T (ix1 r)).toInt < 1000) (r : Fin 262144) (d : Fin 256) :
    val_main_v35 (F := Ideal) X Cn T P (ix2 r d)
      = val_main_v28 (F := Ideal) X Cn T P (ix2 (classRow (T (ix1 r)) (hT r)) d) := by
  show Host.gather (RowGather.rowDims 1000 256 262144 _) (val_main_v28 (F := Ideal) X Cn T P)
    (val_main_v34 (F := Ideal) T) (ix2 r d) = _
  rw [RowGather.gather_rows_apply (by decide : 0 < 1000)]
  have hrow : RowGather.rowOf (by decide : 0 < 1000) (val_main_v34 (F := Ideal) T) r
      = classRow (T (ix1 r)) (hT r) := by
    refine Fin.ext ?_
    show min (val_main_v34 (F := Ideal) T (ix2 r (0 : Fin 1))).toInt.toNat (1000 - 1) = (T (ix1 r)).toInt.toNat
    rw [class34_at, wrap_of_nonneg _ (hT r).1]
    have := hT r
    omega
  rw [hrow]

/-- The same take where it feeds the loss. -/
theorem take62_apply (hT : ∀ r : Fin 262144, 0 ≤ (T (ix1 r)).toInt ∧ (T (ix1 r)).toInt < 1000) (r : Fin 262144) (d : Fin 256) :
    val_main_v62 (F := Ideal) X Cn T P (ix2 r d)
      = val_main_v28 (F := Ideal) X Cn T P (ix2 (classRow (T (ix1 r)) (hT r)) d) := by
  show Host.gather (RowGather.rowDims 1000 256 262144 _) (val_main_v28 (F := Ideal) X Cn T P)
    (val_main_v61 (F := Ideal) T) (ix2 r d) = _
  rw [RowGather.gather_rows_apply (by decide : 0 < 1000)]
  have hrow : RowGather.rowOf (by decide : 0 < 1000) (val_main_v61 (F := Ideal) T) r
      = classRow (T (ix1 r)) (hT r) := by
    refine Fin.ext ?_
    show min (val_main_v61 (F := Ideal) T (ix2 r (0 : Fin 1))).toInt.toNat (1000 - 1) = (T (ix1 r)).toInt.toNat
    rw [class61_at, wrap_of_nonneg _ (hT r).1]
    have := hT r
    omega
  rw [hrow]

end Cert.ReferenceIdeal.Stages

end
-- ==== Proof.BridgeStats.lean ====
/-
  The first pass against the reference's segment sums.

  The kernel's per-class sum is, over the two halves, the sum over all rows of the one-hot weight of the row's label
  times the row's entry; the label is the row's segment. The reference's is the sum over the rows whose segment is the
  class of the row's entry times the row's clean weight. A row whose segment is a class below 1000 is a clean row, of
  weight one; a row of any other segment has one-hot weight zero at that class. So the two sums agree term by term.
  The counts are the same with the entry replaced by one.
-/
import proofs.«415260_j42322607735528_3_alg».proof.Proof.RefStages
import proofs.«415260_j42322607735528_3_alg».proof.Proof.Common
import Idealize.ShloMosaic.Lib.ValueIdx

noncomputable section

open scoped BigOperators
open Idealize.ShloMosaic Idealize.ShloMosaic.ValueIdx

namespace Cert.CenterStats

open Cert.ReferenceIdeal Cert.ReferenceIdeal.Read Cert.ReferenceIdeal.Stages

variable (X : (⟨S262144x256, .f32⟩ : BufTy).Contents (Elt Ideal)) (T P : (⟨S262144, .i32⟩ : BufTy).Contents (Elt Ideal))

/-- Class `k` below 1000 as a class below 1024. -/
abbrev wide (k : Fin 1000) : Fin 1024 := ⟨k.val, by have := k.isLt; omega⟩

/-- The equality test of a word against itself is the set bit. -/
theorem cmpi_eq_self (p : BitVec 32) : IntOp.cmpi .eq p p = 1#1 := by
  simp [IntOp.cmpi]

/-- The equality test of two different words is the clear bit. -/
theorem cmpi_eq_of_ne {p q : BitVec 32} (h : ¬p = q) : IntOp.cmpi .eq p q = 0#1 := by
  have hb : (p == q) = false := by simpa using h
  simp [IntOp.cmpi, hb]

/-- A row of mark zero has weight one. -/
theorem markWeight_zero : markWeight 0#32 = 1 := by
  unfold markWeight
  rw [cmpi_eq_self]
  show (((1#1 : BitVec 1).toNat : ℝ) : EReal) = 1
  simp

/-- A row of mark zero lies in the segment of its class. -/
theorem segWord_zero (t : BitVec 32) : segWord t 0#32 = t := by
  unfold segWord
  rw [cmpi_eq_self, select_one]

/-- A row of any other mark lies in the spare segment 1000. -/
theorem segWord_of_ne (t : BitVec 32) {p : BitVec 32} (h : ¬p = 0#32) : segWord t p = 1000#32 := by
  unfold segWord
  rw [cmpi_eq_of_ne h, select_zero]

/-- The spare segment is no class below 1000. -/
theorem spare_ne (k : Fin 1000) : ¬(1000#32 : BitVec 32) = BitVec.ofNat 32 k.val := by
  intro h
  have h' := congrArg BitVec.toNat h
  have := k.isLt
  simp only [BitVec.toNat_ofNat] at h'
  omega

/-- At a class below 1000 the one-hot weight of a row's segment already carries the row's clean weight: a marked row
    lies in the spare segment, of one-hot weight zero at the class, and an unmarked row has clean weight one. -/
theorem hot_mul_markWeight (t p : BitVec 32) (k : Fin 1000) (x : EReal) :
    hot (segWord t p) k.val * x = hot (segWord t p) k.val * (x * markWeight p) := by
  by_cases hp : p = 0#32
  · subst hp
    rw [markWeight_zero, mul_one]
  · rw [segWord_of_ne t hp, hot_ne _ _ (spare_ne k), zero_mul, zero_mul]

/-- The same for the count, where the entry is one. -/
theorem hot_eq_mul_markWeight (t p : BitVec 32) (k : Fin 1000) :
    hot (segWord t p) k.val = hot (segWord t p) k.val * markWeight p := by
  have h := hot_mul_markWeight t p k 1
  rwa [mul_one, one_mul] at h

/-- The two halves' sum blocks, added from zero, are the reference's per-class sums. -/
theorem sums_bridge
    (a : (⟨3, ![2, 1024, 256]⟩ : Shape).Idx → EReal) (L : (⟨2, ![262144, 1]⟩ : Shape).Idx → BitVec 32)
    (hL : ∀ r : Fin 262144, L (ix2 r (0 : Fin 1)) = segWord (T (ix1 r)) (P (ix1 r)))
    (ha : ∀ (q : Fin 2) (k : Fin 1024) (d : Fin 256), a (ix3 q k d)
      = ∑ s : Fin 64, ∑ j : Fin 2048, hot (L (ix2 (rowAt q s j) (0 : Fin 1))) k.val * X (ix2 (rowAt q s j) d))
    (k : Fin 1000) (d : Fin 256) :
    Ideal.ofBits .f32 0x00000000#32 + ∑ q : Fin 2, a (ix3 q (wide k) d)
      = val_main_v10 (F := Ideal) X T P (ix2 k d) := by
  rw [sums_apply]
  refine congrArg (fun z => Ideal.ofBits .f32 0x00000000#32 + z) ?_
  simp only [ha]
  refine (sum_rows (fun r => hot (L (ix2 r (0 : Fin 1))) (wide k).val * X (ix2 r d))).trans ?_
  refine Finset.sum_congr rfl fun r _ => ?_
  rw [hL r]
  exact hot_mul_markWeight (T (ix1 r)) (P (ix1 r)) k (X (ix2 r d))

/-- The two halves' count blocks, added from zero, are the reference's per-class counts. -/
theorem counts_bridge
    (b : (⟨3, ![2, 1, 1024]⟩ : Shape).Idx → EReal) (L : (⟨2, ![262144, 1]⟩ : Shape).Idx → BitVec 32)
    (hL : ∀ r : Fin 262144, L (ix2 r (0 : Fin 1)) = segWord (T (ix1 r)) (P (ix1 r)))
    (hb : ∀ (q : Fin 2) (k : Fin 1024), b (ix3 q (0 : Fin 1) k)
      = ∑ s : Fin 64, ∑ j : Fin 2048, hot (L (ix2 (rowAt q s j) (0 : Fin 1))) k.val)
    (k : Fin 1000) :
    Ideal.ofBits .f32 0x00000000#32 + ∑ q : Fin 2, b (ix3 q (0 : Fin 1) (wide k))
      = val_main_v14 (F := Ideal) T P (ix1 k) := by
  rw [counts_apply]
  refine congrArg (fun z => Ideal.ofBits .f32 0x00000000#32 + z) ?_
  simp only [hb]
  refine (sum_rows (fun r => hot (L (ix2 r (0 : Fin 1))) (wide k).val)).trans ?_
  refine Finset.sum_congr rfl fun r _ => ?_
  rw [hL r]
  exact hot_eq_mul_markWeight (T (ix1 r)) (P (ix1 r)) k

end Cert.CenterStats

end
-- ==== Proof.LibRealValued.lean ====
/-
  Extended reals that are real numbers.

  An extended real is REAL when it is the image of a real number, that is, neither infinity. The real ones are closed
  under the field operations and finite sums, under maximum, under the square root, under the exact quotient by a real
  that is at least one, and under a selection between two of them; a word read as a number is real; and a real number
  minus itself is zero, which fails at the infinities and is the reason one needs the notion at all.
-/
import Idealize.ShloMosaic.PureOps.Ideal

noncomputable section

open scoped BigOperators

namespace Idealize.ShloMosaic.RealValued

open Idealize.ShloMosaic

/-- `x` is the image of a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩
theorem IsReal.neg {x : EReal} (hx : IsReal x) : IsReal (-x) := by
  obtain ⟨a, rfl⟩ := hx
  exact ⟨-a, (EReal.coe_neg a).symm⟩
theorem IsReal.sub {x y : EReal} (hx : IsReal x) (hy : IsReal y) : IsReal (x - y) := by
  obtain ⟨a, rfl⟩ := hx; obtain ⟨b, rfl⟩ := hy
  exact ⟨a - b, (EReal.coe_sub a b).symm⟩
theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.max {x y : EReal} (hx : IsReal x) (hy : IsReal y) : IsReal (max x y) := by
  obtain ⟨a, rfl⟩ := hx; obtain ⟨b, rfl⟩ := hy
  -- the order of the reals is that of their images, so the larger image is the image of the larger
  rcases le_total a b with hab | hab
  · rw [max_eq_right (EReal.coe_le_coe_iff.2 hab)]; exact ⟨b, rfl⟩
  · rw [max_eq_left (EReal.coe_le_coe_iff.2 hab)]; exact ⟨a, rfl⟩
/-- A finite sum of real terms is real. -/
theorem IsReal.sum {ι : Type*} (s : Finset ι) (f : ι → EReal) (h : ∀ i ∈ s, IsReal (f i)) : IsReal (∑ i ∈ s, f i) :=
  -- zero is real and the sum of two reals is real, so every partial sum is
  Finset.sum_induction f IsReal (fun _ _ ha hb => ha.add hb) isReal_zero h
/-- A real number minus itself is zero. -/
theorem IsReal.sub_self {x : EReal} (hx : IsReal x) : x - x = 0 := by
  obtain ⟨a, rfl⟩ := hx
  rw [← EReal.coe_sub, _root_.sub_self, EReal.coe_zero]
/-- The root of a nonnegative real is real. -/
theorem IsReal.sqrt {x : EReal} (hx : IsReal x) (h0 : (0 : EReal) ≤ x) : IsReal (Ideal.sqrt x) := by
  obtain ⟨a, rfl⟩ := hx
  have ha : ¬ a < 0 := not_lt.2 (by exact_mod_cast h0)
  rw [Ideal.sqrt_coe, if_neg ha]
  exact ⟨Real.sqrt a, rfl⟩
/-- A real squared is nonnegative. -/
theorem IsReal.mul_self_nonneg {x : EReal} (hx : IsReal x) : (0 : EReal) ≤ x * x := by
  obtain ⟨a, rfl⟩ := hx
  rw [← EReal.coe_mul]
  exact_mod_cast _root_.mul_self_nonneg a
/-- The exact quotient of a real by a real that is at least one is real. -/
theorem IsReal.div_of_one_le {x y : EReal} (hx : IsReal x) (hy : IsReal y) (h1 : (1 : EReal) ≤ y) : IsReal (Ideal.div x y) := by
  obtain ⟨a, rfl⟩ := hx; obtain ⟨b, rfl⟩ := hy
  -- the divisor is not zero, so the quotient is the product with the inverse, and the inverse of a real is real
  have hb : (1 : ℝ) ≤ b := by exact_mod_cast h1
  have hb0 : ((b : ℝ) : EReal) ≠ 0 := by
    intro e
    have : b = 0 := by exact_mod_cast e
    linarith
  unfold Ideal.div
  rw [if_neg hb0, ← EReal.coe_inv, ← EReal.coe_mul]
  exact ⟨a * b⁻¹, rfl⟩
/-- A selection between two reals is real. -/
theorem isReal_select (c : BitVec 1) {a b : EReal} (ha : IsReal a) (hb : IsReal b) : IsReal (Scalar.select c a b) := by
  unfold Scalar.select
  split
  · exact ha
  · exact hb
/-- A signed word read as a number is real. -/
theorem isReal_sitofp {w : Nat} (b : BitVec w) : IsReal (FloatOps.sitofp (F := Ideal) .f32 b) :=
  ⟨(b.toInt : ℝ), rfl⟩
/-- An unsigned word read as a number is real. -/
theorem isReal_uitofp {w : Nat} (b : BitVec w) : IsReal (FloatOps.uitofp (F := Ideal) .f32 b) :=
  ⟨(b.toNat : ℝ), rfl⟩
/-- The maximum with one is at least one. -/
theorem one_le_max_one (x : EReal) : (1 : EReal) ≤ max x 1 := le_max_right x 1

/-- A 32-bit float pattern whose eight exponent bits are not all set denotes a real number: a zero or subnormal
    (exponent field zero) or a normal one, in either case a signed integer times a power of two. -/
theorem isReal_ofBits_f32 (b : BitVec 32) (hb : (b.extractLsb' 23 8).toNat ≠ 2 ^ 8 - 1) : IsReal (Ideal.ofBits .f32 b) := by
  show IsReal (Ideal.ieee 8 23 b)
  unfold Ideal.ieee
  dsimp only
  rw [if_neg hb]
  split
  · exact ⟨_, rfl⟩
  · exact ⟨_, rfl⟩

/-! The literals both programs print are finite. -/
theorem isReal_lit_zero : IsReal (Ideal.ofBits .f32 0x00000000#32) :=
  isReal_ofBits_f32 _ (by decide)
theorem lit_one : Ideal.ofBits .f32 0x3F800000#32 = (1 : EReal) := by
  -- exponent field 127, fraction 0: the value is 2²³ · 2⁻²³
  simp [Ideal.ofBits, Ideal.ieee]
  rw [← EReal.coe_mul, ← EReal.coe_one, EReal.coe_eq_coe_iff]
  norm_num
theorem isReal_lit_eps : IsReal (Ideal.ofBits .f32 0x358637BD#32) :=
  isReal_ofBits_f32 _ (by decide)
theorem isReal_lit_momentum : IsReal (Ideal.ofBits .f32 0x3F7D70A4#32) :=
  isReal_ofBits_f32 _ (by decide)
theorem isReal_lit_rate : IsReal (Ideal.ofBits .f32 0x3C23D70A#32) :=
  isReal_ofBits_f32 _ (by decide)
theorem isReal_lit_width : IsReal (Ideal.ofBits .f32 0x43800000#32) :=
  isReal_ofBits_f32 _ (by decide)

end Idealize.ShloMosaic.RealValued

end
-- ==== Proof.BridgeReduce.lean ====
/-
  The second pass against the reference's distances, count and loss.

  With every class in 0 … 999 and every mark 0 or 1, the packed word `2 · class + mark` gives back the class (shifted
  right by one) and the clean weight (low bit clear: one if the mark is zero, else zero). The one-hot product with the
  padded table picks the table's row of the class, which is the new centers' row of that class: what the reference's
  take reads. So the difference, the distance, the weighted distance and the squared difference of a row are the
  reference's, row by row. The class sums of the weighted distances agree with the reference's segment sums because a
  marked row contributes zero on both sides (its weight is zero here, its segment is the spare one there) and a clean row
  has its class as its segment; the totals over the two halves re-index the sum over all rows.
-/
import proofs.«415260_j42322607735528_3_alg».proof.Proof.RefStages
import proofs.«415260_j42322607735528_3_alg».proof.Proof.Common
import proofs.«415260_j42322607735528_3_alg».proof.Proof.LibRealValued
import Idealize.ShloMosaic.Lib.ValueIdx
import Idealize.ShloMosaic.Lib.ValueIdxRank1
import Idealize.ShloMosaic.PureOps.Ideal.Laws

noncomputable section

open scoped BigOperators
open Idealize.ShloMosaic Idealize.ShloMosaic.ValueIdx

namespace Cert.CenterStats

open Cert.ReferenceIdeal Cert.ReferenceIdeal.Read Cert.ReferenceIdeal.Stages
open Idealize.ShloMosaic.RealValued

/-! ## Words: the packed word gives back the class and the mark -/

/-- A word whose signed value lies in `0 … n - 1`, `n` at most `2 ^ 31`, has the same unsigned value. -/
theorem toNat_of_range (t : BitVec 32) (n : Nat) (hn : n ≤ 2147483648) (h : 0 ≤ t.toInt ∧ t.toInt < n) :
    t.toNat < n ∧ t.toInt = t.toNat := by
  rw [BitVec.toInt_eq_toNat_cond] at h ⊢
  have := t.isLt
  split at h <;> split <;> omega

/-- A mark below two is zero or one. -/
theorem mark_cases (p : BitVec 32) (hp : p.toNat < 2) : p = 0#32 ∨ p = 1#32 := by
  rcases Nat.lt_or_ge p.toNat 1 with h | h
  · exact Or.inl (BitVec.eq_of_toNat_eq (by show p.toNat = 0; omega))
  · exact Or.inr (BitVec.eq_of_toNat_eq (by show p.toNat = 1; omega))

/-- Nothing wraps in `2 · class + mark`: its unsigned value is that number. -/
theorem packed_toNat (t p : BitVec 32) (ht : t.toNat < 1000) (hp : p.toNat < 2) :
    (IntOp.addi (IntOp.muli t 2#32) p).toNat = 2 * t.toNat + p.toNat := by
  unfold IntOp.addi IntOp.muli
  bv_omega

/-- The packed word shifted right by one is the class: the word is below `2 ^ 31`, so the arithmetic shift is the
    logical one, which halves `2 · class + mark` to `class`. -/
theorem unpack_packed (t p : BitVec 32) (ht : t.toNat < 1000) (hp : p.toNat < 2) :
    unpackTarget (IntOp.addi (IntOp.muli t 2#32) p) = t := by
  have hw := packed_toNat t p ht hp
  generalize IntOp.addi (IntOp.muli t 2#32) p = w at hw
  unfold unpackTarget IntOp.shrsi
  rw [if_pos (by decide)]
  have hmsb : w.msb = false := by
    rw [BitVec.msb_eq_decide]; simp; omega
  show w.sshiftRight (1#32).toNat = t
  rw [BitVec.sshiftRight_eq_of_msb_false hmsb]
  apply BitVec.eq_of_toNat_eq
  rw [BitVec.toNat_ushiftRight]
  show w.toNat >>> 1 = t.toNat
  rw [Nat.shiftRight_eq_div_pow]
  omega

/-- The packed word's low bit is the mark: `(2 · class + mark) mod 2 = mark`. -/
theorem low_bit_packed (t p : BitVec 32) (ht : t.toNat < 1000) (hp : p.toNat < 2) :
    IntOp.andi (IntOp.addi (IntOp.muli t 2#32) p) 1#32 = p := by
  have hw := packed_toNat t p ht hp
  generalize IntOp.addi (IntOp.muli t 2#32) p = w at hw
  unfold IntOp.andi
  apply BitVec.eq_of_toNat_eq
  rw [BitVec.toNat_and]
  show w.toNat &&& 1 = p.toNat
  rw [Nat.and_one_is_mod]
  omega

/-- One bit, widened with zeros and read signed, is the bit read unsigned: one or zero either way. -/
theorem bit_signed_eq_unsigned (c : BitVec 1) :
    FloatOps.sitofp (F := Ideal) .f32 (c.setWidth 32) = FloatOps.uitofp (F := Ideal) .f32 c := by
  rcases BitVec.eq_zero_or_eq_one c with h | h <;> subst h
  · show (((0 : Int) : ℝ) : EReal) = (((0 : Nat) : ℝ) : EReal)
    simp
  · show (((1 : Int) : ℝ) : EReal) = (((1 : Nat) : ℝ) : EReal)
    simp

/-- The packed word's clean weight is the mark's weight. -/
theorem clean_packed (t p : BitVec 32) (ht : t.toNat < 1000) (hp : p.toNat < 2) :
    cleanWeight (IntOp.addi (IntOp.muli t 2#32) p) = markWeight p := by
  unfold cleanWeight markWeight
  rw [low_bit_packed t p ht hp]
  exact bit_signed_eq_unsigned _

/-- A row of mark zero has weight one and its class as its segment. -/
theorem markWeight_zero : markWeight 0#32 = 1 := by
  unfold markWeight
  rw [show IntOp.cmpi .eq (0#32) 0#32 = 1#1 from by decide]
  show (((1 : Nat) : ℝ) : EReal) = 1
  simp
theorem segWord_zero (t : BitVec 32) : segWord t 0#32 = t := by
  unfold segWord
  rw [show IntOp.cmpi .eq (0#32) 0#32 = 1#1 from by decide, select_one]
/-- A row of mark one has weight zero. -/
theorem markWeight_one : markWeight 1#32 = 0 := by
  unfold markWeight
  rw [show IntOp.cmpi .eq (1#32) 0#32 = 0#1 from by decide]
  show (((0 : Nat) : ℝ) : EReal) = 0
  simp

/-! ## The one-hot product picks one row -/

/-- Against a label whose value is `c`, the one-hot weights keep the term at `c` alone: every other weight is zero,
    and zero times any extended real is zero. -/
theorem hot_sum (t : BitVec 32) (c : Fin 1024) (ht : t.toNat = c.val) (g : Fin 1024 → EReal) :
    ∑ k : Fin 1024, hot t k.val * g k = g c := by
  rw [Finset.sum_eq_single c]
  · rw [hot_eq _ _ (BitVec.eq_of_toNat_eq (by rw [BitVec.toNat_ofNat]; have := c.isLt; omega)), one_mul]
  · intro k _ hk
    rw [hot_ne, zero_mul]
    intro e
    apply hk
    apply Fin.ext
    have e' := congrArg BitVec.toNat e
    rw [BitVec.toNat_ofNat] at e'
    have := k.isLt
    omega
  · intro hc
    exact absurd (Finset.mem_univ c) hc

/-- A sum over a rank-1 index set is the sum over its coordinate. -/
theorem sum_rank1 {n : Nat} (f : (⟨1, ![n]⟩ : Shape).Idx → EReal) : ∑ i, f i = ∑ a : Fin n, f (ix1 a) := by
  rw [← Equiv.sum_comp (idxEquiv1 (n := n)).symm f]
  rfl

/-! ## The second pass's row quantities, over any rows, packed column and table -/

/-- What the one-hot product picks for row `r`: the table's row of the class the packed word carries. -/
def pickedOf (W : (⟨2, ![262144, 1]⟩ : Shape).Idx → BitVec 32) (Tb : (⟨2, ![1024, 256]⟩ : Shape).Idx → EReal)
    (r : Fin 262144) (d : Fin 256) : EReal :=
  ∑ k : Fin 1024, hot (unpackTarget (W (ix2 r (0 : Fin 1)))) k.val * Tb (ix2 k d)
/-- The row minus what was picked for it. -/
def diffOf (Xf : (⟨2, ![262144, 256]⟩ : Shape).Idx → EReal) (W : (⟨2, ![262144, 1]⟩ : Shape).Idx → BitVec 32)
    (Tb : (⟨2, ![1024, 256]⟩ : Shape).Idx → EReal) (r : Fin 262144) (d : Fin 256) : EReal :=
  Xf (ix2 r d) - pickedOf W Tb r d
/-- The root of the sum of squares of the shifted difference. -/
def distOf (Xf : (⟨2, ![262144, 256]⟩ : Shape).Idx → EReal) (W : (⟨2, ![262144, 1]⟩ : Shape).Idx → BitVec 32)
    (Tb : (⟨2, ![1024, 256]⟩ : Shape).Idx → EReal) (r : Fin 262144) : EReal :=
  Ideal.sqrt (∑ d : Fin 256, (diffOf Xf W Tb r d + eps32) * (diffOf Xf W Tb r d + eps32))

variable (X : (⟨S262144x256, .f32⟩ : BufTy).Contents (Elt Ideal)) (Cn : (⟨S1000x256, .f32⟩ : BufTy).Contents (Elt Ideal))
variable (T P : (⟨S262144, .i32⟩ : BufTy).Contents (Elt Ideal))
variable (W : (⟨2, ![262144, 1]⟩ : Shape).Idx → BitVec 32) (Tb : (⟨2, ![1024, 256]⟩ : Shape).Idx → EReal)

/-- The hypotheses every statement below shares: the ranges, the packed column, the padded table, the real entries. -/
structure Setting : Prop where
  classes : ∀ r : Fin 262144, 0 ≤ (T (ix1 r)).toInt ∧ (T (ix1 r)).toInt < 1000
  marks : ∀ r : Fin 262144, 0 ≤ (P (ix1 r)).toInt ∧ (P (ix1 r)).toInt < 2
  packed : ∀ r : Fin 262144, W (ix2 r (0 : Fin 1)) = IntOp.addi (IntOp.muli (T (ix1 r)) 2#32) (P (ix1 r))
  table_in : ∀ (k : Fin 1000) (d : Fin 256), Tb (ix2 (⟨k.val, by have := k.isLt; omega⟩ : Fin 1024) d) = val_main_v28 (F := Ideal) X Cn T P (ix2 k d)
  rows_real : ∀ i, ∃ x : ℝ, X i = (x : EReal)
  centers_real : ∀ i, ∃ x : ℝ, val_main_v28 (F := Ideal) X Cn T P i = (x : EReal)

/-! ## What the hypotheses give, row by row -/

section Rows
variable {X Cn T P W Tb}

/-- A row's class, read unsigned, is below 1000, -/
theorem Setting.classNat (h : Setting X Cn T P W Tb) (r : Fin 262144) :
    (T (ix1 r)).toNat < 1000 ∧ (T (ix1 r)).toInt = (T (ix1 r)).toNat :=
  toNat_of_range _ 1000 (by decide) (h.classes r)
/-- and its mark below two. -/
theorem Setting.markNat (h : Setting X Cn T P W Tb) (r : Fin 262144) : (P (ix1 r)).toNat < 2 :=
  (toNat_of_range _ 2 (by decide) (h.marks r)).1

/-- The packed word of a row gives back the row's class -/
theorem Setting.unpack (h : Setting X Cn T P W Tb) (r : Fin 262144) :
    unpackTarget (W (ix2 r (0 : Fin 1))) = T (ix1 r) := by
  rw [h.packed r]
  exact unpack_packed _ _ (h.classNat r).1 (h.markNat r)
/-- and the weight of the row's mark. -/
theorem Setting.clean (h : Setting X Cn T P W Tb) (r : Fin 262144) :
    cleanWeight (W (ix2 r (0 : Fin 1))) = markWeight (P (ix1 r)) := by
  rw [h.packed r]
  exact clean_packed _ _ (h.classNat r).1 (h.markNat r)

/-- The one-hot product picks the new centers' row of the row's class. -/
theorem Setting.picked (h : Setting X Cn T P W Tb) (r : Fin 262144) (d : Fin 256) :
    pickedOf W Tb r d = val_main_v28 (F := Ideal) X Cn T P (ix2 (classRow (T (ix1 r)) (h.classes r)) d) := by
  unfold pickedOf
  rw [h.unpack r]
  have hc := h.classNat r
  rw [hot_sum (T (ix1 r)) ⟨(classRow (T (ix1 r)) (h.classes r)).val, by have := (classRow (T (ix1 r)) (h.classes r)).isLt; omega⟩
    (by show (T (ix1 r)).toNat = (T (ix1 r)).toInt.toNat; omega) (fun k => Tb (ix2 k d))]
  exact h.table_in (classRow (T (ix1 r)) (h.classes r)) d
/-- That row is what the reference's take reads, where it feeds the distances -/
theorem Setting.picked35 (h : Setting X Cn T P W Tb) (r : Fin 262144) (d : Fin 256) :
    pickedOf W Tb r d = val_main_v35 (F := Ideal) X Cn T P (ix2 r d) := by
  rw [h.picked r d, take35_apply X Cn T P h.classes r d]
/-- and where it feeds the loss. -/
theorem Setting.picked62 (h : Setting X Cn T P W Tb) (r : Fin 262144) (d : Fin 256) :
    pickedOf W Tb r d = val_main_v62 (F := Ideal) X Cn T P (ix2 r d) := by
  rw [h.picked r d, take62_apply X Cn T P h.classes r d]

/-- The reference's weight column at row `r`: the weight of the row's mark. -/
theorem weight_at (P : (⟨S262144, .i32⟩ : BufTy).Contents (Elt Ideal)) (r : Fin 262144) :
    val_main_v2 (F := Ideal) P (ix1 r) = markWeight (P (ix1 r)) := by
  rw [val_main_v2_apply, val_main_v1_apply, val_main_v0_apply, val_main_c_apply]
  rfl
/-- The reference's complementary weight column at row `r`: one minus that weight. -/
theorem coweight_at (P : (⟨S262144, .i32⟩ : BufTy).Contents (Elt Ideal)) (r : Fin 262144) :
    val_main_v55 (F := Ideal) P (ix1 r) = one32 - markWeight (P (ix1 r)) := by
  rw [val_main_v55_apply, val_main_v54_apply, val_main_cst_13_apply, weight_at]
  rfl

/-- The index at which the reference's row sum reads its operand is `(r, d)`. -/
theorem rowsum_idx (r : Fin 262144) (d : Fin 256) : idx_main_v40 (ix1 r) d = ix2 r d := by
  funext a
  match a with
  | ⟨0, _⟩ => rfl
  | ⟨1, _⟩ => rfl

/-- The index at which the loss's weight, spread over the columns, reads the weight column is `r`. -/
theorem lossweight_idx (r : Fin 262144) (d : Fin 256) : idx_main_v67 (idx_main_v68 (ix2 r d)) = ix1 r := by
  funext a
  match a with
  | ⟨0, _⟩ => rfl

/-- The reference's shifted difference at `(r, d)`. -/
theorem Setting.shifted_at (h : Setting X Cn T P W Tb) (r : Fin 262144) (d : Fin 256) :
    val_main_v38 (F := Ideal) X Cn T P (ix2 r d) = diffOf X W Tb r d + eps32 := by
  rw [val_main_v38_apply, val_main_v36_apply, val_main_v37_apply, val_main_cst_8_apply, ← h.picked35 r d]
  rfl
/-- The reference's sum of squares of row `r`: the literal zero it starts from adds nothing. -/
theorem Setting.sumsq_at (h : Setting X Cn T P W Tb) (r : Fin 262144) :
    val_main_v40 (F := Ideal) X Cn T P (ix1 r)
      = ∑ d : Fin 256, (diffOf X W Tb r d + eps32) * (diffOf X W Tb r d + eps32) := by
  rw [val_main_v40_apply, val_main_cst_9_apply, Ideal.ofBits_def, Ideal.ofBits_zero_f32, zero_add]
  refine Finset.sum_congr rfl fun d _ => ?_
  rw [rowsum_idx, val_main_v39_apply, h.shifted_at r d]
  rfl
/-- The reference's weighted distance of row `r`. -/
theorem Setting.wdist_at (h : Setting X Cn T P W Tb) (r : Fin 262144) :
    val_main_v42 (F := Ideal) X Cn T P (ix1 r) = distOf X W Tb r * markWeight (P (ix1 r)) := by
  rw [val_main_v42_apply, val_main_v41_apply, weight_at, h.sumsq_at r]
  rfl

/-- A row's difference is a real number: a real entry minus a real entry of the new centers. -/
theorem Setting.diff_real (h : Setting X Cn T P W Tb) (r : Fin 262144) (d : Fin 256) : IsReal (diffOf X W Tb r d) := by
  unfold diffOf
  rw [h.picked r d]
  exact IsReal.sub (h.rows_real _) (h.centers_real _)
/-- A row's distance is a real number: the root of a sum of squares of reals, which is real and not negative. -/
theorem Setting.dist_real (h : Setting X Cn T P W Tb) (r : Fin 262144) : IsReal (distOf X W Tb r) := by
  unfold distOf
  refine IsReal.sqrt (IsReal.sum _ _ fun d _ => ?_) (Finset.sum_nonneg fun d _ => ?_)
  · exact ((h.diff_real r d).add isReal_lit_eps).mul ((h.diff_real r d).add isReal_lit_eps)
  · exact IsReal.mul_self_nonneg ((h.diff_real r d).add isReal_lit_eps)

end Rows

/-- A row's weighted distance is the reference's, and is a real number. -/
theorem weighted_dist (h : Setting X Cn T P W Tb) (r : Fin 262144) :
    distOf X W Tb r * cleanWeight (W (ix2 r (0 : Fin 1))) = val_main_v42 (F := Ideal) X Cn T P (ix1 r)
      ∧ ∃ x : ℝ, distOf X W Tb r * cleanWeight (W (ix2 r (0 : Fin 1))) = (x : EReal) := by
  rw [h.clean r]
  exact ⟨(h.wdist_at r).symm, (h.dist_real r).mul (isReal_uitofp _)⟩

/-- The two halves' distance-sum blocks, added from zero, are the reference's per-class distance sums. -/
theorem distsum_bridge (h : Setting X Cn T P W Tb) (a : (⟨3, ![2, 1, 1024]⟩ : Shape).Idx → EReal)
    (ha : ∀ (q : Fin 2) (k : Fin 1024), a (ix3 q (0 : Fin 1) k)
      = ∑ s : Fin 64, ∑ j : Fin 2048,
          (distOf X W Tb (rowAt q s j) * cleanWeight (W (ix2 (rowAt q s j) (0 : Fin 1))))
            * hot (unpackTarget (W (ix2 (rowAt q s j) (0 : Fin 1)))) k.val)
    (k : Fin 1000) :
    Ideal.ofBits .f32 0x00000000#32 + ∑ q : Fin 2, a (ix3 q (0 : Fin 1) (⟨k.val, by have := k.isLt; omega⟩ : Fin 1024))
      = val_main_v46 (F := Ideal) X Cn T P (ix1 k) := by
  -- the two halves' blocks, tile by tile and sample by sample, are one sum over all rows
  have e : ∑ q : Fin 2, a (ix3 q (0 : Fin 1) (⟨k.val, by have := k.isLt; omega⟩ : Fin 1024))
      = ∑ r : Fin 262144, (distOf X W Tb r * cleanWeight (W (ix2 r (0 : Fin 1))))
          * hot (unpackTarget (W (ix2 r (0 : Fin 1)))) k.val := by
    rw [← sum_rows fun r : Fin 262144 => (distOf X W Tb r * cleanWeight (W (ix2 r (0 : Fin 1))))
          * hot (unpackTarget (W (ix2 r (0 : Fin 1)))) k.val]
    exact Finset.sum_congr rfl fun q _ => ha q _
  rw [e, distsum_apply X Cn T P k]
  refine congrArg (_ + ·) (Finset.sum_congr rfl fun r _ => ?_)
  rw [h.unpack r, h.clean r, h.wdist_at r]
  rcases mark_cases _ (h.markNat r) with hp | hp <;> rw [hp]
  · -- a clean row: its segment is its class, and the two terms differ by the order of the factors
    rw [segWord_zero, mul_comm]
  · -- a marked row: its weight is zero, so both terms are zero
    rw [markWeight_one, mul_zero, zero_mul, mul_zero]

/-- The two halves' counts of marked rows, added from zero, are the reference's count. -/
theorem pcount_bridge (h : Setting X Cn T P W Tb) (a : (⟨3, ![2, 1, 1]⟩ : Shape).Idx → EReal)
    (ha : ∀ q : Fin 2, a (ix3 q (0 : Fin 1) (0 : Fin 1))
      = ∑ s : Fin 64, ∑ j : Fin 2048, (one32 - cleanWeight (W (ix2 (rowAt q s j) (0 : Fin 1))))) :
    Ideal.ofBits .f32 0x00000000#32 + ∑ q : Fin 2, a (ix3 q (0 : Fin 1) (0 : Fin 1))
      = val_main_v65 (F := Ideal) P ix0 := by
  have e : ∑ q : Fin 2, a (ix3 q (0 : Fin 1) (0 : Fin 1))
      = ∑ r : Fin 262144, (one32 - cleanWeight (W (ix2 r (0 : Fin 1)))) := by
    rw [← sum_rows fun r : Fin 262144 => one32 - cleanWeight (W (ix2 r (0 : Fin 1)))]
    exact Finset.sum_congr rfl fun q _ => ha q
  rw [e, val_main_v65_apply, val_main_cst_16_apply, Ideal.ofBits_def, sum_rank1]
  refine congrArg (_ + ·) (Finset.sum_congr rfl fun r _ => ?_)
  rw [h.clean r, coweight_at]

/-- The two halves' loss numerators, added from zero, are the reference's. -/
theorem lossnum_bridge (h : Setting X Cn T P W Tb) (a : (⟨3, ![2, 1, 1]⟩ : Shape).Idx → EReal)
    (ha : ∀ q : Fin 2, a (ix3 q (0 : Fin 1) (0 : Fin 1))
      = ∑ s : Fin 64, ∑ j : Fin 2048, ∑ d : Fin 256,
          (diffOf X W Tb (rowAt q s j) d * diffOf X W Tb (rowAt q s j) d)
            * (one32 - cleanWeight (W (ix2 (rowAt q s j) (0 : Fin 1))))) :
    Ideal.ofBits .f32 0x00000000#32 + ∑ q : Fin 2, a (ix3 q (0 : Fin 1) (0 : Fin 1))
      = val_main_v70 (F := Ideal) X Cn T P ix0 := by
  have e : ∑ q : Fin 2, a (ix3 q (0 : Fin 1) (0 : Fin 1))
      = ∑ r : Fin 262144, ∑ d : Fin 256,
          (diffOf X W Tb r d * diffOf X W Tb r d) * (one32 - cleanWeight (W (ix2 r (0 : Fin 1)))) := by
    rw [← sum_rows fun r : Fin 262144 => ∑ d : Fin 256,
          (diffOf X W Tb r d * diffOf X W Tb r d) * (one32 - cleanWeight (W (ix2 r (0 : Fin 1))))]
    exact Finset.sum_congr rfl fun q _ => ha q
  rw [e, val_main_v70_apply, val_main_cst_18_apply, Ideal.ofBits_def, sum_idx2]
  refine congrArg (_ + ·) (Finset.sum_congr rfl fun r _ => Finset.sum_congr rfl fun d _ => ?_)
  rw [h.clean r, val_main_v69_apply, val_main_v64_apply, val_main_v63_apply, ← h.picked62 r d,
    val_main_v68_apply, val_main_v67_apply, lossweight_idx, coweight_at]
  rfl

end Cert.CenterStats

end
-- ==== Proof.CentersReal.lean ====
/-
  The new centers are real numbers when the rows and the old centers are: a new center is either the old one or a
  combination, with finite coefficients, of the old one and a per-class sum (a finite sum of real rows) divided by a
  count clipped below at one (a finite sum of zeros and ones, so real, and at least one after the clip).
-/
import proofs.«415260_j42322607735528_3_alg».proof.Proof.RefStages
import proofs.«415260_j42322607735528_3_alg».proof.Proof.LibRealValued
import Idealize.ShloMosaic.Lib.ValueIdx

noncomputable section

open scoped BigOperators
open Idealize.ShloMosaic Idealize.ShloMosaic.ValueIdx Idealize.ShloMosaic.RealValued

namespace Cert.ReferenceIdeal.Stages

open Cert.ReferenceIdeal Cert.ReferenceIdeal.Read Cert.CenterStats

/-- A one-hot weight is zero or one, so real. -/
theorem isReal_hot (s : BitVec 32) (k : Nat) : IsReal (hot s k) := by
  unfold hot
  split
  · exact isReal_one
  · exact isReal_zero

/-- A row's clean weight is a bit read as a number, so real. -/
theorem isReal_markWeight (p : BitVec 32) : IsReal (markWeight p) := by
  unfold markWeight
  exact isReal_uitofp _

/-- Every per-class count is real: zero plus a finite sum of products of a one-hot weight and a clean weight. -/
theorem counts_real (T P : (⟨S262144, .i32⟩ : BufTy).Contents (Elt Ideal)) (j : S1000.Idx) :
    IsReal (val_main_v14 (F := Ideal) T P j) := by
  obtain ⟨k, rfl⟩ : ∃ k, j = ix1 k := ⟨j 0, eq_ix1 j⟩
  rw [counts_apply]
  refine IsReal.add isReal_lit_zero (IsReal.sum _ _ fun r _ => ?_)
  exact IsReal.mul (isReal_hot _ _) (isReal_markWeight _)

/-- Every per-class sum is real when the rows are: zero plus a finite sum of products of a one-hot weight, a real
    entry and a clean weight. -/
theorem sums_real (X : (⟨S262144x256, .f32⟩ : BufTy).Contents (Elt Ideal)) (T P : (⟨S262144, .i32⟩ : BufTy).Contents (Elt Ideal))
    (hX : ∀ i, IsReal (X i)) (j : S1000x256.Idx) :
    IsReal (val_main_v10 (F := Ideal) X T P j) := by
  obtain ⟨k, d, rfl⟩ : ∃ k d, j = ix2 k d := ⟨j 0, j 1, eq_ix2 j⟩
  rw [sums_apply]
  refine IsReal.add isReal_lit_zero (IsReal.sum _ _ fun r _ => ?_)
  exact IsReal.mul (isReal_hot _ _) (IsReal.mul (hX _) (isReal_markWeight _))

/-- The count clipped below at the literal one is real and at least one, wherever it is read. -/
theorem clipped_real (T P : (⟨S262144, .i32⟩ : BufTy).Contents (Elt Ideal)) (j : S1000.Idx) :
    IsReal (val_main_v16 (F := Ideal) T P j) ∧ (1 : EReal) ≤ val_main_v16 (F := Ideal) T P j := by
  rw [val_main_v16_apply, val_main_v15_apply, val_main_cst_2_apply]
  show IsReal (max (val_main_v14 (F := Ideal) T P j) (Ideal.ofBits .f32 0x3F800000#32))
    ∧ (1 : EReal) ≤ max (val_main_v14 (F := Ideal) T P j) (Ideal.ofBits .f32 0x3F800000#32)
  rw [lit_one]
  exact ⟨IsReal.max (counts_real T P j) isReal_one, one_le_max_one _⟩

/-- Every entry of the new centers is a real number. -/
theorem centers_real (X : (⟨S262144x256, .f32⟩ : BufTy).Contents (Elt Ideal)) (Cn : (⟨S1000x256, .f32⟩ : BufTy).Contents (Elt Ideal))
    (T P : (⟨S262144, .i32⟩ : BufTy).Contents (Elt Ideal))
    (hX : ∀ i, ∃ x : ℝ, X i = (x : EReal)) (hC : ∀ i, ∃ x : ℝ, Cn i = (x : EReal)) :
    ∀ i, ∃ x : ℝ, val_main_v28 (F := Ideal) X Cn T P i = (x : EReal) := by
  intro i
  have hX' : ∀ i, IsReal (X i) := hX
  have hC' : ∀ i, IsReal (Cn i) := hC
  show IsReal (val_main_v28 (F := Ideal) X Cn T P i)
  -- the new center is the old one, or the blend below, according to a bit
  rw [val_main_v28_apply]
  refine isReal_select _ ?_ (hC' i)
  -- the blend: the old center times one literal plus the mean times another
  rw [val_main_v27_apply, val_main_v24_apply, val_main_v23_apply, val_main_cst_4_apply,
    val_main_v26_apply, val_main_v25_apply, val_main_cst_5_apply]
  show IsReal (Cn i * Ideal.ofBits .f32 0x3F7D70A4#32
    + val_main_v19 (F := Ideal) X T P i * Ideal.ofBits .f32 0x3C23D70A#32)
  refine IsReal.add (IsReal.mul (hC' i) isReal_lit_momentum) (IsReal.mul ?_ isReal_lit_rate)
  -- the mean: the per-class sum over the clipped count
  rw [val_main_v19_apply, val_main_v18_apply, val_main_v17_apply]
  show IsReal (Ideal.div (val_main_v10 (F := Ideal) X T P i)
    (val_main_v16 (F := Ideal) T P (idx_main_v17 (idx_main_v18 i))))
  obtain ⟨hr, h1⟩ := clipped_real T P (idx_main_v17 (idx_main_v18 i))
  exact IsReal.div_of_one_le (sums_real X T P hX' i) hr h1

end Cert.ReferenceIdeal.Stages

end
-- ==== Proof.Chains.lean ====
/-
  The two programs share their host arithmetic: from the per-class sums and counts to the new centers, from the count
  of marked rows and the loss numerator to the loss, and from the per-class distance sums and the counts to the new
  radii, both apply the same operations with the same literals. So the reference's results are the kernel program's
  host chains applied to the reference's own sums, counts and totals.
-/
import proofs.«415260_j42322607735528_3_alg».proof.Proof.KernelHost
import proofs.«415260_j42322607735528_3_alg».proof.Proof.RefRead

noncomputable section

open Idealize.ShloMosaic

namespace Cert.Chains

open Cert.ReferenceIdeal.Read Cert.KernelIdeal.HostRead

variable {F : FTy → Type} [FloatOps F]
variable (X : FVec F Cert.KernelIdeal.S262144x256 .f32) (Cn : FVec F Cert.KernelIdeal.S1000x256 .f32)
variable (Rd : FVec F Cert.KernelIdeal.S1000 .f32) (T P : IVec Cert.KernelIdeal.S262144 32)

/-- The reference's new centers are the kernel program's chain over the reference's sums and counts. -/
theorem centers_chain :
    val_main_v28 (F := F) X Cn T P = centerNewOf (F := F) (val_main_v10 (F := F) X T P) (val_main_v14 (F := F) T P) Cn := by
  unfold val_main_v28 val_main_call1_v0 val_main_v22 val_main_v21 val_main_v20 val_main_cst_3 val_main_v27 val_main_v24
    val_main_v23 val_main_cst_4 val_main_v26 val_main_v19 val_main_v18 val_main_v17 val_main_v16 val_main_v15
    val_main_cst_2 val_main_v25 val_main_cst_5 centerNewOf
  rfl

/-- The reference's loss is the kernel program's chain over the reference's count and numerator. -/
theorem loss_chain :
    val_main_v74 (F := F) X Cn T P = lossOf (F := F) (val_main_v65 (F := F) P) (val_main_v70 (F := F) X Cn T P) := by
  unfold val_main_v74 val_main_v66 val_main_cst_17 val_main_v73 val_main_v72 val_main_v71 val_main_cst_19
    val_main_cst_20 val_main_cst_21 lossOf
  rfl

/-- The reference's new radii are the kernel program's chain over the reference's distance sums and counts. -/
theorem radii_chain :
    val_main_v53 (F := F) X Cn Rd T P
      = radiusNewOf (F := F) (val_main_v46 (F := F) X Cn T P) (val_main_v14 (F := F) T P) Rd := by
  unfold val_main_v53 val_main_v21 val_main_v20 val_main_cst_3 val_main_v52 val_main_v49 val_main_v48 val_main_cst_11
    val_main_v51 val_main_v50 val_main_cst_12 val_main_v47 val_main_v16 val_main_v15 val_main_cst_2 radiusNewOf
  rfl

end Cert.Chains

end
-- ==== Proof.KernelValue.lean ====
/-
  What the idealized kernel program's three results hold, as functions of the arguments: the reference's own stage
  functions. The first pass's half blocks total to the reference's per-class sums and counts, so the new centers are the
  reference's; the second pass then reads the rows, the packed column and the padded table of those centers, its half
  blocks total to the reference's distance sums, count and loss numerator, and the shared host arithmetic gives the
  reference's loss and new radii.
-/
import proofs.«415260_j42322607735528_3_alg».proof.Proof.StatsRegion
import proofs.«415260_j42322607735528_3_alg».proof.Proof.StatsCounts
import proofs.«415260_j42322607735528_3_alg».proof.Proof.ReduceRegion
import proofs.«415260_j42322607735528_3_alg».proof.Proof.KernelHost
import proofs.«415260_j42322607735528_3_alg».proof.Proof.KernelHostResults
import proofs.«415260_j42322607735528_3_alg».proof.Proof.ReduceTotals
import proofs.«415260_j42322607735528_3_alg».proof.Proof.ReduceLoss
import proofs.«415260_j42322607735528_3_alg».proof.Proof.StageIndex
import proofs.«415260_j42322607735528_3_alg».proof.Proof.BridgeStats
import proofs.«415260_j42322607735528_3_alg».proof.Proof.BridgeReduce
import proofs.«415260_j42322607735528_3_alg».proof.Proof.CentersReal
import proofs.«415260_j42322607735528_3_alg».proof.Proof.Chains

noncomputable section

open scoped BigOperators
open Idealize.ShloMosaic Idealize.ShloMosaic.TcCoe Idealize.SL.Sem Idealize.ShloMosaic.ValueIdx

namespace Cert.KernelIdeal.Final

open Cert.KernelIdeal Cert.KernelIdeal.Gen Cert.KernelIdeal.HostRead Cert.CenterStats
open Cert.ReferenceIdeal.Read Cert.ReferenceIdeal.Stages

variable (m : (ℓ : Loc nD τ sig) → Buf (Elt Ideal) ℓ) (ρ : Dev nD → PrngReg) (c : Dev nD)

/-- The five argument arrays as launched. -/
abbrev aX : FVec Ideal S262144x256 .f32 := m ((c : Thread nD τ).loc main_arg0)
abbrev aC : FVec Ideal S1000x256 .f32 := m ((c : Thread nD τ).loc main_arg1)
abbrev aR : FVec Ideal S1000 .f32 := m ((c : Thread nD τ).loc main_arg2)
abbrev aT : IVec S262144 32 := m ((c : Thread nD τ).loc main_arg3)
abbrev aP : IVec S262144 32 := m ((c : Thread nD τ).loc main_arg4)

/-- What the precondition gives, element by element. -/
structure Domain : Prop where
  rows_real : ∀ i, ∃ x : ℝ, aX m c i = (x : EReal)
  centers_real : ∀ i, ∃ x : ℝ, aC m c i = (x : EReal)
  classes : ∀ i, 0 ≤ (aT m c i).toInt ∧ (aT m c i).toInt < 1000
  marks : ∀ i, 0 ≤ (aP m c i).toInt ∧ (aP m c i).toInt < 2

/-! ## The first pass -/

/-- The label column the first pass reads is the reference's segment column. -/
theorem labels_eq (r : Fin 262144) :
    V3 m ρ c main_v6 (ix2 r (0 : Fin 1)) = segWord (aT m c (ix1 r)) (aP m c (ix1 r)) := by
  rw [V3_labels, labelsOf_apply]
  rfl

/-- The per-class sums are the reference's. -/
theorem sums_eq : sumsOf (F := Ideal) (out0 m ρ c 2) = val_main_v10 (F := Ideal) (aX m c) (aT m c) (aP m c) := by
  funext i
  obtain ⟨k, d, rfl⟩ : ∃ (k : Fin 1000) (d : Fin 256), i = ix2 k d := ⟨i 0, i 1, eq_ix2 i⟩
  rw [sumsOf_apply]
  refine sums_bridge (aX m c) (aT m c) (aP m c) (out0 m ρ c 2) (V3 m ρ c main_v6) (labels_eq m ρ c) (fun q k d => ?_) k d
  have h := Stats.sums_final (V3 m ρ) c q k d
  simp only [Stats.feats, Stats.labels] at h
  rw [V3_feats] at h
  exact h

/-- The per-class counts are the reference's. -/
theorem counts_eq : countsOf (F := Ideal) (out0 m ρ c 3) = val_main_v14 (F := Ideal) (aT m c) (aP m c) := by
  funext i
  obtain ⟨k, rfl⟩ : ∃ k : Fin 1000, i = ix1 k := ⟨i 0, eq_ix1 i⟩
  rw [countsOf_apply]
  refine counts_bridge (aT m c) (aP m c) (out0 m ρ c 3) (V3 m ρ c main_v6) (labels_eq m ρ c) (fun q k => ?_) k
  exact StatsCounts.counts_total (V3 m ρ) c q k

/-- So the new centers the kernel program computes are the reference's. -/
theorem centers_eq :
    centerNewOf (F := Ideal) (sumsOf (out0 m ρ c 2)) (countsOf (out0 m ρ c 3)) (aC m c)
      = val_main_v28 (F := Ideal) (aX m c) (aC m c) (aT m c) (aP m c) := by
  rw [sums_eq, counts_eq]
  exact (Cert.Chains.centers_chain (F := Ideal) (aX m c) (aC m c) (aT m c) (aP m c)).symm

/-! ## The second pass -/

/-- What the second pass reads is as the bridge asks: the packed column, the padded table of the reference's new
    centers, real rows and real centers, classes and marks in range. -/
theorem setting (h : Domain m c) :
    Setting (aX m c) (aC m c) (aT m c) (aP m c) (V9 m ρ c main_v28) (V9 m ρ c main_v29) where
  classes r := h.classes (ix1 r)
  marks r := h.marks (ix1 r)
  packed r := by rw [V9_packed, packedOf_apply]
  table_in k d := by
    rw [V9_table, centers_eq]
    exact tableOf_apply _ k d
  rows_real := h.rows_real
  centers_real := centers_real (aX m c) (aC m c) (aT m c) (aP m c) h.rows_real h.centers_real

/-- The second pass's row quantities are the bridge's, at what the pass reads. -/
theorem dist_eq (r : Fin 262144) :
    Reduce.dist (V9 m ρ) c r = distOf (aX m c) (V9 m ρ c main_v28) (V9 m ρ c main_v29) r := by
  show distOf (V9 m ρ c main_arg0) (V9 m ρ c main_v28) (V9 m ρ c main_v29) r = _
  rw [V9_feats]
theorem diff_eq (r : Fin 262144) (d : Fin 256) :
    Reduce.diff (V9 m ρ) c r d = diffOf (aX m c) (V9 m ρ c main_v28) (V9 m ρ c main_v29) r d := by
  show diffOf (V9 m ρ c main_arg0) (V9 m ρ c main_v28) (V9 m ρ c main_v29) r d = _
  rw [V9_feats]

/-- The per-class distance sums are the reference's. -/
theorem distsum_eq (h : Domain m c) :
    distSumOf (F := Ideal) (out1 m ρ c 3) = val_main_v46 (F := Ideal) (aX m c) (aC m c) (aT m c) (aP m c) := by
  funext i
  obtain ⟨k, rfl⟩ : ∃ k : Fin 1000, i = ix1 k := ⟨i 0, eq_ix1 i⟩
  rw [distSumOf_apply]
  refine distsum_bridge _ _ _ _ _ _ (setting m ρ c h) (out1 m ρ c 3) (fun q k => ?_) k
  have hfin : ∀ r : Fin 262144, ∃ x : ℝ, Reduce.dist (V9 m ρ) c r * cleanWeight (Reduce.word (V9 m ρ) c r) = (x : EReal) :=
    fun r => by rw [dist_eq]; exact (weighted_dist _ _ _ _ _ _ (setting m ρ c h) r).2
  have e := Reduce.distsum_final (V9 m ρ) c hfin q k
  simp only [dist_eq] at e
  exact e

/-- The count of marked rows is the reference's. -/
theorem pcount_eq (h : Domain m c) : totalOf (F := Ideal) (out1 m ρ c 4) = val_main_v65 (F := Ideal) (aP m c) := by
  funext i
  obtain rfl : i = ix0 := eq_ix0 i
  rw [totalOf_apply]
  exact pcount_bridge _ _ _ _ _ _ (setting m ρ c h) (out1 m ρ c 4) (fun q => Reduce.pcount_final (V9 m ρ) c q)

/-- The loss numerator is the reference's. -/
theorem lossnum_eq (h : Domain m c) :
    totalOf (F := Ideal) (out1 m ρ c 5) = val_main_v70 (F := Ideal) (aX m c) (aC m c) (aT m c) (aP m c) := by
  funext i
  obtain rfl : i = ix0 := eq_ix0 i
  rw [totalOf_apply]
  refine lossnum_bridge _ _ _ _ _ _ (setting m ρ c h) (out1 m ρ c 5) (fun q => ?_)
  have e := Reduce.lossnum_total (V9 m ρ) c q
  simp only [diff_eq] at e
  exact e

/-! ## The three results -/

theorem loss_result (h : Domain m c) :
    W14 m ρ c (Proc.devRef .tc main_v47) = val_main_v74 (F := Ideal) (aX m c) (aC m c) (aT m c) (aP m c) := by
  rw [loss_read, pcount_eq m ρ c h, lossnum_eq m ρ c h]
  exact (Cert.Chains.loss_chain (F := Ideal) (aX m c) (aC m c) (aT m c) (aP m c)).symm

theorem centers_result :
    W14 m ρ c (Proc.devRef .tc main_v26) = val_main_v28 (F := Ideal) (aX m c) (aC m c) (aT m c) (aP m c) := by
  rw [centers_read]
  exact centers_eq m ρ c

theorem radii_result (h : Domain m c) :
    W14 m ρ c (Proc.devRef .tc main_v42)
      = val_main_v53 (F := Ideal) (aX m c) (aC m c) (aR m c) (aT m c) (aP m c) := by
  rw [radii_read, distsum_eq m ρ c h, counts_eq]
  exact (Cert.Chains.radii_chain (F := Ideal) (aX m c) (aC m c) (aR m c) (aT m c) (aP m c)).symm

end Cert.KernelIdeal.Final

end
-- ==== Proof.RefSide.lean ====
/-
  The reference program's run, restated over its stage functions: it ends with the loss, the new centers and the new
  radii at the last stages of the arguments as launched, and the arguments unchanged. Dropping the results gives its
  frame.
-/
import proofs.«415260_j42322607735528_3_alg».proof.Defs
import proofs.«415260_j42322607735528_3_alg».proof.Proof.RefRead
import proofs.«415260_j42322607735528_3_alg».proof.Proof.Gen.ReferenceIdeal
import proofs.«415260_j42322607735528_3_alg».proof.Proof.Gen.Pre_finite_inputs

noncomputable section

open Idealize.ShloMosaic Idealize.ShloMosaic.TcCoe Idealize.SL.Sem

namespace Cert.Proof

open Cert.ReferenceIdeal Cert.ReferenceIdeal.Read

/-- Every weakly fair execution of the reference ends with its three results at the stage functions of the arguments. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v74)
          = val_main_v74 (F := Ideal) (m ((c.tc : Thread nD τ).loc main_arg0)) (m ((c.tc : Thread nD τ).loc main_arg1))
              (m ((c.tc : Thread nD τ).loc main_arg3)) (m ((c.tc : Thread nD τ).loc main_arg4))
      ∧ r.2.mem ((c.tc : Thread nD τ).loc main_v28)
          = val_main_v28 (F := Ideal) (m ((c.tc : Thread nD τ).loc main_arg0)) (m ((c.tc : Thread nD τ).loc main_arg1))
              (m ((c.tc : Thread nD τ).loc main_arg3)) (m ((c.tc : Thread nD τ).loc main_arg4))
      ∧ r.2.mem ((c.tc : Thread nD τ).loc main_v53)
          = val_main_v53 (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun r h c => ⟨(h c).1.trans (val_main_v74_eq m c), (h c).2.1.trans (val_main_v28_eq _ _ _ _),
      (h c).2.2.1.trans (val_main_v53_eq m c), (h c).2.2.2⟩)
    (Cert.ReferenceIdeal.Value.run (F := Ideal) m ρ)

/-- The reference runs and leaves its arguments as launched. -/
theorem frame_reference : Cert.frame_ReferenceIdeal := fun m ρ _ =>
  (θ_run (defs (F := Ideal)) _ _).mono (fun _ h c => (h c).2.2.2) (ref_run m ρ)

end Cert.Proof

end
-- ==== Proof.lean ====
/-
  The certificate: a per-class center update with distances and a loss, computed by two tiled passes over the rows,
  against the same quantities computed by segment sums and a take.

  Under the precondition (real entries, classes in 0 … 999, marks 0 or 1) both programs run, leave their arguments as
  launched, and end with the same loss, new centers and new radii over the extended reals. The word-level kernel and
  its idealization run by their generated frames; the reference by its run read back. The idealization differs from
  the kernel in one rewrite, the widening of a narrowed value replaced by the value. The equality of results: the
  first pass's one-hot products are the reference's segment sums and counts, so the two programs update the centers
  alike; the second pass reads those centers through a one-hot product where the reference takes rows, and its three
  accumulated blocks total to the reference's distance sums, count of marked rows and loss numerator; the host
  arithmetic after that is the same on both sides.
-/
import proofs.«415260_j42322607735528_3_alg».proof.Defs
import proofs.«415260_j42322607735528_3_alg».proof.Proof.Gen.Kernel
import proofs.«415260_j42322607735528_3_alg».proof.Proof.Gen.Kernel.Frame
import proofs.«415260_j42322607735528_3_alg».proof.Proof.Gen.KernelIdeal
import proofs.«415260_j42322607735528_3_alg».proof.Proof.Gen.KernelIdeal.Frame
import proofs.«415260_j42322607735528_3_alg».proof.Proof.Gen.ReferenceIdeal
import proofs.«415260_j42322607735528_3_alg».proof.Proof.Gen.Pre_finite_inputs
import proofs.«415260_j42322607735528_3_alg».proof.Proof.RunResults
import proofs.«415260_j42322607735528_3_alg».proof.Proof.Ranges
import proofs.«415260_j42322607735528_3_alg».proof.Proof.KernelValue
import proofs.«415260_j42322607735528_3_alg».proof.Proof.RefSide

noncomputable section

namespace Cert.Proof

open Idealize.ShloMosaic Idealize.ShloMosaic.TcCoe Idealize.SL.Sem
open Cert.ReferenceIdeal.Read Cert.KernelIdeal.Final

/-- The word-level kernel runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The idealization's one rewrite: a value narrowed and widened again is, over the extended reals, the value. -/
theorem preserves : Cert.preserves_Kernel_KernelIdeal :=
  IdealRules.truncf_extf.statement Cert.KernelIdeal.S2048x1 .f32 .bf16

/-- What the precondition gives on core `c`. -/
theorem domain_of_pre (m : (ℓ : Loc Cert.KernelIdeal.nD Cert.KernelIdeal.τ Cert.KernelIdeal.sig) → Buf (Elt Ideal) ℓ)
    (h : Cert.Pre_KernelIdeal m) (c : Dev Cert.KernelIdeal.nD) : Domain m c := by
  obtain ⟨h1, h2, _, h4, h5⟩ := Cert.Pre_finite_inputs.Decode.of_pre _ _ _ _ _ (h c)
  exact ⟨h1, h2, h4, h5⟩

/-- The two idealized programs, from memories that agree on the arguments, end with equal results. -/
theorem algebraic : Cert.algebraic_KernelIdeal_ReferenceIdeal := by
  intro m ρ m' ρ' hpre hagree
  refine ⟨fun c => val_main_v74 (F := Ideal) (aX m c) (aC m c) (aT m c) (aP m c),
    fun c => val_main_v28 (F := Ideal) (aX m c) (aC m c) (aT m c) (aP m c),
    fun c => val_main_v53 (F := Ideal) (aX m c) (aC m c) (aR m c) (aT m c) (aP m c), ?_, ?_⟩
  · exact (θ_run (Cert.KernelIdeal.defs (F := Ideal)) _ _).mono
      (fun r h c => ⟨(h c).1.trans (loss_result m ρ c (domain_of_pre m hpre c)),
        (h c).2.1.trans (centers_result m ρ c),
        (h c).2.2.1.trans (radii_result m ρ c (domain_of_pre m hpre c)), (h c).2.2.2⟩)
      (Cert.KernelIdeal.Gen.run_results m ρ)
  · refine (θ_run (Cert.ReferenceIdeal.defs (F := Ideal)) _ _).mono (fun r h c => ?_) (ref_run m' ρ')
    obtain ⟨e0, e1, e2, rest⟩ := h c
    obtain ⟨a0, a1, a2, a3, a4⟩ := hagree c
    refine ⟨e0.trans ?_, e1.trans ?_, e2.trans ?_, rest⟩
    · rw [a0, a1, a3, a4]
    · rw [a0, a1, a3, a4]
    · rw [a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
